-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x74 : Shape := ⟨2, ![50000, 74]⟩
abbrev S200000x13 : Shape := ⟨2, ![200000, 13]⟩
abbrev S2x200000 : Shape := ⟨2, ![2, 200000]⟩
abbrev S50000 : Shape := ⟨1, ![50000]⟩
abbrev S200x87 : Shape := ⟨2, ![200, 87]⟩
abbrev S200x200 : Shape := ⟨2, ![200, 200]⟩
abbrev S200 : Shape := ⟨1, ![200]⟩
abbrev S_ : Shape := ⟨0, ![]⟩
abbrev S1x200000 : Shape := ⟨2, ![1, 200000]⟩
abbrev S200000 : Shape := ⟨1, ![200000]⟩

class Facts : Prop where
  bcast_S_S50000x74 : S_.BroadcastsInDim S50000x74 (![] : Fin 0 → Fin S50000x74.rank)
  reducesTo_S50000x74_S_d0_1 : S50000x74.ReducesTo [0, 1] S_
  h_S_ : 0 < S_.numel
  bcast_S_S200000x13 : S_.BroadcastsInDim S200000x13 (![] : Fin 0 → Fin S200000x13.rank)
  reducesTo_S200000x13_S_d0_1 : S200000x13.ReducesTo [0, 1] S_
  bcast_S_S200x87 : S_.BroadcastsInDim S200x87 (![] : Fin 0 → Fin S200x87.rank)
  reducesTo_S200x87_S_d0_1 : S200x87.ReducesTo [0, 1] S_
  bcast_S_S200x200 : S_.BroadcastsInDim S200x200 (![] : Fin 0 → Fin S200x200.rank)
  reducesTo_S200x200_S_d0_1 : S200x200.ReducesTo [0, 1] S_
  bcast_S_S200 : S_.BroadcastsInDim S200 (![] : Fin 0 → Fin S200.rank)
  reducesTo_S200_S_d0 : S200.ReducesTo [0] S_
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  reducesTo_S200000_S_d0 : S200000.ReducesTo [0] S_

variable [Facts]

def fn_part3 {F : FTy → Type} [FloatOps F] (main_arg2 : IVec S2x200000 32) (main_arg10 : FVec F S200 .f32) (main_v48 : IVec S_ 1) (main_v50 : IVec S200000 32) (main_c_18 : IVec S_ 32) : IVec S_ 1 :=
  let main_v51 : IVec S200000 32 := broadcastInDim S200000 ![] bcast_S_S200000 main_c_18
  let main_v52 : IVec S200000 1 := cmpi .sge main_v50 main_v51
  let main_v53 : IVec S1x200000 32 := (extractStridedSlice S1x200000 ![0, 0] · slices_S2x200000_S1x200000_0_0) main_arg2
  let main_v54 : IVec S200000 32 := shapeCast S200000 main_v53 shapeCasts_S1x200000_S200000
  let main_c_19 : IVec S_ 32 := constantI S_ 32 50000#32
  let main_v55 : IVec S200000 32 := broadcastInDim S200000 ![] bcast_S_S200000 main_c_19
  let main_v56 : IVec S200000 1 := cmpi .slt main_v54 main_v55
  let main_v57 : IVec S200000 1 := andi main_v52 main_v56
  let main_c_20 : IVec S_ 1 := constantI S_ 1 1#1
  let main_v58 : IVec S_ 1 := (fun x v => Host.reduce IntOp.andi x v reducesTo_S200000_S_d0 h_S_) main_v57 main_c_20
  let main_v59 : IVec S_ 1 := andi main_v48 main_v58
  let main_cst_21 : FVec F S_ .f32 := constant S_ .f32 0x00000000#32
  let main_v60 : FVec F S200 .f32 := broadcastInDim S200 ![] bcast_S_S200 main_cst_21
  let main_v61 : IVec S200 1 := cmpf .oge main_arg10 main_v60
  let main_c_22 : IVec S_ 1 := constantI S_ 1 1#1
  let main_v62 : IVec S_ 1 := (fun x v => Host.reduce IntOp.andi x v reducesTo_S200_S_d0 h_S_) main_v61 main_c_22
  let main_v63 : IVec S_ 1 := andi main_v59 main_v62
  main_v63

def fn_part2 {F : FTy → Type} [FloatOps F] (main_arg2 : IVec S2x200000 32) (main_arg9 : FVec F S200 .f32) (main_arg10 : FVec F S200 .f32) (main_arg11 : FVec F S200x200 .f32) (main_v33 : IVec S_ 1) : IVec S_ 1 :=
  let main_v34 : FVec F S200 .f32 := Host.absf main_arg9
  let main_cst_12 : FVec F S_ .f32 := constant S_ .f32 0x7F800000#32
  let main_v35 : FVec F S200 .f32 := broadcastInDim S200 ![] bcast_S_S200 main_cst_12
  let main_v36 : IVec S200 1 := cmpf .olt main_v34 main_v35
  let main_c_13 : IVec S_ 1 := constantI S_ 1 1#1
  let main_v37 : IVec S_ 1 := (fun x v => Host.reduce IntOp.andi x v reducesTo_S200_S_d0 h_S_) main_v36 main_c_13
  let main_v38 : IVec S_ 1 := andi main_v33 main_v37
  let main_v39 : FVec F S200 .f32 := Host.absf main_arg10
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S200x200 .f32 := Host.absf main_arg11
  let main_cst_16 : FVec F S_ .f32 := constant S_ .f32 0x7F800000#32
  let main_v45 : FVec F S200x200 .f32 := broadcastInDim S200x200 ![] bcast_S_S200x200 main_cst_16
  let main_v46 : IVec S200x200 1 := cmpf .olt main_v44 main_v45
  let main_c_17 : IVec S_ 1 := constantI S_ 1 1#1
  let main_v47 : IVec S_ 1 := (fun x v => Host.reduce IntOp.andi x v reducesTo_S200x200_S_d0_1 h_S_) main_v46 main_c_17
  let main_v48 : IVec S_ 1 := andi main_v43 main_v47
  let main_v49 : IVec S1x200000 32 := (extractStridedSlice S1x200000 ![0, 0] · slices_S2x200000_S1x200000_0_0) main_arg2
  let main_v50 : IVec S200000 32 := shapeCast S200000 main_v49 shapeCasts_S1x200000_S200000
  let main_c_18 : IVec S_ 32 := constantI S_ 32 0#32
  fn_part3 (F := F) main_arg2 main_arg10 main_v48 main_v50 main_c_18

def fn_part1 {F : FTy → Type} [FloatOps F] (main_arg2 : IVec S2x200000 32) (main_arg6 : FVec F S200 .f32) (main_arg7 : FVec F S200 .f32) (main_arg8 : FVec F S200 .f32) (main_arg9 : FVec F S200 .f32) (main_arg10 : FVec F S200 .f32) (main_arg11 : FVec F S200x200 .f32) (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  let main_v19 : FVec F S200 .f32 := Host.absf main_arg6
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200 .f32 := Host.absf main_arg7
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S200 .f32 := Host.absf main_arg8
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg2 main_arg9 main_arg10 main_arg11 main_v33

def fn {F : FTy → Type} [FloatOps F] (main_arg0 : FVec F S50000x74 .f32) (main_arg1 : FVec F S200000x13 .f32) (main_arg2 : IVec S2x200000 32) (main_arg3 : IVec S50000 32) (main_arg4 : FVec F S200x87 .f32) (main_arg5 : FVec F S200x200 .f32) (main_arg6 : FVec F S200 .f32) (main_arg7 : FVec F S200 .f32) (main_arg8 : FVec F S200 .f32) (main_arg9 : FVec F S200 .f32) (main_arg10 : FVec F S200 .f32) (main_arg11 : FVec F S200x200 .f32) : IVec S_ 1 :=
  let main_v0 : FVec F S50000x74 .f32 := Host.absf main_arg0
  let main_cst : FVec F S_ .f32 := constant S_ .f32 0x7F800000#32
  let main_v1 : FVec F S50000x74 .f32 := broadcastInDim S50000x74 ![] bcast_S_S50000x74 main_cst
  let main_v2 : IVec S50000x74 1 := cmpf .olt main_v0 main_v1
  let main_c : IVec S_ 1 := constantI S_ 1 1#1
  let main_v3 : IVec S_ 1 := (fun x v => Host.reduce IntOp.andi x v reducesTo_S50000x74_S_d0_1 h_S_) main_v2 main_c
  let main_v4 : FVec F S200000x13 .f32 := Host.absf main_arg1
  let main_cst_0 : FVec F S_ .f32 := constant S_ .f32 0x7F800000#32
  let main_v5 : FVec F S200000x13 .f32 := broadcastInDim S200000x13 ![] bcast_S_S200000x13 main_cst_0
  let main_v6 : IVec S200000x13 1 := cmpf .olt main_v4 main_v5
  let main_c_1 : IVec S_ 1 := constantI S_ 1 1#1
  let main_v7 : IVec S_ 1 := (fun x v => Host.reduce IntOp.andi x v reducesTo_S200000x13_S_d0_1 h_S_) main_v6 main_c_1
  let main_v8 : IVec S_ 1 := andi main_v3 main_v7
  let main_v9 : FVec F S200x87 .f32 := Host.absf main_arg4
  let main_cst_2 : FVec F S_ .f32 := constant S_ .f32 0x7F800000#32
  let main_v10 : FVec F S200x87 .f32 := broadcastInDim S200x87 ![] bcast_S_S200x87 main_cst_2
  let main_v11 : IVec S200x87 1 := cmpf .olt main_v9 main_v10
  let main_c_3 : IVec S_ 1 := constantI S_ 1 1#1
  let main_v12 : IVec S_ 1 := (fun x v => Host.reduce IntOp.andi x v reducesTo_S200x87_S_d0_1 h_S_) main_v11 main_c_3
  let main_v13 : IVec S_ 1 := andi main_v8 main_v12
  let main_v14 : FVec F S200x200 .f32 := Host.absf main_arg5
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_arg2 main_arg6 main_arg7 main_arg8 main_arg9 main_arg10 main_arg11 main_v13 main_v16
-- ==== Kernel.lean ====
abbrev S50000x74 : Shape := ⟨2, ![50000, 74]⟩
abbrev S200000x13 : Shape := ⟨2, ![200000, 13]⟩
abbrev S2x200000 : Shape := ⟨2, ![2, 200000]⟩
abbrev S50000 : Shape := ⟨1, ![50000]⟩
abbrev S200x87 : Shape := ⟨2, ![200, 87]⟩
abbrev S200x200 : Shape := ⟨2, ![200, 200]⟩
abbrev S200 : Shape := ⟨1, ![200]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S200000x74 : Shape := ⟨2, ![200000, 74]⟩
abbrev S200x74 : Shape := ⟨2, ![200, 74]⟩
abbrev S74x200 : Shape := ⟨2, ![74, 200]⟩
abbrev S200x13 : Shape := ⟨2, ![200, 13]⟩
abbrev S13x200 : Shape := ⟨2, ![13, 200]⟩
abbrev S200000x200 : Shape := ⟨2, ![200000, 200]⟩
abbrev S5000x74 : Shape := ⟨2, ![5000, 74]⟩
abbrev S5000x13 : Shape := ⟨2, ![5000, 13]⟩
abbrev S5000x200 : Shape := ⟨2, ![5000, 200]⟩
abbrev S1x200 : Shape := ⟨2, ![1, 200]⟩
abbrev S50000x200 : Shape := ⟨2, ![50000, 200]⟩
abbrev S100000x2x200 : Shape := ⟨3, ![100000, 2, 200]⟩
abbrev S2048x200 : Shape := ⟨2, ![2048, 200]⟩
abbrev S50000x1 : Shape := ⟨2, ![50000, 1]⟩
abbrev S2048 : Shape := ⟨1, ![2048]⟩
abbrev S2048x1 : Shape := ⟨2, ![2048, 1]⟩

abbrev nBuf : Space → Nat
  | .hbm => 201
  | .vmem => 53
  | .smem => 0
  | _ => 0

abbrev hbmTy0_0 (i : Nat) : BufTy := match i % 128 with
  | 0 => ⟨S50000x74, .f32⟩
  | 1 => ⟨S200000x13, .f32⟩
  | 2 => ⟨S2x200000, .i32⟩
  | 3 => ⟨S50000, .i32⟩
  | 4 => ⟨S200x87, .f32⟩
  | 5 => ⟨S200x200, .f32⟩
  | 6 => ⟨S200, .f32⟩
  | 7 => ⟨S200, .f32⟩
  | 8 => ⟨S200, .f32⟩
  | 9 => ⟨S200, .f32⟩
  | 10 => ⟨S200, .f32⟩
  | 11 => ⟨S200x200, .f32⟩
  | 12 => ⟨S1x200000, .i32⟩
  | 13 => ⟨S200000, .i32⟩
  | 14 => ⟨S1x200000, .i32⟩
  | 15 => ⟨S200000, .i32⟩
  | 16 => ⟨S_, .i32⟩
  | 17 => ⟨S200000, .i32⟩
  | 18 => ⟨S200000, .i1⟩
  | 19 => ⟨S_, .i32⟩
  | 20 => ⟨S200000, .i32⟩
  | 21 => ⟨S200000, .i32⟩
  | 22 => ⟨S200000, .i32⟩
  | 23 => ⟨S200000x1, .i32⟩
  | 24 => ⟨S1, .i32⟩
  | 25 => ⟨S_, .i32⟩
  | 26 => ⟨S200000x1, .i32⟩
  | 27 => ⟨S200000x1, .i1⟩
  | 28 => ⟨S1x1, .i32⟩
  | 29 => ⟨S200000x1, .i32⟩
  | 30 => ⟨S200000x1, .i1⟩
  | 31 => ⟨S200000x1, .i1⟩
  | 32 => ⟨S_, .i1⟩
  | 33 => ⟨S200000, .i1⟩
  | 34 => ⟨S200000x74, .f32⟩
  | 35 => ⟨S200000x74, .i1⟩
  | 36 => ⟨S_, .f32⟩
  | 37 => ⟨S200000x74, .f32⟩
  | 38 => ⟨S200000x74, .f32⟩
  | 39 => ⟨S200x74, .f32⟩
  | 40 => ⟨S74x200, .f32⟩
  | 41 => ⟨S200x13, .f32⟩
  | 42 => ⟨S13x200, .f32⟩
  | 43 => ⟨S200000x200, .f32⟩
  | 44 => ⟨S_, .f32⟩
  | 45 => ⟨S200, .f32⟩
  | 46 => ⟨S200, .f32⟩
  | 47 => ⟨S200, .f32⟩
  | 48 => ⟨S200, .f32⟩
  | 49 => ⟨S200, .f32⟩
  | 50 => ⟨S200, .f32⟩
  | 51 => ⟨S200x200, .f32⟩
  | 52 => ⟨S1x200, .f32⟩
  | 53 => ⟨S1x200, .f32⟩
  | 54 => ⟨S1x200, .f32⟩
  | 55 => ⟨S_, .f32⟩
  | 56 => ⟨S50000x200, .f32⟩
  | 57 => ⟨S200000x1, .i32⟩
  | 58 => ⟨S50000x200, .f32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S1, .i32⟩
  | 68 => ⟨S_, .i32⟩
  | 69 => ⟨S200000x1, .i32⟩
  | 70 => ⟨S200000x1, .i1⟩
  | 71 => ⟨S1x1, .i32⟩
  | 72 => ⟨S200000x1, .i32⟩
  | 73 => ⟨S200000x1, .i1⟩
  | 74 => ⟨S200000x1, .i1⟩
  | 75 => ⟨S_, .i1⟩
  | 76 => ⟨S200000, .i1⟩
  | 77 => ⟨S200000x200, .f32⟩
  | 78 => ⟨S200000x200, .i1⟩
  | 79 => ⟨S_, .f32⟩
  | 80 => ⟨S200000x200, .f32⟩
  | 81 => ⟨S200000x200, .f32⟩
  | 82 => ⟨S100000x2x200, .f32⟩
  | 83 => ⟨S100000x2x200, .f32⟩
  | 84 => ⟨S200000x200, .f32⟩
  | 85 => ⟨S200000x200, .f32⟩
  | 86 => ⟨S_, .f32⟩
  | 87 => ⟨S50000x200, .f32⟩
  | 88 => ⟨S200000x1, .i32⟩
  | 89 => ⟨S50000x200, .f32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S1, .i32⟩
  | 99 => ⟨S_, .i32⟩
  | 100 => ⟨S200000x1, .i32⟩
  | 101 => ⟨S200000x1, .i1⟩
  | 102 => ⟨S1x1, .i32⟩
  | 103 => ⟨S200000x1, .i32⟩
  | 104 => ⟨S200000x1, .i1⟩
  | 105 => ⟨S200000x1, .i1⟩
  | 106 => ⟨S_, .i1⟩
  | 107 => ⟨S200000, .i1⟩
  | 108 => ⟨S200000x200, .f32⟩
  | 109 => ⟨S200000x200, .i1⟩
  | 110 => ⟨S_, .f32⟩
  | 111 => ⟨S200000x200, .f32⟩
  | 112 => ⟨S200000x200, .f32⟩
  | 113 => ⟨S100000x2x200, .f32⟩
  | 114 => ⟨S100000x2x200, .f32⟩
  | 115 => ⟨S200000x200, .f32⟩
  | 116 => ⟨S200000x200, .f32⟩
  | 117 => ⟨S_, .f32⟩
  | 118 => ⟨S50000x200, .f32⟩
  | 119 => ⟨S200000x1, .i32⟩
  | 120 => ⟨S50000x200, .f32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S50000x74, .f32⟩

abbrev hbmTy0_1 (i : Nat) : BufTy := match i % 128 with
  | 0 => ⟨S200000x1, .i32⟩
  | 1 => ⟨S1, .i32⟩
  | 2 => ⟨S_, .i32⟩
  | 3 => ⟨S200000x1, .i32⟩
  | 4 => ⟨S200000x1, .i1⟩
  | 5 => ⟨S1x1, .i32⟩
  | 6 => ⟨S200000x1, .i32⟩
  | 7 => ⟨S200000x1, .i1⟩
  | 8 => ⟨S200000x1, .i1⟩
  | 9 => ⟨S_, .i1⟩
  | 10 => ⟨S200000, .i1⟩
  | 11 => ⟨S200000x200, .f32⟩
  | 12 => ⟨S200000x200, .i1⟩
  | 13 => ⟨S_, .f32⟩
  | 14 => ⟨S200000x200, .f32⟩
  | 15 => ⟨S200000x200, .f32⟩
  | 16 => ⟨S100000x2x200, .f32⟩
  | 17 => ⟨S100000x2x200, .f32⟩
  | 18 => ⟨S200000x200, .f32⟩
  | 19 => ⟨S200000x200, .f32⟩
  | 20 => ⟨S_, .f32⟩
  | 21 => ⟨S50000x200, .f32⟩
  | 22 => ⟨S200000x1, .i32⟩
  | 23 => ⟨S50000x200, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S1, .i32⟩
  | 33 => ⟨S_, .i32⟩
  | 34 => ⟨S200000x1, .i32⟩
  | 35 => ⟨S200000x1, .i1⟩
  | 36 => ⟨S1x1, .i32⟩
  | 37 => ⟨S200000x1, .i32⟩
  | 38 => ⟨S200000x1, .i1⟩
  | 39 => ⟨S200000x1, .i1⟩
  | 40 => ⟨S_, .i1⟩
  | 41 => ⟨S200000, .i1⟩
  | 42 => ⟨S200000x200, .f32⟩
  | 43 => ⟨S200000x200, .i1⟩
  | 44 => ⟨S_, .f32⟩
  | 45 => ⟨S200000x200, .f32⟩
  | 46 => ⟨S200000x200, .f32⟩
  | 47 => ⟨S100000x2x200, .f32⟩
  | 48 => ⟨S100000x2x200, .f32⟩
  | 49 => ⟨S200000x200, .f32⟩
  | 50 => ⟨S200000x200, .f32⟩
  | 51 => ⟨S_, .f32⟩
  | 52 => ⟨S50000x200, .f32⟩
  | 53 => ⟨S200000x1, .i32⟩
  | 54 => ⟨S50000x200, .f32⟩
  | 55 => ⟨S200x200, .f32⟩
  | 56 => ⟨S50000x200, .f32⟩
  | 57 => ⟨S_, .f32⟩
  | 58 => ⟨S2048x200, .f32⟩
  | 59 => ⟨S50000x1, .i32⟩
  | 60 => ⟨S2048x200, .f32⟩
  | 61 => ⟨S_, .f32⟩
  | 62 => ⟨S50000, .f32⟩
  | 63 => ⟨S_, .f32⟩
  | 64 => ⟨S2048, .f32⟩
  | 65 => ⟨S50000x1, .i32⟩
  | 66 => ⟨S2048, .f32⟩
  | 67 => ⟨S_, .f32⟩
  | 68 => ⟨S2048, .f32⟩
  | 69 => ⟨S2048, .f32⟩
  | 70 => ⟨S2048x1, .f32⟩
  | 71 => ⟨S2048x200, .f32⟩
  | 72 => ⟨S2048x200, .f32⟩
  | _ => ⟨S50000x74, .f32⟩

abbrev hbmTy (i : Nat) : BufTy := match i / 128 with
  | 0 => hbmTy0_0 i
  | 1 => hbmTy0_1 i
  | _ => ⟨S50000x74, .f32⟩

abbrev bufTy : (tb : Table) → Fin (tcTables nBuf tb) → BufTy
  | .hbm, ⟨i, _⟩ => hbmTy i
  | .local _ .vmem, ⟨0, _⟩ => ⟨S5000x74, .f32⟩
  | .local _ .vmem, ⟨1, _⟩ => ⟨S5000x74, .f32⟩
  | .local _ .vmem, ⟨2, _⟩ => ⟨S5000x13, .f32⟩
  | .local _ .vmem, ⟨3, _⟩ => ⟨S5000x13, .f32⟩
  | .local _ .vmem, ⟨4, _⟩ => ⟨S74x200, .f32⟩
  | .local _ .vmem, ⟨5, _⟩ => ⟨S13x200, .f32⟩
  | .local _ .vmem, ⟨6, _⟩ => ⟨S5000x200, .f32⟩
  | .local _ .vmem, ⟨7, _⟩ => ⟨S5000x200, .f32⟩
  | .local _ .vmem, ⟨8, _⟩ => ⟨S5000x200, .f32⟩
  | .local _ .vmem, ⟨9, _⟩ => ⟨S5000x200, .f32⟩
  | .local _ .vmem, ⟨10, _⟩ => ⟨S5000x200, .f32⟩
  | .local _ .vmem, ⟨11, _⟩ => ⟨S5000x200, .f32⟩
  | .local _ .vmem, ⟨12, _⟩ => ⟨S200x200, .f32⟩
  | .local _ .vmem, ⟨13, _⟩ => ⟨S1x200, .f32⟩
  | .local _ .vmem, ⟨14, _⟩ => ⟨S1x200, .f32⟩
  | .local _ .vmem, ⟨15, _⟩ => ⟨S1x200, .f32⟩
  | .local _ .vmem, ⟨16, _⟩ => ⟨S5000x200, .f32⟩
  | .local _ .vmem, ⟨17, _⟩ => ⟨S5000x200, .f32⟩
  | .local _ .vmem, ⟨18, _⟩ => ⟨S5000x200, .f32⟩
  | .local _ .vmem, ⟨19, _⟩ => ⟨S5000x200, .f32⟩
  | .local _ .vmem, ⟨20, _⟩ => ⟨S5000x200, .f32⟩
  | .local _ .vmem, ⟨21, _⟩ => ⟨S5000x200, .f32⟩
  | .local _ .vmem, ⟨22, _⟩ => ⟨S200x200, .f32⟩
  | .local _ .vmem, ⟨23, _⟩ => ⟨S1x200, .f32⟩
  | .local _ .vmem, ⟨24, _⟩ => ⟨S1x200, .f32⟩
  | .local _ .vmem, ⟨25, _⟩ => ⟨S1x200, .f32⟩
  | .local _ .vmem, ⟨26, _⟩ => ⟨S5000x200, .f32⟩
  | .local _ .vmem, ⟨27, _⟩ => ⟨S5000x200, .f32⟩
  | .local _ .vmem, ⟨28, _⟩ => ⟨S5000x200, .f32⟩
  | .local _ .vmem, ⟨29, _⟩ => ⟨S5000x200, .f32⟩
  | .local _ .vmem, ⟨30, _⟩ => ⟨S5000x200, .f32⟩
  | .local _ .vmem, ⟨31, _⟩ => ⟨S5000x200, .f32⟩
  | .local _ .vmem, ⟨32, _⟩ => ⟨S200x200, .f32⟩
  | .local _ .vmem, ⟨33, _⟩ => ⟨S1x200, .f32⟩
  | .local _ .vmem, ⟨34, _⟩ => ⟨S1x200, .f32⟩
  | .local _ .vmem, ⟨35, _⟩ => ⟨S1x200, .f32⟩
  | .local _ .vmem, ⟨36, _⟩ => ⟨S5000x200, .f32⟩
  | .local _ .vmem, ⟨37, _⟩ => ⟨S5000x200, .f32⟩
  | .local _ .vmem, ⟨38, _⟩ => ⟨S5000x200, .f32⟩
  | .local _ .vmem, ⟨39, _⟩ => ⟨S5000x200, .f32⟩
  | .local _ .vmem, ⟨40, _⟩ => ⟨S5000x200, .f32⟩
  | .local _ .vmem, ⟨41, _⟩ => ⟨S5000x200, .f32⟩
  | .local _ .vmem, ⟨42, _⟩ => ⟨S200x200, .f32⟩
  | .local _ .vmem, ⟨43, _⟩ => ⟨S1x200, .f32⟩
  | .local _ .vmem, ⟨44, _⟩ => ⟨S1x200, .f32⟩
  | .local _ .vmem, ⟨45, _⟩ => ⟨S1x200, .f32⟩
  | .local _ .vmem, ⟨46, _⟩ => ⟨S5000x200, .f32⟩
  | .local _ .vmem, ⟨47, _⟩ => ⟨S5000x200, .f32⟩
  | .local _ .vmem, ⟨48, _⟩ => ⟨S5000x200, .f32⟩
  | .local _ .vmem, ⟨49, _⟩ => ⟨S5000x200, .f32⟩
  | .local _ .vmem, ⟨50, _⟩ => ⟨S200x200, .f32⟩
  | .local _ .vmem, ⟨51, _⟩ => ⟨S5000x200, .f32⟩
  | .local _ .vmem, ⟨52, _⟩ => ⟨S5000x200, .f32⟩
  | _, _ => ⟨S50000x74, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_cst_1 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_cst_2 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_cst_3 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_call4_c : Ref sig .tc := ⟨.hbm, 152, rfl⟩
abbrev main_call4_v0 : Ref sig .tc := ⟨.hbm, 153, rfl⟩
abbrev main_call4_v1 : Ref sig .tc := ⟨.hbm, 154, rfl⟩
abbrev main_call4_c_0 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_call4_v5 : Ref sig .tc := ⟨.hbm, 159, rfl⟩
abbrev main_call4_c_1 : Ref sig .tc := ⟨.hbm, 160, rfl⟩
abbrev main_call4_c_2 : Ref sig .tc := ⟨.hbm, 161, rfl⟩
abbrev main_call4_v6 : Ref sig .tc := ⟨.hbm, 162, rfl⟩
abbrev main_call4_v7 : Ref sig .tc := ⟨.hbm, 163, rfl⟩
abbrev main_call4_v8 : Ref sig .tc := ⟨.hbm, 164, rfl⟩
abbrev main_call4_v9 : Ref sig .tc := ⟨.hbm, 165, rfl⟩
abbrev main_call4_v10 : Ref sig .tc := ⟨.hbm, 166, rfl⟩
abbrev main_call4_v11 : Ref sig .tc := ⟨.hbm, 167, rfl⟩
abbrev main_call4_c_3 : Ref sig .tc := ⟨.hbm, 168, rfl⟩
abbrev main_call4_v12 : Ref sig .tc := ⟨.hbm, 169, rfl⟩
abbrev main_call4_v13 : Ref sig .tc := ⟨.hbm, 170, rfl⟩
abbrev main_call4_v14 : Ref sig .tc := ⟨.hbm, 171, rfl⟩
abbrev main_call4_cst : Ref sig .tc := ⟨.hbm, 172, rfl⟩
abbrev main_call4_v15 : Ref sig .tc := ⟨.hbm, 173, rfl⟩
abbrev main_v47 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩
abbrev main_v51 : Ref sig .tc := ⟨.hbm, 178, rfl⟩
abbrev main_cst_4 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_v56 : Ref sig .tc := ⟨.hbm, 184, rfl⟩
abbrev main_cst_5 : Ref sig .tc := ⟨.hbm, 185, rfl⟩
abbrev main_v57 : Ref sig .tc := ⟨.hbm, 186, rfl⟩
abbrev main_v58 : Ref sig .tc := ⟨.hbm, 187, rfl⟩
abbrev main_v59 : Ref sig .tc := ⟨.hbm, 188, rfl⟩
abbrev main_cst_6 : Ref sig .tc := ⟨.hbm, 189, rfl⟩
abbrev main_v60 : Ref sig .tc := ⟨.hbm, 190, rfl⟩
abbrev main_cst_7 : Ref sig .tc := ⟨.hbm, 191, rfl⟩
abbrev main_v61 : Ref sig .tc := ⟨.hbm, 192, rfl⟩
abbrev main_v62 : Ref sig .tc := ⟨.hbm, 193, rfl⟩
abbrev main_v63 : Ref sig .tc := ⟨.hbm, 194, rfl⟩
abbrev main_cst_8 : Ref sig .tc := ⟨.hbm, 195, rfl⟩
abbrev main_v64 : Ref sig .tc := ⟨.hbm, 196, rfl⟩
abbrev main_v65 : Ref sig .tc := ⟨.hbm, 197, rfl⟩
abbrev main_v66 : Ref sig .tc := ⟨.hbm, 198, rfl⟩
abbrev main_v67 : Ref sig .tc := ⟨.hbm, 199, rfl⟩
abbrev main_v68 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg6_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg2_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem2_1 : DmaSem sig := 52

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x74 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S74x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S200x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x200 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S200x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x200 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x200 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x200 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x200 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S200x200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x200 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x200 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x200 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x200 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x200 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x200 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S200x200 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x200 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x200 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x200 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x200 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x200 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S200x200 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x200 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x74_0 : S200000.BroadcastsInDim S200000x74 (![0] : Fin 1 → Fin S200000x74.rank)
  bcast_S_S200000x74 : S_.BroadcastsInDim S200000x74 (![] : Fin 0 → Fin S200000x74.rank)
  slices_S200x87_S200x74_0_0 : S200x87.Slices ![0, 0] S200x74
  transposes_S200x74_S74x200_1_0 : S200x74.Transposes [1, 0] S74x200
  slices_S200x87_S200x13_0_74 : S200x87.Slices ![0, 74] S200x13
  transposes_S200x13_S13x200_1_0 : S200x13.Transposes [1, 0] S13x200
  inb_S5000x74_S5000x74_0_0 : ∀ a, (![0, 0] : Fin 2 → Nat) a + S5000x74.size a ≤ S5000x74.size a
  h_S5000x74 : 0 < S5000x74.numel
  shapeCasts_S5000x74_S5000x74 : S5000x74.ShapeCasts S5000x74
  inb_S74x200_S74x200_0_0 : ∀ a, (![0, 0] : Fin 2 → Nat) a + S74x200.size a ≤ S74x200.size a
  h_S74x200 : 0 < S74x200.numel
  shapeCasts_S74x200_S74x200 : S74x200.ShapeCasts S74x200
  inb_S5000x13_S5000x13_0_0 : ∀ a, (![0, 0] : Fin 2 → Nat) a + S5000x13.size a ≤ S5000x13.size a
  h_S5000x13 : 0 < S5000x13.numel
  inb_S13x200_S13x200_0_0 : ∀ a, (![0, 0] : Fin 2 → Nat) a + S13x200.size a ≤ S13x200.size a
  h_S13x200 : 0 < S13x200.numel
  shapeCasts_S13x200_S13x200 : S13x200.ShapeCasts S13x200
  inb_S5000x200_S5000x200_0_0 : ∀ a, (![0, 0] : Fin 2 → Nat) a + S5000x200.size a ≤ S5000x200.size a
  h_S5000x200 : 0 < S5000x200.numel
  bcast_S_S200 : S_.BroadcastsInDim S200 (![] : Fin 0 → Fin S200.rank)
  transposes_S200x200_S200x200_1_0 : S200x200.Transposes [1, 0] S200x200
  shapeCasts_S200_S1x200 : S200.ShapeCasts S1x200
  bcast_S_S50000x200 : S_.BroadcastsInDim S50000x200 (![] : Fin 0 → Fin S50000x200.rank)
  bcast_S200000_S200000x200_0 : S200000.BroadcastsInDim S200000x200 (![0] : Fin 1 → Fin S200000x200.rank)
  bcast_S_S200000x200 : S_.BroadcastsInDim S200000x200 (![] : Fin 0 → Fin S200000x200.rank)
  shapeCasts_S200000x200_S100000x2x200 : S200000x200.ShapeCasts S100000x2x200
  shapeCasts_S100000x2x200_S200000x200 : S100000x2x200.ShapeCasts S200000x200
  shapeCasts_S5000x200_S5000x200 : S5000x200.ShapeCasts S5000x200
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S5000x200 : S1x200.Broadcasts S5000x200
  bcast_S_S2048x200 : S_.BroadcastsInDim S2048x200 (![] : Fin 0 → Fin S2048x200.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x200_0_1 : S2048x1.BroadcastsInDim S2048x200 (![0, 1] : Fin 2 → Fin S2048x200.rank)
  gather_S50000x74_S200000x1_S200000x74_1_0_n_n_0_1_174_wf : GatherDims.WF S50000x74 S200000x1 S200000x74 [1] [0] [] [0] [] 1 ![1, 74]
  dot_S5000x74_S74x200_S5000x200_1_0_0_1_n_n_wf : DotDims.WF S5000x74 S74x200 S5000x200 [1] [0] [0] [1] [] []
  dot_S5000x13_S13x200_S5000x200_1_0_0_1_n_n_wf : DotDims.WF S5000x13 S13x200 S5000x200 [1] [0] [0] [1] [] []
  scatter_S50000x200_S200000x1_S200000x200_1_0_0_1_wf : ScatterDims.WF S50000x200 S200000x1 S200000x200 [1] [0] [0] 1
  gather_S50000x200_S200000x1_S200000x200_1_0_n_n_0_1_1200_wf : GatherDims.WF S50000x200 S200000x1 S200000x200 [1] [0] [] [0] [] 1 ![1, 200]
  dot_S5000x200_S200x200_S5000x200_1_0_0_1_n_n_wf : DotDims.WF S5000x200 S200x200 S5000x200 [1] [0] [0] [1] [] []
  scatter_S2048x200_S50000x1_S50000x200_1_0_0_1_wf : ScatterDims.WF S2048x200 S50000x1 S50000x200 [1] [0] [0] 1
  scatter_S2048_S50000x1_S50000_n_0_0_1_wf : ScatterDims.WF S2048 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x74.size a ≤ S200000x74.size a
  hwx0_0 : ∀ i : grid0.Coords, EltTy.bits .f32 = 32 ∨ (Rect.block (s := S200000x74) S5000x74.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x13.size a ≤ S200000x13.size a
  hwx0_1 : ∀ i : grid0.Coords, EltTy.bits .f32 = 32 ∨ (Rect.block (s := S200000x13) S5000x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S74x200.size a ≤ S74x200.size a
  hwx0_2 : ∀ i : grid0.Coords, EltTy.bits .f32 = 32 ∨ (Rect.block (s := S74x200) S74x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x200.size a ≤ S13x200.size a
  hwx0_3 : ∀ i : grid0.Coords, EltTy.bits .f32 = 32 ∨ (Rect.block (s := S13x200) S13x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x200.size a ≤ S200000x200.size a
  hwx0_4 : ∀ i : grid0.Coords, EltTy.bits .f32 = 32 ∨ (Rect.block (s := S200000x200) S5000x200.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x200.size a ≤ S200000x200.size a
  hwx1_0 : ∀ i : grid1.Coords, EltTy.bits .f32 = 32 ∨ (Rect.block (s := S200000x200) S5000x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x200.size a ≤ S200000x200.size a
  hwx1_1 : ∀ i : grid1.Coords, EltTy.bits .f32 = 32 ∨ (Rect.block (s := S200000x200) S5000x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200x200.size a ≤ S200x200.size a
  hwx1_2 : ∀ i : grid1.Coords, EltTy.bits .f32 = 32 ∨ (Rect.block (s := S200x200) S200x200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x200.size a ≤ S1x200.size a
  hwx1_3 : ∀ i : grid1.Coords, EltTy.bits .f32 = 32 ∨ (Rect.block (s := S1x200) S1x200.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x200.size a ≤ S1x200.size a
  hwx1_4 : ∀ i : grid1.Coords, EltTy.bits .f32 = 32 ∨ (Rect.block (s := S1x200) S1x200.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x200.size a ≤ S1x200.size a
  hwx1_5 : ∀ i : grid1.Coords, EltTy.bits .f32 = 32 ∨ (Rect.block (s := S1x200) S1x200.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x200.size a ≤ S200000x200.size a
  hwx1_6 : ∀ i : grid1.Coords, EltTy.bits .f32 = 32 ∨ (Rect.block (s := S200000x200) S5000x200.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x200.size a ≤ S200000x200.size a
  hwx2_0 : ∀ i : grid2.Coords, EltTy.bits .f32 = 32 ∨ (Rect.block (s := S200000x200) S5000x200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x200.size a ≤ S200000x200.size a
  hwx2_1 : ∀ i : grid2.Coords, EltTy.bits .f32 = 32 ∨ (Rect.block (s := S200000x200) S5000x200.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S200x200.size a ≤ S200x200.size a
  hwx2_2 : ∀ i : grid2.Coords, EltTy.bits .f32 = 32 ∨ (Rect.block (s := S200x200) S200x200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x200.size a ≤ S1x200.size a
  hwx2_3 : ∀ i : grid2.Coords, EltTy.bits .f32 = 32 ∨ (Rect.block (s := S1x200) S1x200.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x200.size a ≤ S1x200.size a
  hwx2_4 : ∀ i : grid2.Coords, EltTy.bits .f32 = 32 ∨ (Rect.block (s := S1x200) S1x200.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x200.size a ≤ S1x200.size a
  hwx2_5 : ∀ i : grid2.Coords, EltTy.bits .f32 = 32 ∨ (Rect.block (s := S1x200) S1x200.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x200.size a ≤ S200000x200.size a
  hwx2_6 : ∀ i : grid2.Coords, EltTy.bits .f32 = 32 ∨ (Rect.block (s := S200000x200) S5000x200.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x200.size a ≤ S200000x200.size a
  hwx3_0 : ∀ i : grid3.Coords, EltTy.bits .f32 = 32 ∨ (Rect.block (s := S200000x200) S5000x200.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x200.size a ≤ S200000x200.size a
  hwx3_1 : ∀ i : grid3.Coords, EltTy.bits .f32 = 32 ∨ (Rect.block (s := S200000x200) S5000x200.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S200x200.size a ≤ S200x200.size a
  hwx3_2 : ∀ i : grid3.Coords, EltTy.bits .f32 = 32 ∨ (Rect.block (s := S200x200) S200x200.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x200.size a ≤ S1x200.size a
  hwx3_3 : ∀ i : grid3.Coords, EltTy.bits .f32 = 32 ∨ (Rect.block (s := S1x200) S1x200.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x200.size a ≤ S1x200.size a
  hwx3_4 : ∀ i : grid3.Coords, EltTy.bits .f32 = 32 ∨ (Rect.block (s := S1x200) S1x200.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x200.size a ≤ S1x200.size a
  hwx3_5 : ∀ i : grid3.Coords, EltTy.bits .f32 = 32 ∨ (Rect.block (s := S1x200) S1x200.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x200.size a ≤ S200000x200.size a
  hwx3_6 : ∀ i : grid3.Coords, EltTy.bits .f32 = 32 ∨ (Rect.block (s := S200000x200) S5000x200.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x200.size a ≤ S200000x200.size a
  hwx4_0 : ∀ i : grid4.Coords, EltTy.bits .f32 = 32 ∨ (Rect.block (s := S200000x200) S5000x200.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x200.size a ≤ S200000x200.size a
  hwx4_1 : ∀ i : grid4.Coords, EltTy.bits .f32 = 32 ∨ (Rect.block (s := S200000x200) S5000x200.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S200x200.size a ≤ S200x200.size a
  hwx4_2 : ∀ i : grid4.Coords, EltTy.bits .f32 = 32 ∨ (Rect.block (s := S200x200) S200x200.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x200.size a ≤ S1x200.size a
  hwx4_3 : ∀ i : grid4.Coords, EltTy.bits .f32 = 32 ∨ (Rect.block (s := S1x200) S1x200.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x200.size a ≤ S1x200.size a
  hwx4_4 : ∀ i : grid4.Coords, EltTy.bits .f32 = 32 ∨ (Rect.block (s := S1x200) S1x200.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x200.size a ≤ S1x200.size a
  hwx4_5 : ∀ i : grid4.Coords, EltTy.bits .f32 = 32 ∨ (Rect.block (s := S1x200) S1x200.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x200.size a ≤ S200000x200.size a
  hwx4_6 : ∀ i : grid4.Coords, EltTy.bits .f32 = 32 ∨ (Rect.block (s := S200000x200) S5000x200.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x200.size a ≤ S50000x200.size a
  hwx5_0 : ∀ i : grid5.Coords, EltTy.bits .f32 = 32 ∨ (Rect.block (s := S50000x200) S5000x200.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S200x200.size a ≤ S200x200.size a
  hwx5_1 : ∀ i : grid5.Coords, EltTy.bits .f32 = 32 ∨ (Rect.block (s := S200x200) S200x200.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x200.size a ≤ S50000x200.size a
  hwx5_2 : ∀ i : grid5.Coords, EltTy.bits .f32 = 32 ∨ (Rect.block (s := S50000x200) S5000x200.size (cc5_transform_2 i) (hinb5_2 i)).WholeWords (EltTy.packing .f32)

variable [Facts₀]

def gather_S50000x74_S200000x1_S200000x74_1_0_n_n_0_1_174 : GatherDims S50000x74 S200000x1 S200000x74 where
  offsetDims := [1]
  collapsedSliceDims := [0]
  operandBatchingDims := []
  startIndicesBatchingDims := []
  startIndexMap := [0]
  indexVectorDim := 1
  sliceSizes := ![1, 74]
  wf := gather_S50000x74_S200000x1_S200000x74_1_0_n_n_0_1_174_wf
def dot_S5000x74_S74x200_S5000x200_1_0_0_1_n_n : DotDims S5000x74 S74x200 S5000x200 where
  lhsContracting := [1]
  rhsContracting := [0]
  lhsNonContracting := [0]
  rhsNonContracting := [1]
  lhsBatch := []
  rhsBatch := []
  wf := dot_S5000x74_S74x200_S5000x200_1_0_0_1_n_n_wf
def dot_S5000x13_S13x200_S5000x200_1_0_0_1_n_n : DotDims S5000x13 S13x200 S5000x200 where
  lhsContracting := [1]
  rhsContracting := [0]
  lhsNonContracting := [0]
  rhsNonContracting := [1]
  lhsBatch := []
  rhsBatch := []
  wf := dot_S5000x13_S13x200_S5000x200_1_0_0_1_n_n_wf
def scatter_S50000x200_S200000x1_S200000x200_1_0_0_1 : ScatterDims S50000x200 S200000x1 S200000x200 where
  updateWindowDims := [1]
  insertedWindowDims := [0]
  scatterDimsToOperandDims := [0]
  indexVectorDim := 1
  wf := scatter_S50000x200_S200000x1_S200000x200_1_0_0_1_wf
def gather_S50000x200_S200000x1_S200000x200_1_0_n_n_0_1_1200 : GatherDims S50000x200 S200000x1 S200000x200 where
  offsetDims := [1]
  collapsedSliceDims := [0]
  operandBatchingDims := []
  startIndicesBatchingDims := []
  startIndexMap := [0]
  indexVectorDim := 1
  sliceSizes := ![1, 200]
  wf := gather_S50000x200_S200000x1_S200000x200_1_0_n_n_0_1_1200_wf
def dot_S5000x200_S200x200_S5000x200_1_0_0_1_n_n : DotDims S5000x200 S200x200 S5000x200 where
  lhsContracting := [1]
  rhsContracting := [0]
  lhsNonContracting := [0]
  rhsNonContracting := [1]
  lhsBatch := []
  rhsBatch := []
  wf := dot_S5000x200_S200x200_S5000x200_1_0_0_1_n_n_wf
def scatter_S2048x200_S50000x1_S50000x200_1_0_0_1 : ScatterDims S2048x200 S50000x1 S50000x200 where
  updateWindowDims := [1]
  insertedWindowDims := [0]
  scatterDimsToOperandDims := [0]
  indexVectorDim := 1
  wf := scatter_S2048x200_S50000x1_S50000x200_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf

abbrev win0_0 : Pipeline.Window sig grid0 :=
  Pipeline.Window.ofSpec (Memref.whole main_v4) S5000x74.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S74x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S13x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S5000x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S5000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S200x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x200.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x200.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S5000x200.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S5000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S200x200.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x200.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x200.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x200.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S5000x200.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v39) S5000x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x200.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S200x200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x200.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1x200.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v19) S1x200.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S5000x200.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v47) S5000x200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S5000x200.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S200x200.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v17) S1x200.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v18) S1x200.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v19) S1x200.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v51) S5000x200.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v54) S5000x200.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S200x200.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S5000x200.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x74 : Shape := ⟨2, ![50000, 74]⟩
abbrev S200000x13 : Shape := ⟨2, ![200000, 13]⟩
abbrev S2x200000 : Shape := ⟨2, ![2, 200000]⟩
abbrev S50000 : Shape := ⟨1, ![50000]⟩
abbrev S200x87 : Shape := ⟨2, ![200, 87]⟩
abbrev S200x200 : Shape := ⟨2, ![200, 200]⟩
abbrev S200 : Shape := ⟨1, ![200]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x74 : Shape := ⟨2, ![200000, 74]⟩
abbrev S200000x87 : Shape := ⟨2, ![200000, 87]⟩
abbrev S87x200 : Shape := ⟨2, ![87, 200]⟩
abbrev S200000x200 : Shape := ⟨2, ![200000, 200]⟩
abbrev S50000x200 : Shape := ⟨2, ![50000, 200]⟩
abbrev S100000x2x200 : Shape := ⟨3, ![100000, 2, 200]⟩
abbrev S1x200 : Shape := ⟨2, ![1, 200]⟩
abbrev S2048x200 : Shape := ⟨2, ![2048, 200]⟩
abbrev S50000x1 : Shape := ⟨2, ![50000, 1]⟩
abbrev S2048 : Shape := ⟨1, ![2048]⟩
abbrev S2048x1 : Shape := ⟨2, ![2048, 1]⟩

abbrev nBuf : Space → Nat
  | .hbm => 238
  | .vmem => 0
  | .smem => 0
  | _ => 0

abbrev hbmTy0_0 (i : Nat) : BufTy := match i % 128 with
  | 0 => ⟨S50000x74, .f32⟩
  | 1 => ⟨S200000x13, .f32⟩
  | 2 => ⟨S2x200000, .i32⟩
  | 3 => ⟨S50000, .i32⟩
  | 4 => ⟨S200x87, .f32⟩
  | 5 => ⟨S200x200, .f32⟩
  | 6 => ⟨S200, .f32⟩
  | 7 => ⟨S200, .f32⟩
  | 8 => ⟨S200, .f32⟩
  | 9 => ⟨S200, .f32⟩
  | 10 => ⟨S200, .f32⟩
  | 11 => ⟨S200x200, .f32⟩
  | 12 => ⟨S1x200000, .i32⟩
  | 13 => ⟨S200000, .i32⟩
  | 14 => ⟨S1x200000, .i32⟩
  | 15 => ⟨S200000, .i32⟩
  | 16 => ⟨S_, .i32⟩
  | 17 => ⟨S200000, .i32⟩
  | 18 => ⟨S200000, .i1⟩
  | 19 => ⟨S_, .i32⟩
  | 20 => ⟨S200000, .i32⟩
  | 21 => ⟨S200000, .i32⟩
  | 22 => ⟨S200000, .i32⟩
  | 23 => ⟨S200000x1, .i32⟩
  | 24 => ⟨S200000x74, .f32⟩
  | 25 => ⟨S200000x87, .f32⟩
  | 26 => ⟨S87x200, .f32⟩
  | 27 => ⟨S200000x200, .f32⟩
  | 28 => ⟨S_, .f32⟩
  | 29 => ⟨S200000x200, .f32⟩
  | 30 => ⟨S200000x200, .i1⟩
  | 31 => ⟨S_, .f32⟩
  | 32 => ⟨S200000x200, .f32⟩
  | 33 => ⟨S200000x200, .f32⟩
  | 34 => ⟨S200000x200, .f32⟩
  | 35 => ⟨S_, .f32⟩
  | 36 => ⟨S50000x200, .f32⟩
  | 37 => ⟨S200000x1, .i32⟩
  | 38 => ⟨S50000x200, .f32⟩
  | 39 => ⟨S100000x2x200, .f32⟩
  | 40 => ⟨S100000x2x200, .f32⟩
  | 41 => ⟨S200000x200, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x200, .f32⟩
  | 51 => ⟨S200000x200, .f32⟩
  | 52 => ⟨S200x200, .f32⟩
  | 53 => ⟨S200000x200, .f32⟩
  | 54 => ⟨S1x200, .f32⟩
  | 55 => ⟨S200000x200, .f32⟩
  | 56 => ⟨S200000x200, .f32⟩
  | 57 => ⟨S1x200, .f32⟩
  | 58 => ⟨S200000x200, .f32⟩
  | 59 => ⟨S200000x200, .f32⟩
  | 60 => ⟨S_, .f32⟩
  | 61 => ⟨S200, .f32⟩
  | 62 => ⟨S200, .f32⟩
  | 63 => ⟨S200, .f32⟩
  | 64 => ⟨S200, .f32⟩
  | 65 => ⟨S1x200, .f32⟩
  | 66 => ⟨S200000x200, .f32⟩
  | 67 => ⟨S200000x200, .f32⟩
  | 68 => ⟨S1x200, .f32⟩
  | 69 => ⟨S200000x200, .f32⟩
  | 70 => ⟨S200000x200, .f32⟩
  | 71 => ⟨S_, .f32⟩
  | 72 => ⟨S200000x200, .f32⟩
  | 73 => ⟨S200000x200, .f32⟩
  | 74 => ⟨S_, .f32⟩
  | 75 => ⟨S200000x200, .f32⟩
  | 76 => ⟨S200000x200, .i1⟩
  | 77 => ⟨S_, .f32⟩
  | 78 => ⟨S200000x200, .f32⟩
  | 79 => ⟨S200000x200, .f32⟩
  | 80 => ⟨S200000x200, .f32⟩
  | 81 => ⟨S200000x200, .f32⟩
  | 82 => ⟨S_, .f32⟩
  | 83 => ⟨S50000x200, .f32⟩
  | 84 => ⟨S200000x1, .i32⟩
  | 85 => ⟨S50000x200, .f32⟩
  | 86 => ⟨S100000x2x200, .f32⟩
  | 87 => ⟨S100000x2x200, .f32⟩
  | 88 => ⟨S200000x200, .f32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x200, .f32⟩
  | 98 => ⟨S200000x200, .f32⟩
  | 99 => ⟨S200x200, .f32⟩
  | 100 => ⟨S200000x200, .f32⟩
  | 101 => ⟨S1x200, .f32⟩
  | 102 => ⟨S200000x200, .f32⟩
  | 103 => ⟨S200000x200, .f32⟩
  | 104 => ⟨S1x200, .f32⟩
  | 105 => ⟨S200000x200, .f32⟩
  | 106 => ⟨S200000x200, .f32⟩
  | 107 => ⟨S_, .f32⟩
  | 108 => ⟨S200, .f32⟩
  | 109 => ⟨S200, .f32⟩
  | 110 => ⟨S200, .f32⟩
  | 111 => ⟨S200, .f32⟩
  | 112 => ⟨S1x200, .f32⟩
  | 113 => ⟨S200000x200, .f32⟩
  | 114 => ⟨S200000x200, .f32⟩
  | 115 => ⟨S1x200, .f32⟩
  | 116 => ⟨S200000x200, .f32⟩
  | 117 => ⟨S200000x200, .f32⟩
  | 118 => ⟨S_, .f32⟩
  | 119 => ⟨S200000x200, .f32⟩
  | 120 => ⟨S200000x200, .f32⟩
  | 121 => ⟨S_, .f32⟩
  | 122 => ⟨S200000x200, .f32⟩
  | 123 => ⟨S200000x200, .i1⟩
  | 124 => ⟨S_, .f32⟩
  | 125 => ⟨S200000x200, .f32⟩
  | 126 => ⟨S200000x200, .f32⟩
  | 127 => ⟨S200000x200, .f32⟩
  | _ => ⟨S50000x74, .f32⟩

abbrev hbmTy0_1 (i : Nat) : BufTy := match i % 128 with
  | 0 => ⟨S200000x200, .f32⟩
  | 1 => ⟨S_, .f32⟩
  | 2 => ⟨S50000x200, .f32⟩
  | 3 => ⟨S200000x1, .i32⟩
  | 4 => ⟨S50000x200, .f32⟩
  | 5 => ⟨S100000x2x200, .f32⟩
  | 6 => ⟨S100000x2x200, .f32⟩
  | 7 => ⟨S200000x200, .f32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000x200, .f32⟩
  | 17 => ⟨S200000x200, .f32⟩
  | 18 => ⟨S200x200, .f32⟩
  | 19 => ⟨S200000x200, .f32⟩
  | 20 => ⟨S1x200, .f32⟩
  | 21 => ⟨S200000x200, .f32⟩
  | 22 => ⟨S200000x200, .f32⟩
  | 23 => ⟨S1x200, .f32⟩
  | 24 => ⟨S200000x200, .f32⟩
  | 25 => ⟨S200000x200, .f32⟩
  | 26 => ⟨S_, .f32⟩
  | 27 => ⟨S200, .f32⟩
  | 28 => ⟨S200, .f32⟩
  | 29 => ⟨S200, .f32⟩
  | 30 => ⟨S200, .f32⟩
  | 31 => ⟨S1x200, .f32⟩
  | 32 => ⟨S200000x200, .f32⟩
  | 33 => ⟨S200000x200, .f32⟩
  | 34 => ⟨S1x200, .f32⟩
  | 35 => ⟨S200000x200, .f32⟩
  | 36 => ⟨S200000x200, .f32⟩
  | 37 => ⟨S_, .f32⟩
  | 38 => ⟨S200000x200, .f32⟩
  | 39 => ⟨S200000x200, .f32⟩
  | 40 => ⟨S_, .f32⟩
  | 41 => ⟨S200000x200, .f32⟩
  | 42 => ⟨S200000x200, .i1⟩
  | 43 => ⟨S_, .f32⟩
  | 44 => ⟨S200000x200, .f32⟩
  | 45 => ⟨S200000x200, .f32⟩
  | 46 => ⟨S200000x200, .f32⟩
  | 47 => ⟨S200000x200, .f32⟩
  | 48 => ⟨S_, .f32⟩
  | 49 => ⟨S50000x200, .f32⟩
  | 50 => ⟨S200000x1, .i32⟩
  | 51 => ⟨S50000x200, .f32⟩
  | 52 => ⟨S100000x2x200, .f32⟩
  | 53 => ⟨S100000x2x200, .f32⟩
  | 54 => ⟨S200000x200, .f32⟩
  | 55 => ⟨S_, .i32⟩
  | 56 => ⟨S200000, .i32⟩
  | 57 => ⟨S200000, .i1⟩
  | 58 => ⟨S_, .i32⟩
  | 59 => ⟨S200000, .i32⟩
  | 60 => ⟨S200000, .i32⟩
  | 61 => ⟨S200000, .i32⟩
  | 62 => ⟨S200000x1, .i32⟩
  | 63 => ⟨S200000x200, .f32⟩
  | 64 => ⟨S200000x200, .f32⟩
  | 65 => ⟨S200x200, .f32⟩
  | 66 => ⟨S200000x200, .f32⟩
  | 67 => ⟨S1x200, .f32⟩
  | 68 => ⟨S200000x200, .f32⟩
  | 69 => ⟨S200000x200, .f32⟩
  | 70 => ⟨S1x200, .f32⟩
  | 71 => ⟨S200000x200, .f32⟩
  | 72 => ⟨S200000x200, .f32⟩
  | 73 => ⟨S_, .f32⟩
  | 74 => ⟨S200, .f32⟩
  | 75 => ⟨S200, .f32⟩
  | 76 => ⟨S200, .f32⟩
  | 77 => ⟨S200, .f32⟩
  | 78 => ⟨S1x200, .f32⟩
  | 79 => ⟨S200000x200, .f32⟩
  | 80 => ⟨S200000x200, .f32⟩
  | 81 => ⟨S1x200, .f32⟩
  | 82 => ⟨S200000x200, .f32⟩
  | 83 => ⟨S200000x200, .f32⟩
  | 84 => ⟨S_, .f32⟩
  | 85 => ⟨S200000x200, .f32⟩
  | 86 => ⟨S200000x200, .f32⟩
  | 87 => ⟨S200000x200, .f32⟩
  | 88 => ⟨S_, .f32⟩
  | 89 => ⟨S50000x200, .f32⟩
  | 90 => ⟨S200000x1, .i32⟩
  | 91 => ⟨S50000x200, .f32⟩
  | 92 => ⟨S200x200, .f32⟩
  | 93 => ⟨S50000x200, .f32⟩
  | 94 => ⟨S_, .f32⟩
  | 95 => ⟨S2048x200, .f32⟩
  | 96 => ⟨S50000x1, .i32⟩
  | 97 => ⟨S2048x200, .f32⟩
  | 98 => ⟨S_, .f32⟩
  | 99 => ⟨S50000, .f32⟩
  | 100 => ⟨S_, .f32⟩
  | 101 => ⟨S2048, .f32⟩
  | 102 => ⟨S50000x1, .i32⟩
  | 103 => ⟨S2048, .f32⟩
  | 104 => ⟨S_, .f32⟩
  | 105 => ⟨S2048, .f32⟩
  | 106 => ⟨S2048, .f32⟩
  | 107 => ⟨S2048x1, .f32⟩
  | 108 => ⟨S2048x200, .f32⟩
  | 109 => ⟨S2048x200, .f32⟩
  | _ => ⟨S50000x74, .f32⟩

abbrev hbmTy (i : Nat) : BufTy := match i / 128 with
  | 0 => hbmTy0_0 i
  | 1 => hbmTy0_1 i
  | _ => ⟨S50000x74, .f32⟩

abbrev bufTy : (tb : Table) → Fin (tcTables nBuf tb) → BufTy
  | .hbm, ⟨i, _⟩ => hbmTy i
  | _, _ => ⟨S50000x74, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_9 : Ref sig .tc := ⟨.hbm, 89, rfl⟩
abbrev main_v64 : Ref sig .tc := ⟨.hbm, 90, rfl⟩
abbrev main_v65 : Ref sig .tc := ⟨.hbm, 91, rfl⟩
abbrev main_c_10 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_11 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call3_cst : Ref sig .tc := ⟨.hbm, 118, rfl⟩
abbrev main_call3_v0 : Ref sig .tc := ⟨.hbm, 119, rfl⟩
abbrev main_v90 : Ref sig .tc := ⟨.hbm, 120, rfl⟩
abbrev main_cst_12 : Ref sig .tc := ⟨.hbm, 121, rfl⟩
abbrev main_v91 : Ref sig .tc := ⟨.hbm, 122, rfl⟩
abbrev main_v92 : Ref sig .tc := ⟨.hbm, 123, rfl⟩
abbrev main_cst_13 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_14 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_15 : Ref sig .tc := ⟨.hbm, 136, rfl⟩
abbrev main_v103 : Ref sig .tc := ⟨.hbm, 137, rfl⟩
abbrev main_v104 : Ref sig .tc := ⟨.hbm, 138, rfl⟩
abbrev main_c_16 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_17 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_call5_cst : Ref sig .tc := ⟨.hbm, 165, rfl⟩
abbrev main_call5_v0 : Ref sig .tc := ⟨.hbm, 166, rfl⟩
abbrev main_v129 : Ref sig .tc := ⟨.hbm, 167, rfl⟩
abbrev main_cst_18 : Ref sig .tc := ⟨.hbm, 168, rfl⟩
abbrev main_v130 : Ref sig .tc := ⟨.hbm, 169, rfl⟩
abbrev main_v131 : Ref sig .tc := ⟨.hbm, 170, rfl⟩
abbrev main_cst_19 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_20 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_c_21 : Ref sig .tc := ⟨.hbm, 183, rfl⟩
abbrev main_v142 : Ref sig .tc := ⟨.hbm, 184, rfl⟩
abbrev main_v143 : Ref sig .tc := ⟨.hbm, 185, rfl⟩
abbrev main_c_22 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_23 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_call7_cst : Ref sig .tc := ⟨.hbm, 212, rfl⟩
abbrev main_call7_v0 : Ref sig .tc := ⟨.hbm, 213, rfl⟩
abbrev main_v168 : Ref sig .tc := ⟨.hbm, 214, rfl⟩
abbrev main_v169 : Ref sig .tc := ⟨.hbm, 215, rfl⟩
abbrev main_cst_24 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_cst_25 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_cst_26 : Ref sig .tc := ⟨.hbm, 226, rfl⟩
abbrev main_v178 : Ref sig .tc := ⟨.hbm, 227, rfl⟩
abbrev main_cst_27 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_28 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x74_S200000x13_S200000x87_d1 : Shape.Concatenates [S200000x74, S200000x13] S200000x87 1
  transposes_S200x87_S87x200_1_0 : S200x87.Transposes [1, 0] S87x200
  bcast_S_S200000x200 : S_.BroadcastsInDim S200000x200 (![] : Fin 0 → Fin S200000x200.rank)
  bcast_S_S50000x200 : S_.BroadcastsInDim S50000x200 (![] : Fin 0 → Fin S50000x200.rank)
  shapeCasts_S200000x200_S100000x2x200 : S200000x200.ShapeCasts S100000x2x200
  shapeCasts_S100000x2x200_S200000x200 : S100000x2x200.ShapeCasts S200000x200
  transposes_S200x200_S200x200_1_0 : S200x200.Transposes [1, 0] S200x200
  bcast_S200_S1x200_1 : S200.BroadcastsInDim S1x200 (![1] : Fin 1 → Fin S1x200.rank)
  bcast_S1x200_S200000x200_0_1 : S1x200.BroadcastsInDim S200000x200 (![0, 1] : Fin 2 → Fin S200000x200.rank)
  bcast_S_S200 : S_.BroadcastsInDim S200 (![] : Fin 0 → Fin S200.rank)
  bcast_S_S2048x200 : S_.BroadcastsInDim S2048x200 (![] : Fin 0 → Fin S2048x200.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x200_0_1 : S2048x1.BroadcastsInDim S2048x200 (![0, 1] : Fin 2 → Fin S2048x200.rank)
  gather_S50000x74_S200000x1_S200000x74_1_0_n_n_0_1_174_wf : GatherDims.WF S50000x74 S200000x1 S200000x74 [1] [0] [] [0] [] 1 ![1, 74]
  dot_S200000x87_S87x200_S200000x200_1_0_0_1_n_n_wf : DotDims.WF S200000x87 S87x200 S200000x200 [1] [0] [0] [1] [] []
  scatter_S50000x200_S200000x1_S200000x200_1_0_0_1_wf : ScatterDims.WF S50000x200 S200000x1 S200000x200 [1] [0] [0] 1
  gather_S50000x200_S200000x1_S200000x200_1_0_n_n_0_1_1200_wf : GatherDims.WF S50000x200 S200000x1 S200000x200 [1] [0] [] [0] [] 1 ![1, 200]
  dot_S200000x200_S200x200_S200000x200_1_0_0_1_n_n_wf : DotDims.WF S200000x200 S200x200 S200000x200 [1] [0] [0] [1] [] []
  dot_S50000x200_S200x200_S50000x200_1_0_0_1_n_n_wf : DotDims.WF S50000x200 S200x200 S50000x200 [1] [0] [0] [1] [] []
  scatter_S2048x200_S50000x1_S50000x200_1_0_0_1_wf : ScatterDims.WF S2048x200 S50000x1 S50000x200 [1] [0] [0] 1
  scatter_S2048_S50000x1_S50000_n_0_0_1_wf : ScatterDims.WF S2048 S50000x1 S50000 [] [0] [0] 1

variable [Facts₀]

def gather_S50000x74_S200000x1_S200000x74_1_0_n_n_0_1_174 : GatherDims S50000x74 S200000x1 S200000x74 where
  offsetDims := [1]
  collapsedSliceDims := [0]
  operandBatchingDims := []
  startIndicesBatchingDims := []
  startIndexMap := [0]
  indexVectorDim := 1
  sliceSizes := ![1, 74]
  wf := gather_S50000x74_S200000x1_S200000x74_1_0_n_n_0_1_174_wf
def dot_S200000x87_S87x200_S200000x200_1_0_0_1_n_n : DotDims S200000x87 S87x200 S200000x200 where
  lhsContracting := [1]
  rhsContracting := [0]
  lhsNonContracting := [0]
  rhsNonContracting := [1]
  lhsBatch := []
  rhsBatch := []
  wf := dot_S200000x87_S87x200_S200000x200_1_0_0_1_n_n_wf
def scatter_S50000x200_S200000x1_S200000x200_1_0_0_1 : ScatterDims S50000x200 S200000x1 S200000x200 where
  updateWindowDims := [1]
  insertedWindowDims := [0]
  scatterDimsToOperandDims := [0]
  indexVectorDim := 1
  wf := scatter_S50000x200_S200000x1_S200000x200_1_0_0_1_wf
def gather_S50000x200_S200000x1_S200000x200_1_0_n_n_0_1_1200 : GatherDims S50000x200 S200000x1 S200000x200 where
  offsetDims := [1]
  collapsedSliceDims := [0]
  operandBatchingDims := []
  startIndicesBatchingDims := []
  startIndexMap := [0]
  indexVectorDim := 1
  sliceSizes := ![1, 200]
  wf := gather_S50000x200_S200000x1_S200000x200_1_0_n_n_0_1_1200_wf
def dot_S200000x200_S200x200_S200000x200_1_0_0_1_n_n : DotDims S200000x200 S200x200 S200000x200 where
  lhsContracting := [1]
  rhsContracting := [0]
  lhsNonContracting := [0]
  rhsNonContracting := [1]
  lhsBatch := []
  rhsBatch := []
  wf := dot_S200000x200_S200x200_S200000x200_1_0_0_1_n_n_wf
def dot_S50000x200_S200x200_S50000x200_1_0_0_1_n_n : DotDims S50000x200 S200x200 S50000x200 where
  lhsContracting := [1]
  rhsContracting := [0]
  lhsNonContracting := [0]
  rhsNonContracting := [1]
  lhsBatch := []
  rhsBatch := []
  wf := dot_S50000x200_S200x200_S50000x200_1_0_0_1_n_n_wf
def scatter_S2048x200_S50000x1_S50000x200_1_0_0_1 : ScatterDims S2048x200 S50000x1 S50000x200 where
  updateWindowDims := [1]
  insertedWindowDims := [0]
  scatterDimsToOperandDims := [0]
  indexVectorDim := 1
  wf := scatter_S2048x200_S50000x1_S50000x200_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf

class Facts : Prop extends Facts₀ where

variable [Facts]
-- ==== Proof.Spec.lean ====
/-
  The mathematics of both programs, as functions of the argument arrays over the extended reals.

  A directed message-passing network on edges.  Every edge k has a source row(k) and a target col(k); the edge state
  e is an array [edges, hidden].  One layer sends e to

      e' (k, j) = act ( BN_j ( Σ_f (A(row k, f) - e(k̄, f)) · W(j, f) + b(j) ) )

  where A = Σ over the edges that point at a node of their state (a scatter-add along col), k̄ is the partner of k in
  its consecutive pair (the reversed edge), BN is an affine map per channel with scale γ / √(var + ε), and act doubles
  the positive part.  Before the layers the edge state is a leaky linear map of the gathered node features beside the
  edge features; after them the states are summed into the nodes, mapped linearly, and averaged per graph.

  The two programs differ in four places only: how a row is fetched (a gather that fills rows outside the array
  with a junk value, against one that clamps), whether the first linear map is one product over 87 columns or two
  over 74 and 13, whether the affine map is (h - μ)·s + β or h·s + (β - μ·s), and whether the doubling is 2·x or
  x + x (with a leaky map of a non-negative number in between).  The functions below name each side's pieces; the
  shared pieces (the scatter-add, the pair reversal, the index wrap, the pooling tail) are one definition used by both.
-/
import proofs.«420250_j79482664779988_1_alg».proof.KernelIdeal
import proofs.«420250_j79482664779988_1_alg».proof.ReferenceIdeal
import Idealize.ShloMosaic.PureOps.Ideal
import Idealize.ShloMosaic.Lib.ValueIdx

noncomputable section

namespace Cert.Spec

open Idealize.ShloMosaic Idealize.ShloMosaic.ValueIdx Cert.KernelIdeal
open Cert.KernelIdeal.Facts₀

variable [Cert.KernelIdeal.Facts] [Cert.ReferenceIdeal.Facts]

/-! ## Shared pieces -/

/-- The sources of the edges: row 0 of the edge list. -/
def rowOf (ei : IVec S2x200000 32) : IVec S200000 32 :=
  shapeCast S200000 (extractStridedSlice S1x200000 ![0, 0] ei slices_S2x200000_S1x200000_0_0) shapeCasts_S1x200000_S200000

/-- The targets of the edges: row 1 of the edge list. -/
def colOf (ei : IVec S2x200000 32) : IVec S200000 32 :=
  shapeCast S200000 (extractStridedSlice S1x200000 ![1, 0] ei slices_S2x200000_S1x200000_1_0) shapeCasts_S1x200000_S200000

/-- Node n receives the sum of the states of the edges whose target is n. -/
def agg (col : IVec S200000 32) (e : FVec Ideal S200000x200 .f32) : FVec Ideal S50000x200 .f32 :=
  Host.scatterAdd scatter_S50000x200_S200000x1_S200000x200_1_0_0_1
    (broadcastInDim S50000x200 ![] bcast_S_S50000x200 (constant (F := Ideal) S_ .f32 0x00000000#32))
    (broadcastInDim S200000x1 ![0] bcast_S200000_S200000x1_0 col) e

/-- Each edge's state swapped with its partner's in the consecutive pair. -/
def rev (e : FVec Ideal S200000x200 .f32) : FVec Ideal S200000x200 .f32 :=
  shapeCast S200000x200 (Host.reverse [1] (shapeCast S100000x2x200 e shapeCasts_S200000x200_S100000x2x200))
    shapeCasts_S100000x2x200_S200000x200

/-- A negative index counts from the end: n + 50000 in its place. -/
def wrap (row : IVec S200000 32) : IVec S200000 32 :=
  select (cmpi .slt row (broadcastInDim S200000 ![] bcast_S_S200000 (constantI S_ 32 0#32)))
    (addi row (broadcastInDim S200000 ![] bcast_S_S200000 (constantI S_ 32 50000#32))) row

/-- The wrapped indices as a column of words. -/
def wrapIdx (row : IVec S200000 32) : IVec S200000x1 32 :=
  broadcastInDim S200000x1 ![0] bcast_S200000_S200000x1_0 (wrap row)

/-- Whether a wrapped index names a row of an array of 50000 rows. -/
def inRange (row : IVec S200000 32) : IVec S200000 1 :=
  Host.reduce IntOp.andi
    (andi (cmpi .sge (wrapIdx row) (broadcastInDim S200000x1 ![] bcast_S_S200000x1 (constantI S_ 32 0#32)))
      (cmpi .sle (wrapIdx row) (broadcastInDim S200000x1 ![0, 1] bcast_S1x1_S200000x1_0_1
        (broadcastInDim S1x1 ![1] bcast_S1_S1x1_1 (constantI S1 32 49999#32)))))
    (constantI S_ 1 1#1) reducesTo_S200000x1_S200000_d1 h_S_

/-- Rows fetched by clamped index (node features). -/
def fetch74 (x : FVec Ideal S50000x74 .f32) (row : IVec S200000 32) : FVec Ideal S200000x74 .f32 :=
  Host.gather gather_S50000x74_S200000x1_S200000x74_1_0_n_n_0_1_174 x (wrapIdx row)

/-- Rows fetched by clamped index (node sums). -/
def fetch200 (a : FVec Ideal S50000x200 .f32) (row : IVec S200000 32) : FVec Ideal S200000x200 .f32 :=
  Host.gather gather_S50000x200_S200000x1_S200000x200_1_0_n_n_0_1_1200 a (wrapIdx row)

/-- Rows fetched, a row outside the array replaced by the junk value (node features). -/
def fill74 (x : FVec Ideal S50000x74 .f32) (row : IVec S200000 32) : FVec Ideal S200000x74 .f32 :=
  select (broadcastInDim S200000x74 ![0] bcast_S200000_S200000x74_0 (inRange row)) (fetch74 x row)
    (broadcastInDim S200000x74 ![] bcast_S_S200000x74 (constant (F := Ideal) S_ .f32 0x7FC00000#32))

/-- Rows fetched, a row outside the array replaced by the junk value (node sums). -/
def fill200 (a : FVec Ideal S50000x200 .f32) (row : IVec S200000 32) : FVec Ideal S200000x200 .f32 :=
  select (broadcastInDim S200000x200 ![0] bcast_S200000_S200000x200_0 (inRange row)) (fetch200 a row)
    (broadcastInDim S200000x200 ![] bcast_S_S200000x200 (constant (F := Ideal) S_ .f32 0x7FC00000#32))

/-- The normalisation's scale per channel: γ / √(var + ε). -/
def scaleOf (γ var : FVec Ideal S200 .f32) : FVec Ideal S200 .f32 :=
  Host.divf γ (Host.sqrt (addf var (broadcastInDim S200 ![] bcast_S_S200 (constant (F := Ideal) S_ .f32 0x3727C5AC#32))))

/-- The mean over each graph of its nodes' outputs: sums by graph divided by the node counts, a count of 0 read as 1. -/
def pool (o : FVec Ideal S50000x200 .f32) (batch : IVec S50000 32) : FVec Ideal S2048x200 .f32 :=
  Host.divf
    (Host.scatterAdd scatter_S2048x200_S50000x1_S50000x200_1_0_0_1
      (broadcastInDim S2048x200 ![] bcast_S_S2048x200 (constant (F := Ideal) S_ .f32 0x00000000#32))
      (broadcastInDim S50000x1 ![0] bcast_S50000_S50000x1_0 batch) o)
    (broadcastInDim S2048x200 ![0, 1] bcast_S2048x1_S2048x200_0_1
      (broadcastInDim S2048x1 ![0] bcast_S2048_S2048x1_0
        (maximumf
          (Host.scatterAdd scatter_S2048_S50000x1_S50000_n_0_0_1
            (broadcastInDim S2048 ![] bcast_S_S2048 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S2048 ![] bcast_S_S2048 (constant (F := Ideal) S_ .f32 0x3F800000#32)))))

/-! ## The kernel's pieces -/

/-- The zero word, the slope 0.01 and the factor 2 as the extended reals their words denote. -/
abbrev z0 : EReal := Ideal.ofBits .f32 0x00000000#32
abbrev slope : EReal := Ideal.ofBits .f32 0x3C23D70A#32
abbrev two : EReal := Ideal.ofBits .f32 0x40000000#32

/-- Entry (k, j) of the first edge state, two products summed: h if h ≥ 0, else 0.01 · h. -/
def initAt (xg : FVec Ideal S200000x74 .f32) (ea : FVec Ideal S200000x13 .f32) (w1 : FVec Ideal S74x200 .f32)
    (w2 : FVec Ideal S13x200 .f32) (k : Fin 200000) (j : Fin 200) : EReal :=
  Scalar.select
    (FloatOps.cmpf (F := Ideal) .oge
      ((∑ f : Fin 74, xg (ix2 k f) * w1 (ix2 f j)) + (∑ f : Fin 13, ea (ix2 k f) * w2 (ix2 f j))) z0)
    ((∑ f : Fin 74, xg (ix2 k f) * w1 (ix2 f j)) + (∑ f : Fin 13, ea (ix2 k f) * w2 (ix2 f j)))
    (slope * ((∑ f : Fin 74, xg (ix2 k f) * w1 (ix2 f j)) + (∑ f : Fin 13, ea (ix2 k f) * w2 (ix2 f j))))

def initE (xg : FVec Ideal S200000x74 .f32) (ea : FVec Ideal S200000x13 .f32) (w1 : FVec Ideal S74x200 .f32)
    (w2 : FVec Ideal S13x200 .f32) : FVec Ideal S200000x200 .f32 :=
  fun i => initAt xg ea w1 w2 (i 0) (i 1)

/-- Entry (k, j) of a layer's new edge state in the kernel's arrangement: 2 · max((Σ_f (g - r)(k, f) · w(f, j) + b j) · s j + t j, 0). -/
def convAt (g r : FVec Ideal S200000x200 .f32) (w : FVec Ideal S200x200 .f32) (b s t : FVec Ideal S1x200 .f32)
    (k : Fin 200000) (j : Fin 200) : EReal :=
  two * max (((∑ f : Fin 200, (g (ix2 k f) - r (ix2 k f)) * w (ix2 f j)) + b (ix2 0 j)) * s (ix2 0 j) + t (ix2 0 j)) z0

def convE (g r : FVec Ideal S200000x200 .f32) (w : FVec Ideal S200x200 .f32) (b s t : FVec Ideal S1x200 .f32) :
    FVec Ideal S200000x200 .f32 :=
  fun i => convAt g r w b s t (i 0) (i 1)

/-- Entry (n, j) of the nodes' linear map: Σ_f h(n, f) · w(f, j). -/
def ffnAt (h : FVec Ideal S50000x200 .f32) (w : FVec Ideal S200x200 .f32) (n : Fin 50000) (j : Fin 200) : EReal :=
  ∑ f : Fin 200, h (ix2 n f) * w (ix2 f j)

def ffnE (h : FVec Ideal S50000x200 .f32) (w : FVec Ideal S200x200 .f32) : FVec Ideal S50000x200 .f32 :=
  fun i => ffnAt h w (i 0) (i 1)

/-- The first linear map's two halves, transposed: columns 0..73 and 74..86 of the weight. -/
def w1Of (wi : FVec Ideal S200x87 .f32) : FVec Ideal S74x200 .f32 :=
  transpose S74x200 [1, 0] (extractStridedSlice S200x74 ![0, 0] wi slices_S200x87_S200x74_0_0) transposes_S200x74_S74x200_1_0
def w2Of (wi : FVec Ideal S200x87 .f32) : FVec Ideal S13x200 .f32 :=
  transpose S13x200 [1, 0] (extractStridedSlice S200x13 ![0, 74] wi slices_S200x87_S200x13_0_74) transposes_S200x13_S13x200_1_0

/-- A square weight transposed. -/
def tr200 (w : FVec Ideal S200x200 .f32) : FVec Ideal S200x200 .f32 :=
  transpose S200x200 [1, 0] w transposes_S200x200_S200x200_1_0

/-- A channel vector as a one-row matrix. -/
def asRow (v : FVec Ideal S200 .f32) : FVec Ideal S1x200 .f32 := shapeCast S1x200 v shapeCasts_S200_S1x200

/-- One layer in the kernel's arrangement. -/
def kLayer (row col : IVec S200000 32) (a5 : FVec Ideal S200x200 .f32) (a6 a7 a8 a9 a10 : FVec Ideal S200 .f32)
    (e : FVec Ideal S200000x200 .f32) : FVec Ideal S200000x200 .f32 :=
  convE (fill200 (agg col e) row) (rev e) (tr200 a5) (asRow a6) (asRow (scaleOf a7 a10))
    (asRow (subf a8 (mulf a9 (scaleOf a7 a10))))

/-- The kernel's first edge state. -/
def kInit (a0 : FVec Ideal S50000x74 .f32) (a1 : FVec Ideal S200000x13 .f32) (row : IVec S200000 32)
    (a4 : FVec Ideal S200x87 .f32) : FVec Ideal S200000x200 .f32 :=
  initE (fill74 a0 row) a1 (w1Of a4) (w2Of a4)

/-- The kernel's result as a function of the twelve arguments. -/
def kRes (a0 : FVec Ideal S50000x74 .f32) (a1 : FVec Ideal S200000x13 .f32) (a2 : IVec S2x200000 32) (a3 : IVec S50000 32)
    (a4 : FVec Ideal S200x87 .f32) (a5 : FVec Ideal S200x200 .f32) (a6 a7 a8 a9 a10 : FVec Ideal S200 .f32)
    (a11 : FVec Ideal S200x200 .f32) : FVec Ideal S2048x200 .f32 :=
  pool (ffnE (agg (colOf a2)
    (kLayer (rowOf a2) (colOf a2) a5 a6 a7 a8 a9 a10 (kLayer (rowOf a2) (colOf a2) a5 a6 a7 a8 a9 a10
      (kLayer (rowOf a2) (colOf a2) a5 a6 a7 a8 a9 a10 (kLayer (rowOf a2) (colOf a2) a5 a6 a7 a8 a9 a10
        (kInit a0 a1 (rowOf a2) a4)))))) (tr200 a11)) a3

/-! ## The reference's pieces -/

/-- The reference's first edge state: one product over the 87 joined columns, then the leaky map. -/
def rInit (a0 : FVec Ideal S50000x74 .f32) (a1 : FVec Ideal S200000x13 .f32) (row : IVec S200000 32)
    (a4 : FVec Ideal S200x87 .f32) : FVec Ideal S200000x200 .f32 :=
  select
    (cmpf .oge
      (Host.dotGeneral Cert.ReferenceIdeal.dot_S200000x87_S87x200_S200000x200_1_0_0_1_n_n none
        (concatenate Cert.ReferenceIdeal.S200000x87 1 [⟨S200000x74, fetch74 a0 row⟩, ⟨S200000x13, a1⟩] Cert.ReferenceIdeal.Facts₀.concatenates_S200000x74_S200000x13_S200000x87_d1)
        (transpose Cert.ReferenceIdeal.S87x200 [1, 0] a4 Cert.ReferenceIdeal.Facts₀.transposes_S200x87_S87x200_1_0))
      (broadcastInDim S200000x200 ![] bcast_S_S200000x200 (constant (F := Ideal) S_ .f32 0x00000000#32)))
    (Host.dotGeneral Cert.ReferenceIdeal.dot_S200000x87_S87x200_S200000x200_1_0_0_1_n_n none
        (concatenate Cert.ReferenceIdeal.S200000x87 1 [⟨S200000x74, fetch74 a0 row⟩, ⟨S200000x13, a1⟩] Cert.ReferenceIdeal.Facts₀.concatenates_S200000x74_S200000x13_S200000x87_d1)
        (transpose Cert.ReferenceIdeal.S87x200 [1, 0] a4 Cert.ReferenceIdeal.Facts₀.transposes_S200x87_S87x200_1_0))
    (mulf (broadcastInDim S200000x200 ![] bcast_S_S200000x200 (constant (F := Ideal) S_ .f32 0x3C23D70A#32))
      (Host.dotGeneral Cert.ReferenceIdeal.dot_S200000x87_S87x200_S200000x200_1_0_0_1_n_n none
        (concatenate Cert.ReferenceIdeal.S200000x87 1 [⟨S200000x74, fetch74 a0 row⟩, ⟨S200000x13, a1⟩] Cert.ReferenceIdeal.Facts₀.concatenates_S200000x74_S200000x13_S200000x87_d1)
        (transpose Cert.ReferenceIdeal.S87x200 [1, 0] a4 Cert.ReferenceIdeal.Facts₀.transposes_S200x87_S87x200_1_0)))

/-- A channel vector laid over every edge. -/
def overEdges (v : FVec Ideal S200 .f32) : FVec Ideal S200000x200 .f32 :=
  broadcastInDim S200000x200 ![0, 1] Cert.ReferenceIdeal.Facts₀.bcast_S1x200_S200000x200_0_1 (broadcastInDim S1x200 ![1] Cert.ReferenceIdeal.Facts₀.bcast_S200_S1x200_1 v)

/-- The reference's normalised, rectified pre-activation of a layer: max(((m·Wᵀ + b) - μ) · s + β, 0). -/
def rHidden (row col : IVec S200000 32) (a5 : FVec Ideal S200x200 .f32) (a6 a7 a8 a9 a10 : FVec Ideal S200 .f32)
    (e : FVec Ideal S200000x200 .f32) : FVec Ideal S200000x200 .f32 :=
  maximumf
    (addf (mulf (subf (addf
      (Host.dotGeneral Cert.ReferenceIdeal.dot_S200000x200_S200x200_S200000x200_1_0_0_1_n_n none
        (subf (fetch200 (agg col e) row) (rev e)) (tr200 a5))
      (overEdges a6)) (overEdges a9)) (overEdges (scaleOf a7 a10))) (overEdges a8))
    (broadcastInDim S200000x200 ![] bcast_S_S200000x200 (constant (F := Ideal) S_ .f32 0x00000000#32))

/-- A layer of the reference that is not the last: leaky(h) + h of its rectified pre-activation h. -/
def rLayer (row col : IVec S200000 32) (a5 : FVec Ideal S200x200 .f32) (a6 a7 a8 a9 a10 : FVec Ideal S200 .f32)
    (e : FVec Ideal S200000x200 .f32) : FVec Ideal S200000x200 .f32 :=
  addf
    (select
      (cmpf .oge (rHidden row col a5 a6 a7 a8 a9 a10 e)
        (broadcastInDim S200000x200 ![] bcast_S_S200000x200 (constant (F := Ideal) S_ .f32 0x00000000#32)))
      (rHidden row col a5 a6 a7 a8 a9 a10 e)
      (mulf (broadcastInDim S200000x200 ![] bcast_S_S200000x200 (constant (F := Ideal) S_ .f32 0x3C23D70A#32))
        (rHidden row col a5 a6 a7 a8 a9 a10 e)))
    (rHidden row col a5 a6 a7 a8 a9 a10 e)

/-- The reference's last layer: h + h. -/
def rLast (row col : IVec S200000 32) (a5 : FVec Ideal S200x200 .f32) (a6 a7 a8 a9 a10 : FVec Ideal S200 .f32)
    (e : FVec Ideal S200000x200 .f32) : FVec Ideal S200000x200 .f32 :=
  addf (rHidden row col a5 a6 a7 a8 a9 a10 e) (rHidden row col a5 a6 a7 a8 a9 a10 e)

/-- The reference's result as a function of the twelve arguments. -/
def rRes (a0 : FVec Ideal S50000x74 .f32) (a1 : FVec Ideal S200000x13 .f32) (a2 : IVec S2x200000 32) (a3 : IVec S50000 32)
    (a4 : FVec Ideal S200x87 .f32) (a5 : FVec Ideal S200x200 .f32) (a6 a7 a8 a9 a10 : FVec Ideal S200 .f32)
    (a11 : FVec Ideal S200x200 .f32) : FVec Ideal S2048x200 .f32 :=
  pool (Host.dotGeneral Cert.ReferenceIdeal.dot_S50000x200_S200x200_S50000x200_1_0_0_1_n_n none (agg (colOf a2)
    (rLast (rowOf a2) (colOf a2) a5 a6 a7 a8 a9 a10 (rLayer (rowOf a2) (colOf a2) a5 a6 a7 a8 a9 a10
      (rLayer (rowOf a2) (colOf a2) a5 a6 a7 a8 a9 a10 (rLayer (rowOf a2) (colOf a2) a5 a6 a7 a8 a9 a10
        (rInit a0 a1 (rowOf a2) a4)))))) (tr200 a11)) a3

/-! ## What the precondition gives -/

/-- Every index of the vector names a node: read signed, it lies in [0, 50000). -/
def InRange (row : IVec S200000 32) : Prop :=
  ∀ k : Fin 200000, 0 ≤ (row (ix1 k)).toInt ∧ (row (ix1 k)).toInt < 50000

/-- Every source index names a node. -/
def RowsInRange (a2 : IVec S2x200000 32) : Prop := InRange (rowOf a2)

/-- A channel vector of real numbers. -/
def IsReal (v : FVec Ideal S200 .f32) : Prop := ∀ j : Fin 200, ∃ x : ℝ, v (ix1 j) = (x : EReal)

/-- A channel vector of non-negative entries. -/
def NonNeg (v : FVec Ideal S200 .f32) : Prop := ∀ j : Fin 200, 0 ≤ v (ix1 j)

end Cert.Spec

end
-- ==== Proof.KState.lean ====
import proofs.«420250_j79482664779988_1_alg».proof.Proof.Gen.KernelIdeal.Frame
import proofs.«420250_j79482664779988_1_alg».proof.Proof.Spec

set_option maxRecDepth 16384

noncomputable section

namespace Cert.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable [Cert.ReferenceIdeal.Facts]
open Cert.Spec

variable (m : (ℓ : Loc nD τ sig) → Buf (Elt Ideal) ℓ) (ρ : Dev nD → PrngReg)

/-- What every layer of the kernel's program finds in the buffers it reads besides the edge state: the two index
    vectors and the four prepared parameter arrays, as functions of the arguments. -/
structure Params (c : Dev nD) (W : Valuation τ sig (Elt Ideal)) : Prop where
  row : W (Proc.devRef .tc main_v1) = rowOf (m ((c.tc : Thread nD τ).loc main_arg2))
  col : W (Proc.devRef .tc main_v3) = colOf (m ((c.tc : Thread nD τ).loc main_arg2))
  w : W (Proc.devRef .tc main_v16) = tr200 (m ((c.tc : Thread nD τ).loc main_arg5))
  b : W (Proc.devRef .tc main_v17) = asRow (m ((c.tc : Thread nD τ).loc main_arg6))
  s : W (Proc.devRef .tc main_v18) = asRow (scaleOf (m ((c.tc : Thread nD τ).loc main_arg7)) (m ((c.tc : Thread nD τ).loc main_arg10)))
  t : W (Proc.devRef .tc main_v19) = asRow (subf (m ((c.tc : Thread nD τ).loc main_arg8))
        (mulf (m ((c.tc : Thread nD τ).loc main_arg9)) (scaleOf (m ((c.tc : Thread nD τ).loc main_arg7)) (m ((c.tc : Thread nD τ).loc main_arg10)))))

/-- One layer of the kernel's program as a function of the edge state, the arguments read off the launch memory. -/
abbrev layerOf (c : Dev nD) (e : FVec Ideal S200000x200 .f32) : FVec Ideal S200000x200 .f32 :=
  kLayer (rowOf (m ((c.tc : Thread nD τ).loc main_arg2))) (colOf (m ((c.tc : Thread nD τ).loc main_arg2)))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) e

end Cert.KVal
end
-- ==== Proof.KInit.lean ====
import proofs.«420250_j79482664779988_1_alg».proof.Proof.Gen.KernelIdeal.Frame
import proofs.«420250_j79482664779988_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two block products and the leaky map at an entry -/

theorem init_a_lhs_0 (i : S5000x200.Idx) (q : dot_S5000x74_S74x200_S5000x200_1_0_0_1_n_n.contr.Idx) :
    (dot_S5000x74_S74x200_S5000x200_1_0_0_1_n_n.lhsIdx i q 0).val = (i 0).val := by
  unfold DotDims.lhsIdx
  rw [dif_neg (show ¬(0 : Fin S5000x74.rank) ∈ dot_S5000x74_S74x200_S5000x200_1_0_0_1_n_n.lhsBatch by decide), dif_pos (show (0 : Fin S5000x74.rank) ∈ dot_S5000x74_S74x200_S5000x200_1_0_0_1_n_n.lhsNonContracting by decide)]
  rfl
theorem init_a_lhs_1 (i : S5000x200.Idx) (q : dot_S5000x74_S74x200_S5000x200_1_0_0_1_n_n.contr.Idx) :
    (dot_S5000x74_S74x200_S5000x200_1_0_0_1_n_n.lhsIdx i q 1).val = (q ⟨0, by decide⟩).val :=
  dot_S5000x74_S74x200_S5000x200_1_0_0_1_n_n.lhsIdx_val_of_single rfl i q
theorem init_a_rhs_0 (i : S5000x200.Idx) (q : dot_S5000x74_S74x200_S5000x200_1_0_0_1_n_n.contr.Idx) :
    (dot_S5000x74_S74x200_S5000x200_1_0_0_1_n_n.rhsIdx i q 0).val = (q ⟨0, by decide⟩).val :=
  dot_S5000x74_S74x200_S5000x200_1_0_0_1_n_n.rhsIdx_val_of_single rfl i q
theorem init_a_rhs_1 (i : S5000x200.Idx) (q : dot_S5000x74_S74x200_S5000x200_1_0_0_1_n_n.contr.Idx) :
    (dot_S5000x74_S74x200_S5000x200_1_0_0_1_n_n.rhsIdx i q 1).val = (i 1).val := by
  unfold DotDims.rhsIdx
  rw [dif_neg (show ¬(1 : Fin S74x200.rank) ∈ dot_S5000x74_S74x200_S5000x200_1_0_0_1_n_n.rhsBatch by decide), dif_pos (show (1 : Fin S74x200.rank) ∈ dot_S5000x74_S74x200_S5000x200_1_0_0_1_n_n.rhsNonContracting by decide)]
  rfl

theorem init_b_lhs_0 (i : S5000x200.Idx) (q : dot_S5000x13_S13x200_S5000x200_1_0_0_1_n_n.contr.Idx) :
    (dot_S5000x13_S13x200_S5000x200_1_0_0_1_n_n.lhsIdx i q 0).val = (i 0).val := by
  unfold DotDims.lhsIdx
  rw [dif_neg (show ¬(0 : Fin S5000x13.rank) ∈ dot_S5000x13_S13x200_S5000x200_1_0_0_1_n_n.lhsBatch by decide), dif_pos (show (0 : Fin S5000x13.rank) ∈ dot_S5000x13_S13x200_S5000x200_1_0_0_1_n_n.lhsNonContracting by decide)]
  rfl
theorem init_b_lhs_1 (i : S5000x200.Idx) (q : dot_S5000x13_S13x200_S5000x200_1_0_0_1_n_n.contr.Idx) :
    (dot_S5000x13_S13x200_S5000x200_1_0_0_1_n_n.lhsIdx i q 1).val = (q ⟨0, by decide⟩).val :=
  dot_S5000x13_S13x200_S5000x200_1_0_0_1_n_n.lhsIdx_val_of_single rfl i q
theorem init_b_rhs_0 (i : S5000x200.Idx) (q : dot_S5000x13_S13x200_S5000x200_1_0_0_1_n_n.contr.Idx) :
    (dot_S5000x13_S13x200_S5000x200_1_0_0_1_n_n.rhsIdx i q 0).val = (q ⟨0, by decide⟩).val :=
  dot_S5000x13_S13x200_S5000x200_1_0_0_1_n_n.rhsIdx_val_of_single rfl i q
theorem init_b_rhs_1 (i : S5000x200.Idx) (q : dot_S5000x13_S13x200_S5000x200_1_0_0_1_n_n.contr.Idx) :
    (dot_S5000x13_S13x200_S5000x200_1_0_0_1_n_n.rhsIdx i q 1).val = (i 1).val := by
  unfold DotDims.rhsIdx
  rw [dif_neg (show ¬(1 : Fin S13x200.rank) ∈ dot_S5000x13_S13x200_S5000x200_1_0_0_1_n_n.rhsBatch by decide), dif_pos (show (1 : Fin S13x200.rank) ∈ dot_S5000x13_S13x200_S5000x200_1_0_0_1_n_n.rhsNonContracting by decide)]
  rfl

/-- Entry (p, q) of the node-feature block times its weight, accumulated into the zero block: Σ_f x(p, f) · y(f, q) over 74 columns. -/
theorem init_mm_a (x : FVec Ideal S5000x74 .f32) (y : FVec Ideal S74x200 .f32) (p : Fin 5000) (q : Fin 200) :
    FloatOps.matmul dot_S5000x74_S74x200_S5000x200_1_0_0_1_n_n none x y (constant (F := Ideal) S5000x200 .f32 0x00000000#32) (ix2 p q)
      = ∑ f : Fin 74, x (ix2 p f) * y (ix2 f q) := by
  rw [Ideal.matmul_constant_zero_apply, ← Equiv.sum_comp (ValueIdx.contrEquiv1 dot_S5000x74_S74x200_S5000x200_1_0_0_1_n_n 74 rfl rfl).symm]
  refine Finset.sum_congr rfl fun k _ => ?_
  have hk := ValueIdx.contrEquiv1_symm_val dot_S5000x74_S74x200_S5000x200_1_0_0_1_n_n 74 rfl rfl k
  have el : dot_S5000x74_S74x200_S5000x200_1_0_0_1_n_n.lhsIdx (ix2 p q) ((ValueIdx.contrEquiv1 dot_S5000x74_S74x200_S5000x200_1_0_0_1_n_n 74 rfl rfl).symm k) = ix2 p k := funext fun a => Fin.ext (by
    match a with
    | ⟨0, _⟩ => exact init_a_lhs_0 _ _
    | ⟨1, _⟩ => exact (init_a_lhs_1 _ _).trans hk)
  have er : dot_S5000x74_S74x200_S5000x200_1_0_0_1_n_n.rhsIdx (ix2 p q) ((ValueIdx.contrEquiv1 dot_S5000x74_S74x200_S5000x200_1_0_0_1_n_n 74 rfl rfl).symm k) = ix2 k q := funext fun a => Fin.ext (by
    match a with
    | ⟨0, _⟩ => exact (init_a_rhs_0 _ _).trans hk
    | ⟨1, _⟩ => exact init_a_rhs_1 _ _)
  rw [el, er]

/-- Entry (p, q) of the edge-feature block times its weight, accumulated into the zero block: Σ_f x(p, f) · y(f, q) over 13 columns. -/
theorem init_mm_b (x : FVec Ideal S5000x13 .f32) (y : FVec Ideal S13x200 .f32) (p : Fin 5000) (q : Fin 200) :
    FloatOps.matmul dot_S5000x13_S13x200_S5000x200_1_0_0_1_n_n none x y (constant (F := Ideal) S5000x200 .f32 0x00000000#32) (ix2 p q)
      = ∑ f : Fin 13, x (ix2 p f) * y (ix2 f q) := by
  rw [Ideal.matmul_constant_zero_apply, ← Equiv.sum_comp (ValueIdx.contrEquiv1 dot_S5000x13_S13x200_S5000x200_1_0_0_1_n_n 13 rfl rfl).symm]
  refine Finset.sum_congr rfl fun k _ => ?_
  have hk := ValueIdx.contrEquiv1_symm_val dot_S5000x13_S13x200_S5000x200_1_0_0_1_n_n 13 rfl rfl k
  have el : dot_S5000x13_S13x200_S5000x200_1_0_0_1_n_n.lhsIdx (ix2 p q) ((ValueIdx.contrEquiv1 dot_S5000x13_S13x200_S5000x200_1_0_0_1_n_n 13 rfl rfl).symm k) = ix2 p k := funext fun a => Fin.ext (by
    match a with
    | ⟨0, _⟩ => exact init_b_lhs_0 _ _
    | ⟨1, _⟩ => exact (init_b_lhs_1 _ _).trans hk)
  have er : dot_S5000x13_S13x200_S5000x200_1_0_0_1_n_n.rhsIdx (ix2 p q) ((ValueIdx.contrEquiv1 dot_S5000x13_S13x200_S5000x200_1_0_0_1_n_n 13 rfl rfl).symm k) = ix2 k q := funext fun a => Fin.ext (by
    match a with
    | ⟨0, _⟩ => exact (init_b_rhs_0 _ _).trans hk
    | ⟨1, _⟩ => exact init_b_rhs_1 _ _)
  rw [el, er]

/-- Entry (p, q) of the body's result: with h the sum of the two products there, h if h ≥ 0 and 0.01 · h otherwise. -/
theorem init_pay_apply (x0 : FVec Ideal S5000x74 .f32) (x2 : FVec Ideal S74x200 .f32) (x5 : FVec Ideal S5000x13 .f32)
    (x6 : FVec Ideal S13x200 .f32) (p : Fin 5000) (q : Fin 200) :
    k0_pay1 (F := Ideal) x0 x2 x5 x6 (ix2 p q)
      = Scalar.select (FloatOps.cmpf (F := Ideal) .oge ((∑ f : Fin 74, x0 (ix2 p f) * x2 (ix2 f q)) + (∑ f : Fin 13, x5 (ix2 p f) * x6 (ix2 f q))) Cert.Spec.z0)
          ((∑ f : Fin 74, x0 (ix2 p f) * x2 (ix2 f q)) + (∑ f : Fin 13, x5 (ix2 p f) * x6 (ix2 f q)))
          (Cert.Spec.slope * ((∑ f : Fin 74, x0 (ix2 p f) * x2 (ix2 f q)) + (∑ f : Fin 13, x5 (ix2 p f) * x6 (ix2 f q)))) := by
  unfold k0_pay1
  rw [shapeCast_self, shapeCast_self, shapeCast_self]
  simp only [matmul]
  show Scalar.select (FloatOps.cmpf (F := Ideal) .oge
      (FloatOps.matmul dot_S5000x74_S74x200_S5000x200_1_0_0_1_n_n none x0 x2 (constant (F := Ideal) S5000x200 .f32 0x00000000#32) (ix2 p q)
        + FloatOps.matmul dot_S5000x13_S13x200_S5000x200_1_0_0_1_n_n none x5 x6 (constant (F := Ideal) S5000x200 .f32 0x00000000#32) (ix2 p q)) Cert.Spec.z0)
      (FloatOps.matmul dot_S5000x74_S74x200_S5000x200_1_0_0_1_n_n none x0 x2 (constant (F := Ideal) S5000x200 .f32 0x00000000#32) (ix2 p q)
        + FloatOps.matmul dot_S5000x13_S13x200_S5000x200_1_0_0_1_n_n none x5 x6 (constant (F := Ideal) S5000x200 .f32 0x00000000#32) (ix2 p q))
      (Cert.Spec.slope * (FloatOps.matmul dot_S5000x74_S74x200_S5000x200_1_0_0_1_n_n none x0 x2 (constant (F := Ideal) S5000x200 .f32 0x00000000#32) (ix2 p q)
        + FloatOps.matmul dot_S5000x13_S13x200_S5000x200_1_0_0_1_n_n none x5 x6 (constant (F := Ideal) S5000x200 .f32 0x00000000#32) (ix2 p q))) = _
  rw [init_mm_a, init_mm_b]

/-- A body whose row blocks hold rows of the node and edge features starting at row k - p, and whose weight blocks are
    the weights: its entry (p, q) is entry (k, r) of the first edge state, r the column q stands for. -/
theorem init_point (xg : FVec Ideal S200000x74 .f32) (ea : FVec Ideal S200000x13 .f32) (w1 : FVec Ideal S74x200 .f32)
    (w2 : FVec Ideal S13x200 .f32) (x0 : FVec Ideal S5000x74 .f32) (x2 : FVec Ideal S74x200 .f32)
    (x5 : FVec Ideal S5000x13 .f32) (x6 : FVec Ideal S13x200 .f32) (k : Fin 200000) (r : Fin 200) (p : Fin 5000) (q : Fin 200)
    (h0 : ∀ f : Fin 74, x0 (ix2 p f) = xg (ix2 k f)) (h2 : ∀ f : Fin 74, x2 (ix2 f q) = w1 (ix2 f r))
    (h5 : ∀ f : Fin 13, x5 (ix2 p f) = ea (ix2 k f)) (h6 : ∀ f : Fin 13, x6 (ix2 f q) = w2 (ix2 f r)) :
    k0_pay1 (F := Ideal) x0 x2 x5 x6 (ix2 p q) = Cert.Spec.initAt xg ea w1 w2 k r := by
  rw [init_pay_apply]
  unfold Cert.Spec.initAt
  have s1 : (∑ f : Fin 74, x0 (ix2 p f) * x2 (ix2 f q)) = ∑ f : Fin 74, xg (ix2 k f) * w1 (ix2 f r) :=
    Finset.sum_congr rfl fun f _ => by rw [h0 f, h2 f]
  have s2 : (∑ f : Fin 13, x5 (ix2 p f) * x6 (ix2 f q)) = ∑ f : Fin 13, ea (ix2 k f) * w2 (ix2 f r) :=
    Finset.sum_congr rfl fun f _ => by rw [h5 f, h6 f]
  rw [s1, s2]

/-! ## From the blocks to the array -/

variable [Cert.ReferenceIdeal.Facts]
variable (V : (c : Dev nD) → (b : Ref sig .tc) → Buf (Elt Ideal) ((c : Thread nD τ).loc b))

theorem init_hz : (![0, 0] : Fin 2 → Nat) = fun _ => 0 := funext fun a => by fin_cases a <;> rfl

/-- The index maps over the grid: the two feature blocks and the output block sit at block row t, the two weights at
    block (0, 0). -/
theorem init_idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0 :=
  (by decide +kernel : ∀ t : Fin grid0.N, _)

/-- What point t writes back is block t of the first edge state of the arrays the region finds. -/
theorem init_flushed (c : Dev nD) (t : Fin cfg0.N) :
    (dat0 (F := Ideal) V c).flushed 4 t
      = ((cfg0.win 4).blk t).view.read (Elt Ideal)
          (Cert.Spec.initE (V c main_v4) (V c main_arg1) (V c main_v6) (V c main_v8)) := by
  show (cfg0.win 4).cut (grid0.coords t) ((dat0 (F := Ideal) V c).after 4 t) = _
  rw [after0_4]
  unfold out0_4
  rw [View.canon_unit_zero init_hz]
  simp only [View.ld_unit_zero (S := S5000x74) init_hz, View.ld_unit_zero (S := S74x200) init_hz,
    View.ld_unit_zero (S := S5000x13) init_hz, View.ld_unit_zero (S := S13x200) init_hz]
  obtain ⟨e0, e1, e2, e3, e4, e5, e6, e7, e8, e9⟩ := init_idx_facts t
  funext j
  obtain ⟨p, q, rfl⟩ : ∃ (p : Fin 5000) (q : Fin 200), j = ix2 p q := ⟨j 0, j 1, eq_ix2 j⟩
  show k0_pay1 (F := Ideal) (iblk0 V c 0 t) (iblk0 V c 2 t) (iblk0 V c 1 t) (iblk0 V c 3 t) (ix2 p q)
    = Cert.Spec.initAt (V c main_v4) (V c main_arg1) (V c main_v6) (V c main_v8)
        ((((cfg0.win 4).blk t).view.emb (ix2 p q)) 0) ((((cfg0.win 4).blk t).view.emb (ix2 p q)) 1)
  refine init_point (V c main_v4) (V c main_arg1) (V c main_v6) (V c main_v8)
    (iblk0 V c 0 t) (iblk0 V c 2 t) (iblk0 V c 1 t) (iblk0 V c 3 t) _ _ p q
    (fun f => ?_) (fun f => ?_) (fun f => ?_) (fun f => ?_)
  · show V c main_v4 (((cfg0.win 0).blk t).view.emb (ix2 p f))
      = V c main_v4 (ix2 ((((cfg0.win 4).blk t).view.emb (ix2 p q)) 0) f)
    refine congrArg (V c main_v4) (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 74 + 1 * f.val = f.val; omega
  · show V c main_v6 (((cfg0.win 2).blk t).view.emb (ix2 f q))
      = V c main_v6 (ix2 f ((((cfg0.win 4).blk t).view.emb (ix2 p q)) 1))
    refine congrArg (V c main_v6) (funext fun a => Fin.ext ?_)
    match a with
    | ⟨0, _⟩ => show win0_2.index t (0 : Fin 2) * 74 + 1 * f.val = f.val; omega
    | ⟨1, _⟩ => show win0_2.index t (1 : Fin 2) * 200 + 1 * q.val = win0_4.index t (1 : Fin 2) * 200 + 1 * q.val; omega
  · show V c main_arg1 (((cfg0.win 1).blk t).view.emb (ix2 p f))
      = V c main_arg1 (ix2 ((((cfg0.win 4).blk t).view.emb (ix2 p q)) 0) f)
    refine congrArg (V c main_arg1) (funext fun a => Fin.ext ?_)
    match a with
    | ⟨0, _⟩ => show win0_1.index t (0 : Fin 2) * 5000 + 1 * p.val = win0_4.index t (0 : Fin 2) * 5000 + 1 * p.val; omega
    | ⟨1, _⟩ => show win0_1.index t (1 : Fin 2) * 13 + 1 * f.val = f.val; omega
  · show V c main_v8 (((cfg0.win 3).blk t).view.emb (ix2 f q))
      = V c main_v8 (ix2 f ((((cfg0.win 4).blk t).view.emb (ix2 p q)) 1))
    refine congrArg (V c main_v8) (funext fun a => Fin.ext ?_)
    match a with
    | ⟨0, _⟩ => show win0_3.index t (0 : Fin 2) * 13 + 1 * f.val = f.val; omega
    | ⟨1, _⟩ => show win0_3.index t (1 : Fin 2) * 200 + 1 * q.val = win0_4.index t (1 : Fin 2) * 200 + 1 * q.val; omega

/-- An index of the array is in point t's block iff each coordinate is in the block's range on its axis. -/
theorem init_mem_blk (t : Fin cfg0.N) (i : S200000x200.Idx) :
    i ∈ ((cfg0.win 4).blk t).view.set ↔ ∀ a : Fin 2, win0_4.index t a * S5000x200.size a ≤ (i a).val ∧ (i a).val < win0_4.index t a * S5000x200.size a + S5000x200.size a := by
  show i ∈ ((View.whole main_v9).slice (win0_4.rect t)).set ↔ _
  rw [View.set_slice_whole, Rect.mem_set_unit]
  exact Iff.rfl

/-- Row r of the array lies in the block of point r / 5000. -/
theorem init_cover (i : S200000x200.Idx) :
    ∃ t : Fin cfg0.N, (cfg0.win 4).flush t = true ∧ i ∈ ((cfg0.win 4).blk t).view.set := by
  have hN : cfg0.N = 40 := N_0
  have hi0 : (i 0).val < 200000 := (i 0).isLt
  have hi1 : (i 1).val < 200 := (i 1).isLt
  refine ⟨⟨(i 0).val / 5000, by rw [hN]; omega⟩, flush0_4 _, ?_⟩
  obtain ⟨-, -, -, -, -, -, -, -, e8, e9⟩ := init_idx_facts ⟨(i 0).val / 5000, by rw [hN]; omega⟩
  rw [init_mem_blk]
  intro a
  match a with
  | ⟨0, _⟩ => show win0_4.index _ (0 : Fin 2) * 5000 ≤ (i 0).val ∧ (i 0).val < win0_4.index _ (0 : Fin 2) * 5000 + 5000; rw [e8]; show (i 0).val / 5000 * 5000 ≤ (i 0).val ∧ (i 0).val < (i 0).val / 5000 * 5000 + 5000; omega
  | ⟨1, _⟩ => show win0_4.index _ (1 : Fin 2) * 200 ≤ (i 1).val ∧ (i 1).val < win0_4.index _ (1 : Fin 2) * 200 + 200; rw [e9]; omega

/-- The array the first region leaves: the first edge state as one function of the arrays the region finds. -/
theorem final0 (c : Dev nD) :
    (dat0 (F := Ideal) V c).arrAt 4 cfg0.N
      = Cert.Spec.initE (V c main_v4) (V c main_arg1) (V c main_v6) (V c main_v8) :=
  (dat0 (F := Ideal) V c).arrAt_eq_of_cover 4 (Cert.Spec.initE (V c main_v4) (V c main_arg1) (V c main_v6) (V c main_v8))
    (fun t _ => init_flushed V c t) init_cover

end Cert.KVal
end
-- ==== Proof.KConv.lean ====
import proofs.«420250_j79482664779988_1_alg».proof.Proof.Gen.KernelIdeal.Frame
import proofs.«420250_j79482664779988_1_alg».proof.Proof.Spec
import Idealize.ShloMosaic.Lib.Pipeline.Value
import Idealize.ShloMosaic.PureOps.Ideal.Laws

/-
  What each of the four layer regions leaves in its output array, as a function of the arrays the region finds.

  A layer region runs over 40 points. At point t it loads rows [5000 t, 5000 t + 5000) of the two edge arrays g and r,
  the whole [200,200] weight w and the three whole [1,200] rows b, s, u, and stores into the same rows of the output

      2 · max ( ((Σ_f (g - r)(k, f) · w(f, j)) + b(0, j)) · s(0, j) + u(0, j), 0 ).

  Three steps. The stored block at an index: the product into the zero block is the sum over the 200 contracted
  columns, a [1,200] row laid over 5000 rows reads its own column, and the remaining operations act entry by entry.
  Then each loaded block is read where the printed index maps put it (block (t, 0) of an edge array, block (0, 0) of
  the weight and of the rows), so that what point t writes back is rows [5000 t, 5000 t + 5000) of `Spec.convE`. Last,
  row k of the output lies in the block of point k / 5000, so the 40 blocks fill the array and it ends holding `Spec.convE`.
  The four layers run the same body on different buffers; layers 2 to 4 repeat layer 1's argument under their own names.
-/

set_option maxRecDepth 16384

noncomputable section

namespace Cert.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable [Cert.ReferenceIdeal.Facts]

theorem lhs_conv_0 (i : S5000x200.Idx) (q : dot_S5000x200_S200x200_S5000x200_1_0_0_1_n_n.contr.Idx) :
    (dot_S5000x200_S200x200_S5000x200_1_0_0_1_n_n.lhsIdx i q 0).val = (i 0).val := by
  unfold DotDims.lhsIdx
  rw [dif_neg (show ¬(0 : Fin S5000x200.rank) ∈ dot_S5000x200_S200x200_S5000x200_1_0_0_1_n_n.lhsBatch by decide), dif_pos (show (0 : Fin S5000x200.rank) ∈ dot_S5000x200_S200x200_S5000x200_1_0_0_1_n_n.lhsNonContracting by decide)]
  rfl
theorem lhs_conv_1 (i : S5000x200.Idx) (q : dot_S5000x200_S200x200_S5000x200_1_0_0_1_n_n.contr.Idx) :
    (dot_S5000x200_S200x200_S5000x200_1_0_0_1_n_n.lhsIdx i q 1).val = (q ⟨0, by decide⟩).val :=
  dot_S5000x200_S200x200_S5000x200_1_0_0_1_n_n.lhsIdx_val_of_single rfl i q
theorem rhs_conv_0 (i : S5000x200.Idx) (q : dot_S5000x200_S200x200_S5000x200_1_0_0_1_n_n.contr.Idx) :
    (dot_S5000x200_S200x200_S5000x200_1_0_0_1_n_n.rhsIdx i q 0).val = (q ⟨0, by decide⟩).val :=
  dot_S5000x200_S200x200_S5000x200_1_0_0_1_n_n.rhsIdx_val_of_single rfl i q
theorem rhs_conv_1 (i : S5000x200.Idx) (q : dot_S5000x200_S200x200_S5000x200_1_0_0_1_n_n.contr.Idx) :
    (dot_S5000x200_S200x200_S5000x200_1_0_0_1_n_n.rhsIdx i q 1).val = (i 1).val := by
  unfold DotDims.rhsIdx
  rw [dif_neg (show ¬(1 : Fin S200x200.rank) ∈ dot_S5000x200_S200x200_S5000x200_1_0_0_1_n_n.rhsBatch by decide), dif_pos (show (1 : Fin S200x200.rank) ∈ dot_S5000x200_S200x200_S5000x200_1_0_0_1_n_n.rhsNonContracting by decide)]
  rfl

/-- A product of a [5000,200] block with a [200,200] matrix into the zero block, at (p, q): the sum over the 200 columns. -/
theorem matmul_at (a : FVec Ideal S5000x200 .f32) (w : FVec Ideal S200x200 .f32) (p : Fin 5000) (q : Fin 200) :
    matmul dot_S5000x200_S200x200_S5000x200_1_0_0_1_n_n none a w (constant (F := Ideal) S5000x200 .f32 0x00000000#32) (ix2 p q)
      = ∑ f : Fin 200, a (ix2 p f) * w (ix2 f q) := by
  simp only [matmul]
  rw [Ideal.matmul_constant_zero_apply, ← Equiv.sum_comp (ValueIdx.contrEquiv1 dot_S5000x200_S200x200_S5000x200_1_0_0_1_n_n 200 rfl rfl).symm]
  refine Finset.sum_congr rfl fun k _ => ?_
  have hk := ValueIdx.contrEquiv1_symm_val dot_S5000x200_S200x200_S5000x200_1_0_0_1_n_n 200 rfl rfl k
  have el : dot_S5000x200_S200x200_S5000x200_1_0_0_1_n_n.lhsIdx (ix2 p q) ((ValueIdx.contrEquiv1 dot_S5000x200_S200x200_S5000x200_1_0_0_1_n_n 200 rfl rfl).symm k) = ix2 p k := funext fun a => Fin.ext (by
    match a with
    | ⟨0, _⟩ => exact lhs_conv_0 _ _
    | ⟨1, _⟩ => exact (lhs_conv_1 _ _).trans hk)
  have er : dot_S5000x200_S200x200_S5000x200_1_0_0_1_n_n.rhsIdx (ix2 p q) ((ValueIdx.contrEquiv1 dot_S5000x200_S200x200_S5000x200_1_0_0_1_n_n 200 rfl rfl).symm k) = ix2 k q := funext fun a => Fin.ext (by
    match a with
    | ⟨0, _⟩ => exact (rhs_conv_0 _ _).trans hk
    | ⟨1, _⟩ => exact rhs_conv_1 _ _)
  rw [el, er]

/-- A [1,200] row laid over the 5000 rows of a block reads the row's entry in the same column. -/
theorem row_at (v : FVec Ideal S1x200 .f32) (p : Fin 5000) (q : Fin 200) :
    broadcastTo S5000x200 v broadcasts_S1x200_S5000x200 (ix2 p q) = v (ix2 0 q) := by
  refine broadcastTo_apply v broadcasts_S1x200_S5000x200 (ix2 p q) (ix2 0 q) fun a => ?_
  match a with
  | ⟨0, _⟩ => rfl
  | ⟨1, _⟩ => rfl

/-- The block a layer's body stores, at (p, q), from the blocks it loads. -/
theorem pay_at (x0 x1 : FVec Ideal S5000x200 .f32) (x2 : FVec Ideal S200x200 .f32) (x3 x4 x5 : FVec Ideal S1x200 .f32)
    (p : Fin 5000) (q : Fin 200) :
    k1_pay1 (F := Ideal) x0 x1 x2 x3 x4 x5 (ix2 p q)
      = Cert.Spec.two * max (((∑ f : Fin 200, (x0 (ix2 p f) - x1 (ix2 p f)) * x2 (ix2 f q)) + x3 (ix2 0 q)) * x4 (ix2 0 q) + x5 (ix2 0 q)) Cert.Spec.z0 := by
  unfold k1_pay1
  simp only [shapeCast_self]
  show Cert.Spec.two * max ((matmul dot_S5000x200_S200x200_S5000x200_1_0_0_1_n_n none (subf x0 x1) x2 (constant (F := Ideal) S5000x200 .f32 0x00000000#32) (ix2 p q)
      + broadcastTo S5000x200 x3 broadcasts_S1x200_S5000x200 (ix2 p q)) * broadcastTo S5000x200 x4 broadcasts_S1x200_S5000x200 (ix2 p q)
      + broadcastTo S5000x200 x5 broadcasts_S1x200_S5000x200 (ix2 p q)) Cert.Spec.z0 = _
  rw [matmul_at, row_at, row_at, row_at]
  rfl

/-- The stored block at (p, q) is the layer's entry (k, q) of the whole arrays, when row p of the two edge blocks is row k
    of the edge arrays and the weight and the three rows are the whole arrays. -/
theorem conv_block (g r : FVec Ideal S200000x200 .f32) (w : FVec Ideal S200x200 .f32) (b s u : FVec Ideal S1x200 .f32)
    (x0 x1 : FVec Ideal S5000x200 .f32) (x2 : FVec Ideal S200x200 .f32) (x3 x4 x5 : FVec Ideal S1x200 .f32)
    (k : Fin 200000) (p : Fin 5000) (q : Fin 200)
    (h0 : ∀ f : Fin 200, x0 (ix2 p f) = g (ix2 k f)) (h1 : ∀ f : Fin 200, x1 (ix2 p f) = r (ix2 k f))
    (h2 : ∀ f : Fin 200, x2 (ix2 f q) = w (ix2 f q))
    (h3 : x3 (ix2 0 q) = b (ix2 0 q)) (h4 : x4 (ix2 0 q) = s (ix2 0 q)) (h5 : x5 (ix2 0 q) = u (ix2 0 q)) :
    k1_pay1 (F := Ideal) x0 x1 x2 x3 x4 x5 (ix2 p q) = Cert.Spec.convAt g r w b s u k q := by
  have hs : (∑ f : Fin 200, (x0 (ix2 p f) - x1 (ix2 p f)) * x2 (ix2 f q))
      = ∑ f : Fin 200, (g (ix2 k f) - r (ix2 k f)) * w (ix2 f q) :=
    Finset.sum_congr rfl fun f _ => by rw [h0 f, h1 f, h2 f]
  rw [pay_at, h3, h4, h5, hs]
  rfl

theorem hz : (![0, 0] : Fin 2 → Nat) = fun _ => 0 := funext fun a => by fin_cases a <;> rfl

variable (V : (c : Dev nD) → (b : Ref sig .tc) → Buf (Elt Ideal) ((c : Thread nD τ).loc b))

/-! ## Layer 1 -/

/-- The printed index maps over the 40 points: the edge windows and the output are at block (t, 0), the weight and the rows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Point t writes back rows [5000 t, 5000 t + 5000) of the layer's function of the arrays the region finds. -/
theorem flushed1_eq (c : Dev nD) (t : Fin cfg1.N) :
    (dat1 (F := Ideal) V c).flushed 6 t = ((cfg1.win 6).blk t).view.read (Elt Ideal)
      (Cert.Spec.convE (V c main_v23) (V c main_v26) (V c main_v16) (V c main_v17) (V c main_v18) (V c main_v19)) := by
  show (cfg1.win 6).cut (grid1.coords t) ((dat1 V c).after 6 t) = _
  rw [after1_6]
  unfold out1_6
  rw [View.canon_unit_zero hz]
  simp only [View.ld_unit_zero (S := S5000x200) hz, View.ld_unit_zero (S := S200x200) hz, View.ld_unit_zero (S := S1x200) hz]
  obtain ⟨e00, e01, e10, e11, e20, e21, e30, e31, e40, e41, e50, e51, e60, e61⟩ := idx_facts1 t
  have hN : cfg1.N = 40 := N_1
  have ht : t.val < 40 := hN ▸ t.isLt
  funext j
  obtain ⟨p, q, rfl⟩ : ∃ (p : Fin 5000) (q : Fin 200), j = ix2 p q := ⟨j 0, j 1, eq_ix2 j⟩
  have hp : p.val < 5000 := p.isLt
  have hq : q.val < 200 := q.isLt
  refine (conv_block (V c main_v23) (V c main_v26) (V c main_v16) (V c main_v17) (V c main_v18) (V c main_v19)
    (iblk1 V c 0 t) (iblk1 V c 1 t) (iblk1 V c 2 t) (iblk1 V c 3 t) (iblk1 V c 4 t) (iblk1 V c 5 t)
    ⟨5000 * t.val + p.val, by omega⟩ p q ?_ ?_ ?_ ?_ ?_ ?_).trans ?_
  · intro f
    have hf : f.val < 200 := f.isLt
    show V c main_v23 (((cfg1.win 0).blk t).view.emb (ix2 p f)) = V c main_v23 _
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 200 + 1 * f.val = f.val; omega
  · intro f
    have hf : f.val < 200 := f.isLt
    show V c main_v26 (((cfg1.win 1).blk t).view.emb (ix2 p f)) = V c main_v26 _
    refine congrArg _ (funext fun a => Fin.ext ?_)
    match a with
    | ⟨0, _⟩ => show win1_1.index t (0 : Fin 2) * 5000 + 1 * p.val = 5000 * t.val + p.val; omega
    | ⟨1, _⟩ => show win1_1.index t (1 : Fin 2) * 200 + 1 * f.val = f.val; omega
  · intro f
    have hf : f.val < 200 := f.isLt
    show V c main_v16 (((cfg1.win 2).blk t).view.emb (ix2 f q)) = V c main_v16 _
    refine congrArg _ (funext fun a => Fin.ext ?_)
    match a with
    | ⟨0, _⟩ => show win1_2.index t (0 : Fin 2) * 200 + 1 * f.val = f.val; omega
    | ⟨1, _⟩ => show win1_2.index t (1 : Fin 2) * 200 + 1 * q.val = q.val; omega
  · show V c main_v17 (((cfg1.win 3).blk t).view.emb (ix2 0 q)) = V c main_v17 _
    refine congrArg _ (funext fun a => Fin.ext ?_)
    match a with
    | ⟨0, _⟩ => show win1_3.index t (0 : Fin 2) * 1 + 1 * 0 = 0; omega
    | ⟨1, _⟩ => show win1_3.index t (1 : Fin 2) * 200 + 1 * q.val = q.val; omega
  · show V c main_v18 (((cfg1.win 4).blk t).view.emb (ix2 0 q)) = V c main_v18 _
    refine congrArg _ (funext fun a => Fin.ext ?_)
    match a with
    | ⟨0, _⟩ => show win1_4.index t (0 : Fin 2) * 1 + 1 * 0 = 0; omega
    | ⟨1, _⟩ => show win1_4.index t (1 : Fin 2) * 200 + 1 * q.val = q.val; omega
  · show V c main_v19 (((cfg1.win 5).blk t).view.emb (ix2 0 q)) = V c main_v19 _
    refine congrArg _ (funext fun a => Fin.ext ?_)
    match a with
    | ⟨0, _⟩ => show win1_5.index t (0 : Fin 2) * 1 + 1 * 0 = 0; omega
    | ⟨1, _⟩ => show win1_5.index t (1 : Fin 2) * 200 + 1 * q.val = q.val; omega
  · show Cert.Spec.convAt _ _ _ _ _ _ _ _ = Cert.Spec.convAt _ _ _ _ _ _ ((((cfg1.win 6).blk t).view.emb (ix2 p q)) 0) ((((cfg1.win 6).blk t).view.emb (ix2 p q)) 1)
    congr 1
    · refine Fin.ext ?_
      show 5000 * t.val + p.val = win1_6.index t (0 : Fin 2) * 5000 + 1 * p.val
      omega
    · refine Fin.ext ?_
      show q.val = win1_6.index t (1 : Fin 2) * 200 + 1 * q.val
      omega

/-- An index of the array is in point t's block iff each coordinate is in the block's range on its axis. -/
theorem mem_blk1 (t : Fin cfg1.N) (i : S200000x200.Idx) :
    i ∈ ((cfg1.win 6).blk t).view.set ↔ ∀ a : Fin 2, win1_6.index t a * S5000x200.size a ≤ (i a).val ∧ (i a).val < win1_6.index t a * S5000x200.size a + S5000x200.size a := by
  show i ∈ ((View.whole main_v27).slice (win1_6.rect t)).set ↔ _
  rw [View.set_slice_whole, Rect.mem_set_unit]
  exact Iff.rfl

/-- Row r of the array is in the block of point r / 5000. -/
theorem cover1 (i : S200000x200.Idx) :
    ∃ t : Fin cfg1.N, (cfg1.win 6).flush t = true ∧ i ∈ ((cfg1.win 6).blk t).view.set := by
  have hN : cfg1.N = 40 := N_1
  have hi0 : (i 0).val < 200000 := (i 0).isLt
  have hi1 : (i 1).val < 200 := (i 1).isLt
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51, e60, e61⟩ := idx_facts1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 200 ≤ (i 1).val ∧ (i 1).val < win1_6.index t (1 : Fin 2) * 200 + 200; omega

theorem final1 (c : Dev nD) :
    (dat1 (F := Ideal) V c).arrAt 6 cfg1.N
      = Cert.Spec.convE (V c main_v23) (V c main_v26) (V c main_v16) (V c main_v17) (V c main_v18) (V c main_v19) :=
  (dat1 (F := Ideal) V c).arrAt_eq_of_cover 6 _ (fun t _ => flushed1_eq V c t) cover1

/-! ## Layer 2 -/

/-- Layer 2's body stores the same function of its loaded blocks as layer 1's. -/
theorem conv_block2 (g r : FVec Ideal S200000x200 .f32) (w : FVec Ideal S200x200 .f32) (b s u : FVec Ideal S1x200 .f32)
    (x0 x1 : FVec Ideal S5000x200 .f32) (x2 : FVec Ideal S200x200 .f32) (x3 x4 x5 : FVec Ideal S1x200 .f32)
    (k : Fin 200000) (p : Fin 5000) (q : Fin 200)
    (h0 : ∀ f : Fin 200, x0 (ix2 p f) = g (ix2 k f)) (h1 : ∀ f : Fin 200, x1 (ix2 p f) = r (ix2 k f))
    (h2 : ∀ f : Fin 200, x2 (ix2 f q) = w (ix2 f q))
    (h3 : x3 (ix2 0 q) = b (ix2 0 q)) (h4 : x4 (ix2 0 q) = s (ix2 0 q)) (h5 : x5 (ix2 0 q) = u (ix2 0 q)) :
    k2_pay1 (F := Ideal) x0 x1 x2 x3 x4 x5 (ix2 p q) = Cert.Spec.convAt g r w b s u k q :=
  conv_block g r w b s u x0 x1 x2 x3 x4 x5 k p q h0 h1 h2 h3 h4 h5

/-- The printed index maps over the 40 points: the edge windows and the output are at block (t, 0), the weight and the rows at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Point t writes back rows [5000 t, 5000 t + 5000) of the layer's function of the arrays the region finds. -/
theorem flushed2_eq (c : Dev nD) (t : Fin cfg2.N) :
    (dat2 (F := Ideal) V c).flushed 6 t = ((cfg2.win 6).blk t).view.read (Elt Ideal)
      (Cert.Spec.convE (V c main_v31) (V c main_v34) (V c main_v16) (V c main_v17) (V c main_v18) (V c main_v19)) := by
  show (cfg2.win 6).cut (grid2.coords t) ((dat2 V c).after 6 t) = _
  rw [after2_6]
  unfold out2_6
  rw [View.canon_unit_zero hz]
  simp only [View.ld_unit_zero (S := S5000x200) hz, View.ld_unit_zero (S := S200x200) hz, View.ld_unit_zero (S := S1x200) hz]
  obtain ⟨e00, e01, e10, e11, e20, e21, e30, e31, e40, e41, e50, e51, e60, e61⟩ := idx_facts2 t
  have hN : cfg2.N = 40 := N_2
  have ht : t.val < 40 := hN ▸ t.isLt
  funext j
  obtain ⟨p, q, rfl⟩ : ∃ (p : Fin 5000) (q : Fin 200), j = ix2 p q := ⟨j 0, j 1, eq_ix2 j⟩
  have hp : p.val < 5000 := p.isLt
  have hq : q.val < 200 := q.isLt
  refine (conv_block2 (V c main_v31) (V c main_v34) (V c main_v16) (V c main_v17) (V c main_v18) (V c main_v19)
    (iblk2 V c 0 t) (iblk2 V c 1 t) (iblk2 V c 2 t) (iblk2 V c 3 t) (iblk2 V c 4 t) (iblk2 V c 5 t)
    ⟨5000 * t.val + p.val, by omega⟩ p q ?_ ?_ ?_ ?_ ?_ ?_).trans ?_
  · intro f
    have hf : f.val < 200 := f.isLt
    show V c main_v31 (((cfg2.win 0).blk t).view.emb (ix2 p f)) = V c main_v31 _
    refine congrArg _ (funext fun a => Fin.ext ?_)
    match a with
    | ⟨0, _⟩ => show win2_0.index t (0 : Fin 2) * 5000 + 1 * p.val = 5000 * t.val + p.val; omega
    | ⟨1, _⟩ => show win2_0.index t (1 : Fin 2) * 200 + 1 * f.val = f.val; omega
  · intro f
    have hf : f.val < 200 := f.isLt
    show V c main_v34 (((cfg2.win 1).blk t).view.emb (ix2 p f)) = V c main_v34 _
    refine congrArg _ (funext fun a => Fin.ext ?_)
    match a with
    | ⟨0, _⟩ => show win2_1.index t (0 : Fin 2) * 5000 + 1 * p.val = 5000 * t.val + p.val; omega
    | ⟨1, _⟩ => show win2_1.index t (1 : Fin 2) * 200 + 1 * f.val = f.val; omega
  · intro f
    have hf : f.val < 200 := f.isLt
    show V c main_v16 (((cfg2.win 2).blk t).view.emb (ix2 f q)) = V c main_v16 _
    refine congrArg _ (funext fun a => Fin.ext ?_)
    match a with
    | ⟨0, _⟩ => show win2_2.index t (0 : Fin 2) * 200 + 1 * f.val = f.val; omega
    | ⟨1, _⟩ => show win2_2.index t (1 : Fin 2) * 200 + 1 * q.val = q.val; omega
  · show V c main_v17 (((cfg2.win 3).blk t).view.emb (ix2 0 q)) = V c main_v17 _
    refine congrArg _ (funext fun a => Fin.ext ?_)
    match a with
    | ⟨0, _⟩ => show win2_3.index t (0 : Fin 2) * 1 + 1 * 0 = 0; omega
    | ⟨1, _⟩ => show win2_3.index t (1 : Fin 2) * 200 + 1 * q.val = q.val; omega
  · show V c main_v18 (((cfg2.win 4).blk t).view.emb (ix2 0 q)) = V c main_v18 _
    refine congrArg _ (funext fun a => Fin.ext ?_)
    match a with
    | ⟨0, _⟩ => show win2_4.index t (0 : Fin 2) * 1 + 1 * 0 = 0; omega
    | ⟨1, _⟩ => show win2_4.index t (1 : Fin 2) * 200 + 1 * q.val = q.val; omega
  · show V c main_v19 (((cfg2.win 5).blk t).view.emb (ix2 0 q)) = V c main_v19 _
    refine congrArg _ (funext fun a => Fin.ext ?_)
    match a with
    | ⟨0, _⟩ => show win2_5.index t (0 : Fin 2) * 1 + 1 * 0 = 0; omega
    | ⟨1, _⟩ => show win2_5.index t (1 : Fin 2) * 200 + 1 * q.val = q.val; omega
  · show Cert.Spec.convAt _ _ _ _ _ _ _ _ = Cert.Spec.convAt _ _ _ _ _ _ ((((cfg2.win 6).blk t).view.emb (ix2 p q)) 0) ((((cfg2.win 6).blk t).view.emb (ix2 p q)) 1)
    congr 1
    · refine Fin.ext ?_
      show 5000 * t.val + p.val = win2_6.index t (0 : Fin 2) * 5000 + 1 * p.val
      omega
    · refine Fin.ext ?_
      show q.val = win2_6.index t (1 : Fin 2) * 200 + 1 * q.val
      omega

/-- An index of the array is in point t's block iff each coordinate is in the block's range on its axis. -/
theorem mem_blk2 (t : Fin cfg2.N) (i : S200000x200.Idx) :
    i ∈ ((cfg2.win 6).blk t).view.set ↔ ∀ a : Fin 2, win2_6.index t a * S5000x200.size a ≤ (i a).val ∧ (i a).val < win2_6.index t a * S5000x200.size a + S5000x200.size a := by
  show i ∈ ((View.whole main_v35).slice (win2_6.rect t)).set ↔ _
  rw [View.set_slice_whole, Rect.mem_set_unit]
  exact Iff.rfl

/-- Row r of the array is in the block of point r / 5000. -/
theorem cover2 (i : S200000x200.Idx) :
    ∃ t : Fin cfg2.N, (cfg2.win 6).flush t = true ∧ i ∈ ((cfg2.win 6).blk t).view.set := by
  have hN : cfg2.N = 40 := N_2
  have hi0 : (i 0).val < 200000 := (i 0).isLt
  have hi1 : (i 1).val < 200 := (i 1).isLt
  obtain ⟨t, ht⟩ : ∃ t : Fin cfg2.N, t.val = (i 0).val / 5000 := ⟨⟨(i 0).val / 5000, by rw [hN]; omega⟩, rfl⟩
  obtain ⟨e00, e01, e10, e11, e20, e21, e30, e31, e40, e41, e50, e51, e60, e61⟩ := idx_facts2 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 200 ≤ (i 1).val ∧ (i 1).val < win2_6.index t (1 : Fin 2) * 200 + 200; omega

theorem final2 (c : Dev nD) :
    (dat2 (F := Ideal) V c).arrAt 6 cfg2.N
      = Cert.Spec.convE (V c main_v31) (V c main_v34) (V c main_v16) (V c main_v17) (V c main_v18) (V c main_v19) :=
  (dat2 (F := Ideal) V c).arrAt_eq_of_cover 6 _ (fun t _ => flushed2_eq V c t) cover2

/-! ## Layer 3 -/

/-- Layer 3's body stores the same function of its loaded blocks as layer 1's. -/
theorem conv_block3 (g r : FVec Ideal S200000x200 .f32) (w : FVec Ideal S200x200 .f32) (b s u : FVec Ideal S1x200 .f32)
    (x0 x1 : FVec Ideal S5000x200 .f32) (x2 : FVec Ideal S200x200 .f32) (x3 x4 x5 : FVec Ideal S1x200 .f32)
    (k : Fin 200000) (p : Fin 5000) (q : Fin 200)
    (h0 : ∀ f : Fin 200, x0 (ix2 p f) = g (ix2 k f)) (h1 : ∀ f : Fin 200, x1 (ix2 p f) = r (ix2 k f))
    (h2 : ∀ f : Fin 200, x2 (ix2 f q) = w (ix2 f q))
    (h3 : x3 (ix2 0 q) = b (ix2 0 q)) (h4 : x4 (ix2 0 q) = s (ix2 0 q)) (h5 : x5 (ix2 0 q) = u (ix2 0 q)) :
    k3_pay1 (F := Ideal) x0 x1 x2 x3 x4 x5 (ix2 p q) = Cert.Spec.convAt g r w b s u k q :=
  conv_block g r w b s u x0 x1 x2 x3 x4 x5 k p q h0 h1 h2 h3 h4 h5

/-- The printed index maps over the 40 points: the edge windows and the output are at block (t, 0), the weight and the rows at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Point t writes back rows [5000 t, 5000 t + 5000) of the layer's function of the arrays the region finds. -/
theorem flushed3_eq (c : Dev nD) (t : Fin cfg3.N) :
    (dat3 (F := Ideal) V c).flushed 6 t = ((cfg3.win 6).blk t).view.read (Elt Ideal)
      (Cert.Spec.convE (V c main_v39) (V c main_v42) (V c main_v16) (V c main_v17) (V c main_v18) (V c main_v19)) := by
  show (cfg3.win 6).cut (grid3.coords t) ((dat3 V c).after 6 t) = _
  rw [after3_6]
  unfold out3_6
  rw [View.canon_unit_zero hz]
  simp only [View.ld_unit_zero (S := S5000x200) hz, View.ld_unit_zero (S := S200x200) hz, View.ld_unit_zero (S := S1x200) hz]
  obtain ⟨e00, e01, e10, e11, e20, e21, e30, e31, e40, e41, e50, e51, e60, e61⟩ := idx_facts3 t
  have hN : cfg3.N = 40 := N_3
  have ht : t.val < 40 := hN ▸ t.isLt
  funext j
  obtain ⟨p, q, rfl⟩ : ∃ (p : Fin 5000) (q : Fin 200), j = ix2 p q := ⟨j 0, j 1, eq_ix2 j⟩
  have hp : p.val < 5000 := p.isLt
  have hq : q.val < 200 := q.isLt
  refine (conv_block3 (V c main_v39) (V c main_v42) (V c main_v16) (V c main_v17) (V c main_v18) (V c main_v19)
    (iblk3 V c 0 t) (iblk3 V c 1 t) (iblk3 V c 2 t) (iblk3 V c 3 t) (iblk3 V c 4 t) (iblk3 V c 5 t)
    ⟨5000 * t.val + p.val, by omega⟩ p q ?_ ?_ ?_ ?_ ?_ ?_).trans ?_
  · intro f
    have hf : f.val < 200 := f.isLt
    show V c main_v39 (((cfg3.win 0).blk t).view.emb (ix2 p f)) = V c main_v39 _
    refine congrArg _ (funext fun a => Fin.ext ?_)
    match a with
    | ⟨0, _⟩ => show win3_0.index t (0 : Fin 2) * 5000 + 1 * p.val = 5000 * t.val + p.val; omega
    | ⟨1, _⟩ => show win3_0.index t (1 : Fin 2) * 200 + 1 * f.val = f.val; omega
  · intro f
    have hf : f.val < 200 := f.isLt
    show V c main_v42 (((cfg3.win 1).blk t).view.emb (ix2 p f)) = V c main_v42 _
    refine congrArg _ (funext fun a => Fin.ext ?_)
    match a with
    | ⟨0, _⟩ => show win3_1.index t (0 : Fin 2) * 5000 + 1 * p.val = 5000 * t.val + p.val; omega
    | ⟨1, _⟩ => show win3_1.index t (1 : Fin 2) * 200 + 1 * f.val = f.val; omega
  · intro f
    have hf : f.val < 200 := f.isLt
    show V c main_v16 (((cfg3.win 2).blk t).view.emb (ix2 f q)) = V c main_v16 _
    refine congrArg _ (funext fun a => Fin.ext ?_)
    match a with
    | ⟨0, _⟩ => show win3_2.index t (0 : Fin 2) * 200 + 1 * f.val = f.val; omega
    | ⟨1, _⟩ => show win3_2.index t (1 : Fin 2) * 200 + 1 * q.val = q.val; omega
  · show V c main_v17 (((cfg3.win 3).blk t).view.emb (ix2 0 q)) = V c main_v17 _
    refine congrArg _ (funext fun a => Fin.ext ?_)
    match a with
    | ⟨0, _⟩ => show win3_3.index t (0 : Fin 2) * 1 + 1 * 0 = 0; omega
    | ⟨1, _⟩ => show win3_3.index t (1 : Fin 2) * 200 + 1 * q.val = q.val; omega
  · show V c main_v18 (((cfg3.win 4).blk t).view.emb (ix2 0 q)) = V c main_v18 _
    refine congrArg _ (funext fun a => Fin.ext ?_)
    match a with
    | ⟨0, _⟩ => show win3_4.index t (0 : Fin 2) * 1 + 1 * 0 = 0; omega
    | ⟨1, _⟩ => show win3_4.index t (1 : Fin 2) * 200 + 1 * q.val = q.val; omega
  · show V c main_v19 (((cfg3.win 5).blk t).view.emb (ix2 0 q)) = V c main_v19 _
    refine congrArg _ (funext fun a => Fin.ext ?_)
    match a with
    | ⟨0, _⟩ => show win3_5.index t (0 : Fin 2) * 1 + 1 * 0 = 0; omega
    | ⟨1, _⟩ => show win3_5.index t (1 : Fin 2) * 200 + 1 * q.val = q.val; omega
  · show Cert.Spec.convAt _ _ _ _ _ _ _ _ = Cert.Spec.convAt _ _ _ _ _ _ ((((cfg3.win 6).blk t).view.emb (ix2 p q)) 0) ((((cfg3.win 6).blk t).view.emb (ix2 p q)) 1)
    congr 1
    · refine Fin.ext ?_
      show 5000 * t.val + p.val = win3_6.index t (0 : Fin 2) * 5000 + 1 * p.val
      omega
    · refine Fin.ext ?_
      show q.val = win3_6.index t (1 : Fin 2) * 200 + 1 * q.val
      omega

/-- An index of the array is in point t's block iff each coordinate is in the block's range on its axis. -/
theorem mem_blk3 (t : Fin cfg3.N) (i : S200000x200.Idx) :
    i ∈ ((cfg3.win 6).blk t).view.set ↔ ∀ a : Fin 2, win3_6.index t a * S5000x200.size a ≤ (i a).val ∧ (i a).val < win3_6.index t a * S5000x200.size a + S5000x200.size a := by
  show i ∈ ((View.whole main_v43).slice (win3_6.rect t)).set ↔ _
  rw [View.set_slice_whole, Rect.mem_set_unit]
  exact Iff.rfl

/-- Row r of the array is in the block of point r / 5000. -/
theorem cover3 (i : S200000x200.Idx) :
    ∃ t : Fin cfg3.N, (cfg3.win 6).flush t = true ∧ i ∈ ((cfg3.win 6).blk t).view.set := by
  have hN : cfg3.N = 40 := N_3
  have hi0 : (i 0).val < 200000 := (i 0).isLt
  have hi1 : (i 1).val < 200 := (i 1).isLt
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41, e50, e51, e60, e61⟩ := idx_facts3 t
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 200 ≤ (i 1).val ∧ (i 1).val < win3_6.index t (1 : Fin 2) * 200 + 200; omega

theorem final3 (c : Dev nD) :
    (dat3 (F := Ideal) V c).arrAt 6 cfg3.N
      = Cert.Spec.convE (V c main_v39) (V c main_v42) (V c main_v16) (V c main_v17) (V c main_v18) (V c main_v19) :=
  (dat3 (F := Ideal) V c).arrAt_eq_of_cover 6 _ (fun t _ => flushed3_eq V c t) cover3

/-! ## Layer 4 -/

/-- Layer 4's body stores the same function of its loaded blocks as layer 1's. -/
theorem conv_block4 (g r : FVec Ideal S200000x200 .f32) (w : FVec Ideal S200x200 .f32) (b s u : FVec Ideal S1x200 .f32)
    (x0 x1 : FVec Ideal S5000x200 .f32) (x2 : FVec Ideal S200x200 .f32) (x3 x4 x5 : FVec Ideal S1x200 .f32)
    (k : Fin 200000) (p : Fin 5000) (q : Fin 200)
    (h0 : ∀ f : Fin 200, x0 (ix2 p f) = g (ix2 k f)) (h1 : ∀ f : Fin 200, x1 (ix2 p f) = r (ix2 k f))
    (h2 : ∀ f : Fin 200, x2 (ix2 f q) = w (ix2 f q))
    (h3 : x3 (ix2 0 q) = b (ix2 0 q)) (h4 : x4 (ix2 0 q) = s (ix2 0 q)) (h5 : x5 (ix2 0 q) = u (ix2 0 q)) :
    k4_pay1 (F := Ideal) x0 x1 x2 x3 x4 x5 (ix2 p q) = Cert.Spec.convAt g r w b s u k q :=
  conv_block g r w b s u x0 x1 x2 x3 x4 x5 k p q h0 h1 h2 h3 h4 h5

/-- The printed index maps over the 40 points: the edge windows and the output are at block (t, 0), the weight and the rows at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Point t writes back rows [5000 t, 5000 t + 5000) of the layer's function of the arrays the region finds. -/
theorem flushed4_eq (c : Dev nD) (t : Fin cfg4.N) :
    (dat4 (F := Ideal) V c).flushed 6 t = ((cfg4.win 6).blk t).view.read (Elt Ideal)
      (Cert.Spec.convE (V c main_v47) (V c main_v50) (V c main_v16) (V c main_v17) (V c main_v18) (V c main_v19)) := by
  show (cfg4.win 6).cut (grid4.coords t) ((dat4 V c).after 6 t) = _
  rw [after4_6]
  unfold out4_6
  rw [View.canon_unit_zero hz]
  simp only [View.ld_unit_zero (S := S5000x200) hz, View.ld_unit_zero (S := S200x200) hz, View.ld_unit_zero (S := S1x200) hz]
  obtain ⟨e00, e01, e10, e11, e20, e21, e30, e31, e40, e41, e50, e51, e60, e61⟩ := idx_facts4 t
  have hN : cfg4.N = 40 := N_4
  have ht : t.val < 40 := hN ▸ t.isLt
  funext j
  obtain ⟨p, q, rfl⟩ : ∃ (p : Fin 5000) (q : Fin 200), j = ix2 p q := ⟨j 0, j 1, eq_ix2 j⟩
  have hp : p.val < 5000 := p.isLt
  have hq : q.val < 200 := q.isLt
  refine (conv_block4 (V c main_v47) (V c main_v50) (V c main_v16) (V c main_v17) (V c main_v18) (V c main_v19)
    (iblk4 V c 0 t) (iblk4 V c 1 t) (iblk4 V c 2 t) (iblk4 V c 3 t) (iblk4 V c 4 t) (iblk4 V c 5 t)
    ⟨5000 * t.val + p.val, by omega⟩ p q ?_ ?_ ?_ ?_ ?_ ?_).trans ?_
  · intro f
    have hf : f.val < 200 := f.isLt
    show V c main_v47 (((cfg4.win 0).blk t).view.emb (ix2 p f)) = V c main_v47 _
    refine congrArg _ (funext fun a => Fin.ext ?_)
    match a with
    | ⟨0, _⟩ => show win4_0.index t (0 : Fin 2) * 5000 + 1 * p.val = 5000 * t.val + p.val; omega
    | ⟨1, _⟩ => show win4_0.index t (1 : Fin 2) * 200 + 1 * f.val = f.val; omega
  · intro f
    have hf : f.val < 200 := f.isLt
    show V c main_v50 (((cfg4.win 1).blk t).view.emb (ix2 p f)) = V c main_v50 _
    refine congrArg _ (funext fun a => Fin.ext ?_)
    match a with
    | ⟨0, _⟩ => show win4_1.index t (0 : Fin 2) * 5000 + 1 * p.val = 5000 * t.val + p.val; omega
    | ⟨1, _⟩ => show win4_1.index t (1 : Fin 2) * 200 + 1 * f.val = f.val; omega
  · intro f
    have hf : f.val < 200 := f.isLt
    show V c main_v16 (((cfg4.win 2).blk t).view.emb (ix2 f q)) = V c main_v16 _
    refine congrArg _ (funext fun a => Fin.ext ?_)
    match a with
    | ⟨0, _⟩ => show win4_2.index t (0 : Fin 2) * 200 + 1 * f.val = f.val; omega
    | ⟨1, _⟩ => show win4_2.index t (1 : Fin 2) * 200 + 1 * q.val = q.val; omega
  · show V c main_v17 (((cfg4.win 3).blk t).view.emb (ix2 0 q)) = V c main_v17 _
    refine congrArg _ (funext fun a => Fin.ext ?_)
    match a with
    | ⟨0, _⟩ => show win4_3.index t (0 : Fin 2) * 1 + 1 * 0 = 0; omega
    | ⟨1, _⟩ => show win4_3.index t (1 : Fin 2) * 200 + 1 * q.val = q.val; omega
  · show V c main_v18 (((cfg4.win 4).blk t).view.emb (ix2 0 q)) = V c main_v18 _
    refine congrArg _ (funext fun a => Fin.ext ?_)
    match a with
    | ⟨0, _⟩ => show win4_4.index t (0 : Fin 2) * 1 + 1 * 0 = 0; omega
    | ⟨1, _⟩ => show win4_4.index t (1 : Fin 2) * 200 + 1 * q.val = q.val; omega
  · show V c main_v19 (((cfg4.win 5).blk t).view.emb (ix2 0 q)) = V c main_v19 _
    refine congrArg _ (funext fun a => Fin.ext ?_)
    match a with
    | ⟨0, _⟩ => show win4_5.index t (0 : Fin 2) * 1 + 1 * 0 = 0; omega
    | ⟨1, _⟩ => show win4_5.index t (1 : Fin 2) * 200 + 1 * q.val = q.val; omega
  · show Cert.Spec.convAt _ _ _ _ _ _ _ _ = Cert.Spec.convAt _ _ _ _ _ _ ((((cfg4.win 6).blk t).view.emb (ix2 p q)) 0) ((((cfg4.win 6).blk t).view.emb (ix2 p q)) 1)
    congr 1
    · refine Fin.ext ?_
      show 5000 * t.val + p.val = win4_6.index t (0 : Fin 2) * 5000 + 1 * p.val
      omega
    · refine Fin.ext ?_
      show q.val = win4_6.index t (1 : Fin 2) * 200 + 1 * q.val
      omega

/-- An index of the array is in point t's block iff each coordinate is in the block's range on its axis. -/
theorem mem_blk4 (t : Fin cfg4.N) (i : S200000x200.Idx) :
    i ∈ ((cfg4.win 6).blk t).view.set ↔ ∀ a : Fin 2, win4_6.index t a * S5000x200.size a ≤ (i a).val ∧ (i a).val < win4_6.index t a * S5000x200.size a + S5000x200.size a := by
  show i ∈ ((View.whole main_v51).slice (win4_6.rect t)).set ↔ _
  rw [View.set_slice_whole, Rect.mem_set_unit]
  exact Iff.rfl

/-- Row r of the array is in the block of point r / 5000. -/
theorem cover4 (i : S200000x200.Idx) :
    ∃ t : Fin cfg4.N, (cfg4.win 6).flush t = true ∧ i ∈ ((cfg4.win 6).blk t).view.set := by
  have hN : cfg4.N = 40 := N_4
  have hi0 : (i 0).val < 200000 := (i 0).isLt
  have hi1 : (i 1).val < 200 := (i 1).isLt
  obtain ⟨t, ht⟩ : ∃ t : Fin cfg4.N, t.val = (i 0).val / 5000 := ⟨⟨(i 0).val / 5000, by rw [hN]; omega⟩, rfl⟩
  obtain ⟨e00, e01, e10, e11, e20, e21, e30, e31, e40, e41, e50, e51, e60, e61⟩ := idx_facts4 t
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 200 ≤ (i 1).val ∧ (i 1).val < win4_6.index t (1 : Fin 2) * 200 + 200; omega

theorem final4 (c : Dev nD) :
    (dat4 (F := Ideal) V c).arrAt 6 cfg4.N
      = Cert.Spec.convE (V c main_v47) (V c main_v50) (V c main_v16) (V c main_v17) (V c main_v18) (V c main_v19) :=
  (dat4 (F := Ideal) V c).arrAt_eq_of_cover 6 _ (fun t _ => flushed4_eq V c t) cover4

end Cert.KVal
end
-- ==== Proof.KChainA.lean ====
import proofs.«420250_j79482664779988_1_alg».proof.Proof.Gen.KernelIdeal.Frame
import proofs.«420250_j79482664779988_1_alg».proof.Proof.Spec
import proofs.«420250_j79482664779988_1_alg».proof.Proof.KState
import proofs.«420250_j79482664779988_1_alg».proof.Proof.KInit
import proofs.«420250_j79482664779988_1_alg».proof.Proof.KConv
import Idealize.ShloMosaic.Lib.StableHlo.Run
set_option maxRecDepth 16384

/-!
  The kernel's program from the launch to the exit of its second region, read buffer by buffer.

  Each stretch of host operations is a function of the contents it finds: its result at one buffer is a shared piece
  of the specification applied to the entering contents, and a buffer it does not write keeps its contents.  A
  region leaves its output array at the value its body computes, its input arrays and every other buffer as entered.
  Walking the eight boundaries in order, every buffer a later layer reads is a function of the launch arguments alone:
  the two index vectors, the four prepared parameter arrays, and the edge state after one layer.
-/

noncomputable section

namespace Cert.KVal

open Idealize.ShloMosaic Idealize.ShloMosaic.TcCoe Idealize.ShloMosaic.ValueIdx
open Idealize.ShloMosaic.StableHlo
open Idealize.SL.Sem
open Idealize.ShloMosaic.Pipeline (Dat Cfg Window)
open Cert.KernelIdeal Cert.KernelIdeal.Gen

variable [Cert.ReferenceIdeal.Facts]
open Cert.Spec

namespace A

/-! ## The host stretches, each read at one buffer, from any entering contents -/

section Host
variable (Win : Valuation τ sig (Elt Ideal))

theorem h0_v1 : StableHlo.after (hostOps0 (F := Ideal)) Win (Proc.devRef .tc main_v1) = rowOf (Win (Proc.devRef .tc main_arg2)) := by
  after_results
  try rfl
theorem h0_v3 : StableHlo.after (hostOps0 (F := Ideal)) Win (Proc.devRef .tc main_v3) = colOf (Win (Proc.devRef .tc main_arg2)) := by
  after_results
  try rfl
theorem h0_keep_arg0 : StableHlo.after (hostOps0 (F := Ideal)) Win (Proc.devRef .tc main_arg0) = Win (Proc.devRef .tc main_arg0) := by after_results
theorem h0_keep_arg1 : StableHlo.after (hostOps0 (F := Ideal)) Win (Proc.devRef .tc main_arg1) = Win (Proc.devRef .tc main_arg1) := by after_results
theorem h0_keep_arg4 : StableHlo.after (hostOps0 (F := Ideal)) Win (Proc.devRef .tc main_arg4) = Win (Proc.devRef .tc main_arg4) := by after_results
theorem h0_keep_arg5 : StableHlo.after (hostOps0 (F := Ideal)) Win (Proc.devRef .tc main_arg5) = Win (Proc.devRef .tc main_arg5) := by after_results
theorem h0_keep_arg6 : StableHlo.after (hostOps0 (F := Ideal)) Win (Proc.devRef .tc main_arg6) = Win (Proc.devRef .tc main_arg6) := by after_results
theorem h0_keep_arg7 : StableHlo.after (hostOps0 (F := Ideal)) Win (Proc.devRef .tc main_arg7) = Win (Proc.devRef .tc main_arg7) := by after_results
theorem h0_keep_arg8 : StableHlo.after (hostOps0 (F := Ideal)) Win (Proc.devRef .tc main_arg8) = Win (Proc.devRef .tc main_arg8) := by after_results
theorem h0_keep_arg9 : StableHlo.after (hostOps0 (F := Ideal)) Win (Proc.devRef .tc main_arg9) = Win (Proc.devRef .tc main_arg9) := by after_results
theorem h0_keep_arg10 : StableHlo.after (hostOps0 (F := Ideal)) Win (Proc.devRef .tc main_arg10) = Win (Proc.devRef .tc main_arg10) := by after_results

theorem h01_v4 : StableHlo.after (hostOps0_1 (F := Ideal)) Win (Proc.devRef .tc main_v4) = fill74 (Win (Proc.devRef .tc main_arg0)) (Win (Proc.devRef .tc main_v1)) := by
  after_results_simp
  simp only [TRef.ofBuf, TRef.toBuf, cast_eq]
  rfl
theorem h01_keep_v1 : StableHlo.after (hostOps0_1 (F := Ideal)) Win (Proc.devRef .tc main_v1) = Win (Proc.devRef .tc main_v1) := by after_results_simp
theorem h01_keep_v3 : StableHlo.after (hostOps0_1 (F := Ideal)) Win (Proc.devRef .tc main_v3) = Win (Proc.devRef .tc main_v3) := by after_results_simp
theorem h01_keep_arg1 : StableHlo.after (hostOps0_1 (F := Ideal)) Win (Proc.devRef .tc main_arg1) = Win (Proc.devRef .tc main_arg1) := by after_results_simp
theorem h01_keep_arg4 : StableHlo.after (hostOps0_1 (F := Ideal)) Win (Proc.devRef .tc main_arg4) = Win (Proc.devRef .tc main_arg4) := by after_results_simp
theorem h01_keep_arg5 : StableHlo.after (hostOps0_1 (F := Ideal)) Win (Proc.devRef .tc main_arg5) = Win (Proc.devRef .tc main_arg5) := by after_results_simp
theorem h01_keep_arg6 : StableHlo.after (hostOps0_1 (F := Ideal)) Win (Proc.devRef .tc main_arg6) = Win (Proc.devRef .tc main_arg6) := by after_results_simp
theorem h01_keep_arg7 : StableHlo.after (hostOps0_1 (F := Ideal)) Win (Proc.devRef .tc main_arg7) = Win (Proc.devRef .tc main_arg7) := by after_results_simp
theorem h01_keep_arg8 : StableHlo.after (hostOps0_1 (F := Ideal)) Win (Proc.devRef .tc main_arg8) = Win (Proc.devRef .tc main_arg8) := by after_results_simp
theorem h01_keep_arg9 : StableHlo.after (hostOps0_1 (F := Ideal)) Win (Proc.devRef .tc main_arg9) = Win (Proc.devRef .tc main_arg9) := by after_results_simp
theorem h01_keep_arg10 : StableHlo.after (hostOps0_1 (F := Ideal)) Win (Proc.devRef .tc main_arg10) = Win (Proc.devRef .tc main_arg10) := by after_results_simp

theorem h02_v6 : StableHlo.after (hostOps0_2 (F := Ideal)) Win (Proc.devRef .tc main_v6) = w1Of (Win (Proc.devRef .tc main_arg4)) := by
  after_results
  try rfl
theorem h02_v8 : StableHlo.after (hostOps0_2 (F := Ideal)) Win (Proc.devRef .tc main_v8) = w2Of (Win (Proc.devRef .tc main_arg4)) := by
  after_results
  try rfl
theorem h02_keep_v1 : StableHlo.after (hostOps0_2 (F := Ideal)) Win (Proc.devRef .tc main_v1) = Win (Proc.devRef .tc main_v1) := by after_results
theorem h02_keep_v3 : StableHlo.after (hostOps0_2 (F := Ideal)) Win (Proc.devRef .tc main_v3) = Win (Proc.devRef .tc main_v3) := by after_results
theorem h02_keep_v4 : StableHlo.after (hostOps0_2 (F := Ideal)) Win (Proc.devRef .tc main_v4) = Win (Proc.devRef .tc main_v4) := by after_results
theorem h02_keep_arg1 : StableHlo.after (hostOps0_2 (F := Ideal)) Win (Proc.devRef .tc main_arg1) = Win (Proc.devRef .tc main_arg1) := by after_results
theorem h02_keep_arg5 : StableHlo.after (hostOps0_2 (F := Ideal)) Win (Proc.devRef .tc main_arg5) = Win (Proc.devRef .tc main_arg5) := by after_results
theorem h02_keep_arg6 : StableHlo.after (hostOps0_2 (F := Ideal)) Win (Proc.devRef .tc main_arg6) = Win (Proc.devRef .tc main_arg6) := by after_results
theorem h02_keep_arg7 : StableHlo.after (hostOps0_2 (F := Ideal)) Win (Proc.devRef .tc main_arg7) = Win (Proc.devRef .tc main_arg7) := by after_results
theorem h02_keep_arg8 : StableHlo.after (hostOps0_2 (F := Ideal)) Win (Proc.devRef .tc main_arg8) = Win (Proc.devRef .tc main_arg8) := by after_results
theorem h02_keep_arg9 : StableHlo.after (hostOps0_2 (F := Ideal)) Win (Proc.devRef .tc main_arg9) = Win (Proc.devRef .tc main_arg9) := by after_results
theorem h02_keep_arg10 : StableHlo.after (hostOps0_2 (F := Ideal)) Win (Proc.devRef .tc main_arg10) = Win (Proc.devRef .tc main_arg10) := by after_results

theorem h1_v16 : StableHlo.after (hostOps1 (F := Ideal)) Win (Proc.devRef .tc main_v16) = tr200 (Win (Proc.devRef .tc main_arg5)) := by
  after_results
  try rfl
theorem h1_v17 : StableHlo.after (hostOps1 (F := Ideal)) Win (Proc.devRef .tc main_v17) = asRow (Win (Proc.devRef .tc main_arg6)) := by
  after_results
  try rfl
theorem h1_v18 : StableHlo.after (hostOps1 (F := Ideal)) Win (Proc.devRef .tc main_v18) = asRow (scaleOf (Win (Proc.devRef .tc main_arg7)) (Win (Proc.devRef .tc main_arg10))) := by
  after_results
  try rfl
theorem h1_v19 : StableHlo.after (hostOps1 (F := Ideal)) Win (Proc.devRef .tc main_v19) = asRow (subf (Win (Proc.devRef .tc main_arg8)) (mulf (Win (Proc.devRef .tc main_arg9)) (scaleOf (Win (Proc.devRef .tc main_arg7)) (Win (Proc.devRef .tc main_arg10))))) := by
  after_results
  try rfl
theorem h1_v22 : StableHlo.after (hostOps1 (F := Ideal)) Win (Proc.devRef .tc main_v22) = agg (Win (Proc.devRef .tc main_v3)) (Win (Proc.devRef .tc main_v9)) := by
  after_results
  try rfl
theorem h1_keep_v1 : StableHlo.after (hostOps1 (F := Ideal)) Win (Proc.devRef .tc main_v1) = Win (Proc.devRef .tc main_v1) := by after_results
theorem h1_keep_v3 : StableHlo.after (hostOps1 (F := Ideal)) Win (Proc.devRef .tc main_v3) = Win (Proc.devRef .tc main_v3) := by after_results
theorem h1_keep_v9 : StableHlo.after (hostOps1 (F := Ideal)) Win (Proc.devRef .tc main_v9) = Win (Proc.devRef .tc main_v9) := by after_results

theorem h11_v23 : StableHlo.after (hostOps1_1 (F := Ideal)) Win (Proc.devRef .tc main_v23) = fill200 (Win (Proc.devRef .tc main_v22)) (Win (Proc.devRef .tc main_v1)) := by
  after_results_simp
  simp only [TRef.ofBuf, TRef.toBuf, cast_eq]
  rfl
theorem h11_keep_v1 : StableHlo.after (hostOps1_1 (F := Ideal)) Win (Proc.devRef .tc main_v1) = Win (Proc.devRef .tc main_v1) := by after_results_simp
theorem h11_keep_v3 : StableHlo.after (hostOps1_1 (F := Ideal)) Win (Proc.devRef .tc main_v3) = Win (Proc.devRef .tc main_v3) := by after_results_simp
theorem h11_keep_v9 : StableHlo.after (hostOps1_1 (F := Ideal)) Win (Proc.devRef .tc main_v9) = Win (Proc.devRef .tc main_v9) := by after_results_simp
theorem h11_keep_v16 : StableHlo.after (hostOps1_1 (F := Ideal)) Win (Proc.devRef .tc main_v16) = Win (Proc.devRef .tc main_v16) := by after_results_simp
theorem h11_keep_v17 : StableHlo.after (hostOps1_1 (F := Ideal)) Win (Proc.devRef .tc main_v17) = Win (Proc.devRef .tc main_v17) := by after_results_simp
theorem h11_keep_v18 : StableHlo.after (hostOps1_1 (F := Ideal)) Win (Proc.devRef .tc main_v18) = Win (Proc.devRef .tc main_v18) := by after_results_simp
theorem h11_keep_v19 : StableHlo.after (hostOps1_1 (F := Ideal)) Win (Proc.devRef .tc main_v19) = Win (Proc.devRef .tc main_v19) := by after_results_simp

theorem h12_v26 : StableHlo.after (hostOps1_2 (F := Ideal)) Win (Proc.devRef .tc main_v26) = rev (Win (Proc.devRef .tc main_v9)) := by
  after_results
  try rfl
theorem h12_keep_v1 : StableHlo.after (hostOps1_2 (F := Ideal)) Win (Proc.devRef .tc main_v1) = Win (Proc.devRef .tc main_v1) := by after_results
theorem h12_keep_v3 : StableHlo.after (hostOps1_2 (F := Ideal)) Win (Proc.devRef .tc main_v3) = Win (Proc.devRef .tc main_v3) := by after_results
theorem h12_keep_v16 : StableHlo.after (hostOps1_2 (F := Ideal)) Win (Proc.devRef .tc main_v16) = Win (Proc.devRef .tc main_v16) := by after_results
theorem h12_keep_v17 : StableHlo.after (hostOps1_2 (F := Ideal)) Win (Proc.devRef .tc main_v17) = Win (Proc.devRef .tc main_v17) := by after_results
theorem h12_keep_v18 : StableHlo.after (hostOps1_2 (F := Ideal)) Win (Proc.devRef .tc main_v18) = Win (Proc.devRef .tc main_v18) := by after_results
theorem h12_keep_v19 : StableHlo.after (hostOps1_2 (F := Ideal)) Win (Proc.devRef .tc main_v19) = Win (Proc.devRef .tc main_v19) := by after_results
theorem h12_keep_v23 : StableHlo.after (hostOps1_2 (F := Ideal)) Win (Proc.devRef .tc main_v23) = Win (Proc.devRef .tc main_v23) := by after_results

end Host

/-! ## The boundaries' contents, one buffer at a time, as functions of the arguments -/

section Chain
variable (m : (ℓ : Loc nD τ sig) → Buf (Elt Ideal) ℓ) (ρ : Dev nD → PrngReg) (c : Dev nD)

/-! After the first stretch: the two index vectors are the rows of the edge list; the arguments are as launched. -/
theorem W1_v1 : W1 m ρ c (Proc.devRef .tc main_v1) = rowOf (m ((c.tc : Thread nD τ).loc main_arg2)) := by
  have h := h0_v1 (W0 m ρ c)
  exact h
theorem W1_v3 : W1 m ρ c (Proc.devRef .tc main_v3) = colOf (m ((c.tc : Thread nD τ).loc main_arg2)) := by
  have h := h0_v3 (W0 m ρ c)
  exact h
theorem W1_arg0 : W1 m ρ c (Proc.devRef .tc main_arg0) = m ((c.tc : Thread nD τ).loc main_arg0) :=
  (h0_keep_arg0 (W0 m ρ c)).trans rfl
theorem W1_arg1 : W1 m ρ c (Proc.devRef .tc main_arg1) = m ((c.tc : Thread nD τ).loc main_arg1) :=
  (h0_keep_arg1 (W0 m ρ c)).trans rfl
theorem W1_arg4 : W1 m ρ c (Proc.devRef .tc main_arg4) = m ((c.tc : Thread nD τ).loc main_arg4) :=
  (h0_keep_arg4 (W0 m ρ c)).trans rfl
theorem W1_arg5 : W1 m ρ c (Proc.devRef .tc main_arg5) = m ((c.tc : Thread nD τ).loc main_arg5) :=
  (h0_keep_arg5 (W0 m ρ c)).trans rfl
theorem W1_arg6 : W1 m ρ c (Proc.devRef .tc main_arg6) = m ((c.tc : Thread nD τ).loc main_arg6) :=
  (h0_keep_arg6 (W0 m ρ c)).trans rfl
theorem W1_arg7 : W1 m ρ c (Proc.devRef .tc main_arg7) = m ((c.tc : Thread nD τ).loc main_arg7) :=
  (h0_keep_arg7 (W0 m ρ c)).trans rfl
theorem W1_arg8 : W1 m ρ c (Proc.devRef .tc main_arg8) = m ((c.tc : Thread nD τ).loc main_arg8) :=
  (h0_keep_arg8 (W0 m ρ c)).trans rfl
theorem W1_arg9 : W1 m ρ c (Proc.devRef .tc main_arg9) = m ((c.tc : Thread nD τ).loc main_arg9) :=
  (h0_keep_arg9 (W0 m ρ c)).trans rfl
theorem W1_arg10 : W1 m ρ c (Proc.devRef .tc main_arg10) = m ((c.tc : Thread nD τ).loc main_arg10) :=
  (h0_keep_arg10 (W0 m ρ c)).trans rfl

/-! After the second stretch: the node features fetched at the sources, a row outside the array at the junk value. -/
theorem W2_v4 : W2 m ρ c (Proc.devRef .tc main_v4) = fill74 (m ((c.tc : Thread nD τ).loc main_arg0)) (rowOf (m ((c.tc : Thread nD τ).loc main_arg2))) := by
  have h := h01_v4 (W1 m ρ c)
  rw [W1_arg0 m ρ c, W1_v1 m ρ c] at h
  exact h
theorem W2_v1 : W2 m ρ c (Proc.devRef .tc main_v1) = rowOf (m ((c.tc : Thread nD τ).loc main_arg2)) :=
  (h01_keep_v1 (W1 m ρ c)).trans (W1_v1 m ρ c)
theorem W2_v3 : W2 m ρ c (Proc.devRef .tc main_v3) = colOf (m ((c.tc : Thread nD τ).loc main_arg2)) :=
  (h01_keep_v3 (W1 m ρ c)).trans (W1_v3 m ρ c)
theorem W2_arg1 : W2 m ρ c (Proc.devRef .tc main_arg1) = m ((c.tc : Thread nD τ).loc main_arg1) :=
  (h01_keep_arg1 (W1 m ρ c)).trans (W1_arg1 m ρ c)
theorem W2_arg4 : W2 m ρ c (Proc.devRef .tc main_arg4) = m ((c.tc : Thread nD τ).loc main_arg4) :=
  (h01_keep_arg4 (W1 m ρ c)).trans (W1_arg4 m ρ c)
theorem W2_arg5 : W2 m ρ c (Proc.devRef .tc main_arg5) = m ((c.tc : Thread nD τ).loc main_arg5) :=
  (h01_keep_arg5 (W1 m ρ c)).trans (W1_arg5 m ρ c)
theorem W2_arg6 : W2 m ρ c (Proc.devRef .tc main_arg6) = m ((c.tc : Thread nD τ).loc main_arg6) :=
  (h01_keep_arg6 (W1 m ρ c)).trans (W1_arg6 m ρ c)
theorem W2_arg7 : W2 m ρ c (Proc.devRef .tc main_arg7) = m ((c.tc : Thread nD τ).loc main_arg7) :=
  (h01_keep_arg7 (W1 m ρ c)).trans (W1_arg7 m ρ c)
theorem W2_arg8 : W2 m ρ c (Proc.devRef .tc main_arg8) = m ((c.tc : Thread nD τ).loc main_arg8) :=
  (h01_keep_arg8 (W1 m ρ c)).trans (W1_arg8 m ρ c)
theorem W2_arg9 : W2 m ρ c (Proc.devRef .tc main_arg9) = m ((c.tc : Thread nD τ).loc main_arg9) :=
  (h01_keep_arg9 (W1 m ρ c)).trans (W1_arg9 m ρ c)
theorem W2_arg10 : W2 m ρ c (Proc.devRef .tc main_arg10) = m ((c.tc : Thread nD τ).loc main_arg10) :=
  (h01_keep_arg10 (W1 m ρ c)).trans (W1_arg10 m ρ c)

/-! After the third stretch: the two halves of the first weight, transposed. -/
theorem W3_v6 : W3 m ρ c (Proc.devRef .tc main_v6) = w1Of (m ((c.tc : Thread nD τ).loc main_arg4)) := by
  have h := h02_v6 (W2 m ρ c)
  rw [W2_arg4 m ρ c] at h
  exact h
theorem W3_v8 : W3 m ρ c (Proc.devRef .tc main_v8) = w2Of (m ((c.tc : Thread nD τ).loc main_arg4)) := by
  have h := h02_v8 (W2 m ρ c)
  rw [W2_arg4 m ρ c] at h
  exact h
theorem W3_v1 : W3 m ρ c (Proc.devRef .tc main_v1) = rowOf (m ((c.tc : Thread nD τ).loc main_arg2)) :=
  (h02_keep_v1 (W2 m ρ c)).trans (W2_v1 m ρ c)
theorem W3_v3 : W3 m ρ c (Proc.devRef .tc main_v3) = colOf (m ((c.tc : Thread nD τ).loc main_arg2)) :=
  (h02_keep_v3 (W2 m ρ c)).trans (W2_v3 m ρ c)
theorem W3_v4 : W3 m ρ c (Proc.devRef .tc main_v4) = fill74 (m ((c.tc : Thread nD τ).loc main_arg0)) (rowOf (m ((c.tc : Thread nD τ).loc main_arg2))) :=
  (h02_keep_v4 (W2 m ρ c)).trans (W2_v4 m ρ c)
theorem W3_arg1 : W3 m ρ c (Proc.devRef .tc main_arg1) = m ((c.tc : Thread nD τ).loc main_arg1) :=
  (h02_keep_arg1 (W2 m ρ c)).trans (W2_arg1 m ρ c)
theorem W3_arg5 : W3 m ρ c (Proc.devRef .tc main_arg5) = m ((c.tc : Thread nD τ).loc main_arg5) :=
  (h02_keep_arg5 (W2 m ρ c)).trans (W2_arg5 m ρ c)
theorem W3_arg6 : W3 m ρ c (Proc.devRef .tc main_arg6) = m ((c.tc : Thread nD τ).loc main_arg6) :=
  (h02_keep_arg6 (W2 m ρ c)).trans (W2_arg6 m ρ c)
theorem W3_arg7 : W3 m ρ c (Proc.devRef .tc main_arg7) = m ((c.tc : Thread nD τ).loc main_arg7) :=
  (h02_keep_arg7 (W2 m ρ c)).trans (W2_arg7 m ρ c)
theorem W3_arg8 : W3 m ρ c (Proc.devRef .tc main_arg8) = m ((c.tc : Thread nD τ).loc main_arg8) :=
  (h02_keep_arg8 (W2 m ρ c)).trans (W2_arg8 m ρ c)
theorem W3_arg9 : W3 m ρ c (Proc.devRef .tc main_arg9) = m ((c.tc : Thread nD τ).loc main_arg9) :=
  (h02_keep_arg9 (W2 m ρ c)).trans (W2_arg9 m ρ c)
theorem W3_arg10 : W3 m ρ c (Proc.devRef .tc main_arg10) = m ((c.tc : Thread nD τ).loc main_arg10) :=
  (h02_keep_arg10 (W2 m ρ c)).trans (W2_arg10 m ρ c)

/-! At the first region's exit: its output array is the first edge state; every other buffer as entered. -/
theorem W4_v9 : W4 m ρ c (Proc.devRef .tc main_v9) = kInit (m ((c.tc : Thread nD τ).loc main_arg0)) (m ((c.tc : Thread nD τ).loc main_arg1)) (rowOf (m ((c.tc : Thread nD τ).loc main_arg2))) (m ((c.tc : Thread nD τ).loc main_arg4)) := by
  have h : (dat0 (F := Ideal) (V3 m ρ) c).arrAt 4 cfg0.N
      = initE (W3 m ρ c (Proc.devRef .tc main_v4)) (W3 m ρ c (Proc.devRef .tc main_arg1)) (W3 m ρ c (Proc.devRef .tc main_v6)) (W3 m ρ c (Proc.devRef .tc main_v8)) := final0 (V3 m ρ) c
  rw [W3_v4 m ρ c, W3_arg1 m ρ c, W3_v6 m ρ c, W3_v8 m ρ c] at h
  unfold kInit
  exact (W4_arr m ρ c 4).trans h
theorem W4_v1 : W4 m ρ c (Proc.devRef .tc main_v1) = rowOf (m ((c.tc : Thread nD τ).loc main_arg2)) :=
  (W4_of_ne m ρ c main_v1 (by decide)).trans (W3_v1 m ρ c)
theorem W4_v3 : W4 m ρ c (Proc.devRef .tc main_v3) = colOf (m ((c.tc : Thread nD τ).loc main_arg2)) :=
  (W4_of_ne m ρ c main_v3 (by decide)).trans (W3_v3 m ρ c)
theorem W4_arg5 : W4 m ρ c (Proc.devRef .tc main_arg5) = m ((c.tc : Thread nD τ).loc main_arg5) :=
  (W4_of_ne m ρ c main_arg5 (by decide)).trans (W3_arg5 m ρ c)
theorem W4_arg6 : W4 m ρ c (Proc.devRef .tc main_arg6) = m ((c.tc : Thread nD τ).loc main_arg6) :=
  (W4_of_ne m ρ c main_arg6 (by decide)).trans (W3_arg6 m ρ c)
theorem W4_arg7 : W4 m ρ c (Proc.devRef .tc main_arg7) = m ((c.tc : Thread nD τ).loc main_arg7) :=
  (W4_of_ne m ρ c main_arg7 (by decide)).trans (W3_arg7 m ρ c)
theorem W4_arg8 : W4 m ρ c (Proc.devRef .tc main_arg8) = m ((c.tc : Thread nD τ).loc main_arg8) :=
  (W4_of_ne m ρ c main_arg8 (by decide)).trans (W3_arg8 m ρ c)
theorem W4_arg9 : W4 m ρ c (Proc.devRef .tc main_arg9) = m ((c.tc : Thread nD τ).loc main_arg9) :=
  (W4_of_ne m ρ c main_arg9 (by decide)).trans (W3_arg9 m ρ c)
theorem W4_arg10 : W4 m ρ c (Proc.devRef .tc main_arg10) = m ((c.tc : Thread nD τ).loc main_arg10) :=
  (W4_of_ne m ρ c main_arg10 (by decide)).trans (W3_arg10 m ρ c)

/-! After the fourth stretch: the layer's weight transposed, its bias, scale and shift as rows, and the first edge state
    summed into the target nodes. -/
theorem W5_v16 : W5 m ρ c (Proc.devRef .tc main_v16) = tr200 (m ((c.tc : Thread nD τ).loc main_arg5)) := by
  have h := h1_v16 (W4 m ρ c)
  rw [W4_arg5 m ρ c] at h
  exact h
theorem W5_v17 : W5 m ρ c (Proc.devRef .tc main_v17) = asRow (m ((c.tc : Thread nD τ).loc main_arg6)) := by
  have h := h1_v17 (W4 m ρ c)
  rw [W4_arg6 m ρ c] at h
  exact h
theorem W5_v18 : W5 m ρ c (Proc.devRef .tc main_v18) = asRow (scaleOf (m ((c.tc : Thread nD τ).loc main_arg7)) (m ((c.tc : Thread nD τ).loc main_arg10))) := by
  have h := h1_v18 (W4 m ρ c)
  rw [W4_arg7 m ρ c, W4_arg10 m ρ c] at h
  exact h
theorem W5_v19 : W5 m ρ c (Proc.devRef .tc main_v19) = asRow (subf (m ((c.tc : Thread nD τ).loc main_arg8)) (mulf (m ((c.tc : Thread nD τ).loc main_arg9)) (scaleOf (m ((c.tc : Thread nD τ).loc main_arg7)) (m ((c.tc : Thread nD τ).loc main_arg10))))) := by
  have h := h1_v19 (W4 m ρ c)
  rw [W4_arg8 m ρ c, W4_arg9 m ρ c, W4_arg7 m ρ c, W4_arg10 m ρ c] at h
  exact h
theorem W5_v22 : W5 m ρ c (Proc.devRef .tc main_v22) = agg (colOf (m ((c.tc : Thread nD τ).loc main_arg2))) (kInit (m ((c.tc : Thread nD τ).loc main_arg0)) (m ((c.tc : Thread nD τ).loc main_arg1)) (rowOf (m ((c.tc : Thread nD τ).loc main_arg2))) (m ((c.tc : Thread nD τ).loc main_arg4))) := by
  have h := h1_v22 (W4 m ρ c)
  rw [W4_v3 m ρ c, W4_v9 m ρ c] at h
  exact h
theorem W5_v1 : W5 m ρ c (Proc.devRef .tc main_v1) = rowOf (m ((c.tc : Thread nD τ).loc main_arg2)) :=
  (h1_keep_v1 (W4 m ρ c)).trans (W4_v1 m ρ c)
theorem W5_v3 : W5 m ρ c (Proc.devRef .tc main_v3) = colOf (m ((c.tc : Thread nD τ).loc main_arg2)) :=
  (h1_keep_v3 (W4 m ρ c)).trans (W4_v3 m ρ c)
theorem W5_v9 : W5 m ρ c (Proc.devRef .tc main_v9) = kInit (m ((c.tc : Thread nD τ).loc main_arg0)) (m ((c.tc : Thread nD τ).loc main_arg1)) (rowOf (m ((c.tc : Thread nD τ).loc main_arg2))) (m ((c.tc : Thread nD τ).loc main_arg4)) :=
  (h1_keep_v9 (W4 m ρ c)).trans (W4_v9 m ρ c)

/-! After the fifth stretch: the node sums fetched at the sources. -/
theorem W6_v23 : W6 m ρ c (Proc.devRef .tc main_v23) = fill200 (agg (colOf (m ((c.tc : Thread nD τ).loc main_arg2))) (kInit (m ((c.tc : Thread nD τ).loc main_arg0)) (m ((c.tc : Thread nD τ).loc main_arg1)) (rowOf (m ((c.tc : Thread nD τ).loc main_arg2))) (m ((c.tc : Thread nD τ).loc main_arg4)))) (rowOf (m ((c.tc : Thread nD τ).loc main_arg2))) := by
  have h := h11_v23 (W5 m ρ c)
  rw [W5_v22 m ρ c, W5_v1 m ρ c] at h
  exact h
theorem W6_v1 : W6 m ρ c (Proc.devRef .tc main_v1) = rowOf (m ((c.tc : Thread nD τ).loc main_arg2)) :=
  (h11_keep_v1 (W5 m ρ c)).trans (W5_v1 m ρ c)
theorem W6_v3 : W6 m ρ c (Proc.devRef .tc main_v3) = colOf (m ((c.tc : Thread nD τ).loc main_arg2)) :=
  (h11_keep_v3 (W5 m ρ c)).trans (W5_v3 m ρ c)
theorem W6_v9 : W6 m ρ c (Proc.devRef .tc main_v9) = kInit (m ((c.tc : Thread nD τ).loc main_arg0)) (m ((c.tc : Thread nD τ).loc main_arg1)) (rowOf (m ((c.tc : Thread nD τ).loc main_arg2))) (m ((c.tc : Thread nD τ).loc main_arg4)) :=
  (h11_keep_v9 (W5 m ρ c)).trans (W5_v9 m ρ c)
theorem W6_v16 : W6 m ρ c (Proc.devRef .tc main_v16) = tr200 (m ((c.tc : Thread nD τ).loc main_arg5)) :=
  (h11_keep_v16 (W5 m ρ c)).trans (W5_v16 m ρ c)
theorem W6_v17 : W6 m ρ c (Proc.devRef .tc main_v17) = asRow (m ((c.tc : Thread nD τ).loc main_arg6)) :=
  (h11_keep_v17 (W5 m ρ c)).trans (W5_v17 m ρ c)
theorem W6_v18 : W6 m ρ c (Proc.devRef .tc main_v18) = asRow (scaleOf (m ((c.tc : Thread nD τ).loc main_arg7)) (m ((c.tc : Thread nD τ).loc main_arg10))) :=
  (h11_keep_v18 (W5 m ρ c)).trans (W5_v18 m ρ c)
theorem W6_v19 : W6 m ρ c (Proc.devRef .tc main_v19) = asRow (subf (m ((c.tc : Thread nD τ).loc main_arg8)) (mulf (m ((c.tc : Thread nD τ).loc main_arg9)) (scaleOf (m ((c.tc : Thread nD τ).loc main_arg7)) (m ((c.tc : Thread nD τ).loc main_arg10))))) :=
  (h11_keep_v19 (W5 m ρ c)).trans (W5_v19 m ρ c)

/-! After the sixth stretch: the first edge state with each consecutive pair swapped. -/
theorem W7_v26 : W7 m ρ c (Proc.devRef .tc main_v26) = rev (kInit (m ((c.tc : Thread nD τ).loc main_arg0)) (m ((c.tc : Thread nD τ).loc main_arg1)) (rowOf (m ((c.tc : Thread nD τ).loc main_arg2))) (m ((c.tc : Thread nD τ).loc main_arg4))) := by
  have h := h12_v26 (W6 m ρ c)
  rw [W6_v9 m ρ c] at h
  exact h
theorem W7_v1 : W7 m ρ c (Proc.devRef .tc main_v1) = rowOf (m ((c.tc : Thread nD τ).loc main_arg2)) :=
  (h12_keep_v1 (W6 m ρ c)).trans (W6_v1 m ρ c)
theorem W7_v3 : W7 m ρ c (Proc.devRef .tc main_v3) = colOf (m ((c.tc : Thread nD τ).loc main_arg2)) :=
  (h12_keep_v3 (W6 m ρ c)).trans (W6_v3 m ρ c)
theorem W7_v16 : W7 m ρ c (Proc.devRef .tc main_v16) = tr200 (m ((c.tc : Thread nD τ).loc main_arg5)) :=
  (h12_keep_v16 (W6 m ρ c)).trans (W6_v16 m ρ c)
theorem W7_v17 : W7 m ρ c (Proc.devRef .tc main_v17) = asRow (m ((c.tc : Thread nD τ).loc main_arg6)) :=
  (h12_keep_v17 (W6 m ρ c)).trans (W6_v17 m ρ c)
theorem W7_v18 : W7 m ρ c (Proc.devRef .tc main_v18) = asRow (scaleOf (m ((c.tc : Thread nD τ).loc main_arg7)) (m ((c.tc : Thread nD τ).loc main_arg10))) :=
  (h12_keep_v18 (W6 m ρ c)).trans (W6_v18 m ρ c)
theorem W7_v19 : W7 m ρ c (Proc.devRef .tc main_v19) = asRow (subf (m ((c.tc : Thread nD τ).loc main_arg8)) (mulf (m ((c.tc : Thread nD τ).loc main_arg9)) (scaleOf (m ((c.tc : Thread nD τ).loc main_arg7)) (m ((c.tc : Thread nD τ).loc main_arg10))))) :=
  (h12_keep_v19 (W6 m ρ c)).trans (W6_v19 m ρ c)
theorem W7_v23 : W7 m ρ c (Proc.devRef .tc main_v23) = fill200 (agg (colOf (m ((c.tc : Thread nD τ).loc main_arg2))) (kInit (m ((c.tc : Thread nD τ).loc main_arg0)) (m ((c.tc : Thread nD τ).loc main_arg1)) (rowOf (m ((c.tc : Thread nD τ).loc main_arg2))) (m ((c.tc : Thread nD τ).loc main_arg4)))) (rowOf (m ((c.tc : Thread nD τ).loc main_arg2))) :=
  (h12_keep_v23 (W6 m ρ c)).trans (W6_v23 m ρ c)

/-! At the second region's exit: its output array is one layer of the first edge state; an input array is never
    written back, and every other buffer is as entered. -/
theorem W8_v27 : W8 m ρ c (Proc.devRef .tc main_v27) = layerOf m c (kInit (m ((c.tc : Thread nD τ).loc main_arg0)) (m ((c.tc : Thread nD τ).loc main_arg1)) (rowOf (m ((c.tc : Thread nD τ).loc main_arg2))) (m ((c.tc : Thread nD τ).loc main_arg4))) := by
  have h : (dat1 (F := Ideal) (V7 m ρ) c).arrAt 6 cfg1.N
      = convE (W7 m ρ c (Proc.devRef .tc main_v23)) (W7 m ρ c (Proc.devRef .tc main_v26)) (W7 m ρ c (Proc.devRef .tc main_v16)) (W7 m ρ c (Proc.devRef .tc main_v17))
          (W7 m ρ c (Proc.devRef .tc main_v18)) (W7 m ρ c (Proc.devRef .tc main_v19)) := final1 (V7 m ρ) c
  rw [W7_v23 m ρ c, W7_v26 m ρ c, W7_v16 m ρ c, W7_v17 m ρ c, W7_v18 m ρ c, W7_v19 m ρ c] at h
  unfold layerOf kLayer
  exact (W8_arr m ρ c 6).trans h
theorem W8_v1 : W8 m ρ c (Proc.devRef .tc main_v1) = rowOf (m ((c.tc : Thread nD τ).loc main_arg2)) :=
  (W8_of_ne m ρ c main_v1 (by decide)).trans (W7_v1 m ρ c)
theorem W8_v3 : W8 m ρ c (Proc.devRef .tc main_v3) = colOf (m ((c.tc : Thread nD τ).loc main_arg2)) :=
  (W8_of_ne m ρ c main_v3 (by decide)).trans (W7_v3 m ρ c)
theorem W8_v16 : W8 m ρ c (Proc.devRef .tc main_v16) = tr200 (m ((c.tc : Thread nD τ).loc main_arg5)) :=
  (W8_arr m ρ c 2).trans (((dat1 (F := Ideal) (V7 m ρ) c).arrAt_in 2 rfl cfg1.N).trans
    ((A_eq1 (V7 m ρ) c 2).trans (W7_v16 m ρ c)))
theorem W8_v17 : W8 m ρ c (Proc.devRef .tc main_v17) = asRow (m ((c.tc : Thread nD τ).loc main_arg6)) :=
  (W8_arr m ρ c 3).trans (((dat1 (F := Ideal) (V7 m ρ) c).arrAt_in 3 rfl cfg1.N).trans
    ((A_eq1 (V7 m ρ) c 3).trans (W7_v17 m ρ c)))
theorem W8_v18 : W8 m ρ c (Proc.devRef .tc main_v18) = asRow (scaleOf (m ((c.tc : Thread nD τ).loc main_arg7)) (m ((c.tc : Thread nD τ).loc main_arg10))) :=
  (W8_arr m ρ c 4).trans (((dat1 (F := Ideal) (V7 m ρ) c).arrAt_in 4 rfl cfg1.N).trans
    ((A_eq1 (V7 m ρ) c 4).trans (W7_v18 m ρ c)))
theorem W8_v19 : W8 m ρ c (Proc.devRef .tc main_v19) = asRow (subf (m ((c.tc : Thread nD τ).loc main_arg8)) (mulf (m ((c.tc : Thread nD τ).loc main_arg9)) (scaleOf (m ((c.tc : Thread nD τ).loc main_arg7)) (m ((c.tc : Thread nD τ).loc main_arg10))))) :=
  (W8_arr m ρ c 5).trans (((dat1 (F := Ideal) (V7 m ρ) c).arrAt_in 5 rfl cfg1.N).trans
    ((A_eq1 (V7 m ρ) c 5).trans (W7_v19 m ρ c)))

end Chain

end A

variable (m : (ℓ : Loc nD τ sig) → Buf (Elt Ideal) ℓ) (ρ : Dev nD → PrngReg)

/-- From the launch to the second region's exit: the index vectors and the prepared parameters are in place as
    functions of the arguments, and the edge state is one layer of the first edge state. -/
theorem upto1 (c : Dev nD) :
    Params m c (W8 m ρ c) ∧ W8 m ρ c (Proc.devRef .tc main_v27)
      = layerOf m c (kInit (m ((c.tc : Thread nD τ).loc main_arg0)) (m ((c.tc : Thread nD τ).loc main_arg1))
          (rowOf (m ((c.tc : Thread nD τ).loc main_arg2))) (m ((c.tc : Thread nD τ).loc main_arg4))) :=
  ⟨⟨A.W8_v1 m ρ c, A.W8_v3 m ρ c, A.W8_v16 m ρ c, A.W8_v17 m ρ c, A.W8_v18 m ρ c, A.W8_v19 m ρ c⟩, A.W8_v27 m ρ c⟩

end Cert.KVal
end
-- ==== Proof.KChainB.lean ====
import proofs.«420250_j79482664779988_1_alg».proof.Proof.Gen.KernelIdeal.Frame
import proofs.«420250_j79482664779988_1_alg».proof.Proof.Spec
import proofs.«420250_j79482664779988_1_alg».proof.Proof.KState
import proofs.«420250_j79482664779988_1_alg».proof.Proof.KConv
import Idealize.ShloMosaic.Lib.StableHlo.Run
set_option maxRecDepth 16384

/-!
  Layers 2, 3 and 4 of the kernel's program, each from the exit of the region before it to its own region's exit.

  A layer is three host stretches and a region.  The first stretch sums the edge state into the nodes along the
  targets; the second fetches those sums at the sources, a row outside the array filled with a junk value; the third
  swaps the two edges of every consecutive pair.  The region then leaves, at every entry, the layer's formula of the
  fetched sums, the swapped state and the four prepared parameter arrays.  None of the stretches and no region writes
  the two index vectors or the four parameter arrays, so these hold at the layer's exit what they held at its entry.
-/

noncomputable section

namespace Cert.KVal

open Idealize.ShloMosaic Idealize.ShloMosaic.TcCoe Idealize.ShloMosaic.ValueIdx
open Idealize.ShloMosaic.StableHlo
open Idealize.SL.Sem
open Idealize.ShloMosaic.Pipeline (Dat Cfg Window)
open Cert.KernelIdeal Cert.KernelIdeal.Gen
open Cert.KernelIdeal.Facts₀

variable [Cert.ReferenceIdeal.Facts]
open Cert.Spec

variable (m : (ℓ : Loc nD τ sig) → Buf (Elt Ideal) ℓ) (ρ : Dev nD → PrngReg)

/-- Every operation of a literal host stretch writes into the listed buffers. -/
local macro "writes_listed" : tactic =>
  `(tactic| (simp only [List.Forall, StableHlo.nullary_writes, StableHlo.unary_writes, StableHlo.binary_writes,
      StableHlo.ternary_writes, StableHlo.reshape_writes, Finset.singleton_subset_iff, List.mem_toFinset]
             repeat' apply And.intro
             all_goals exact List.mem_map_of_mem (by decide)))

/-! ### Layer 2: the three host stretches before region 2, from any contents -/

/-- The buffers the scatter-add stretch of layer 2 writes. -/
abbrev wrA2 : List (Ref sig .tc) := [main_cst_1, main_v28, main_v29, main_v30]
/-- The buffers the row-fetch stretch of layer 2 writes. -/
abbrev wrB2 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v31]
/-- The buffers the pair-reversal stretch of layer 2 writes. -/
abbrev wrC2 : List (Ref sig .tc) := [main_v32, main_v33, main_v34]

theorem keepA2 (Win : Valuation τ sig (Elt Ideal)) (r : Ref sig .tc) (hr : r ∉ wrA2) :
    StableHlo.after (hostOps2 (F := Ideal)) Win (Proc.devRef .tc r) = Win (Proc.devRef .tc r) :=
  StableHlo.after_of_writes_sub _ Win (by writes_listed) hr
theorem keepB2 (Win : Valuation τ sig (Elt Ideal)) (r : Ref sig .tc) (hr : r ∉ wrB2) :
    StableHlo.after (hostOps2_1 (F := Ideal)) Win (Proc.devRef .tc r) = Win (Proc.devRef .tc r) :=
  StableHlo.after_of_writes_sub _ Win (by writes_listed) hr
theorem keepC2 (Win : Valuation τ sig (Elt Ideal)) (r : Ref sig .tc) (hr : r ∉ wrC2) :
    StableHlo.after (hostOps2_2 (F := Ideal)) Win (Proc.devRef .tc r) = Win (Proc.devRef .tc r) :=
  StableHlo.after_of_writes_sub _ Win (by writes_listed) hr

/-- The first stretch leaves the node sums of the edge state: the scatter-add along the targets. -/
theorem aggOf2 (Win : Valuation τ sig (Elt Ideal)) :
    StableHlo.after (hostOps2 (F := Ideal)) Win (Proc.devRef .tc main_v30)
      = agg (Win (Proc.devRef .tc main_v3)) (Win (Proc.devRef .tc main_v27)) := by
  unfold agg
  after_results

/-- The second stretch leaves the node sums fetched at the sources, a row outside the array filled with the junk value. -/
theorem fillOf2 (Win : Valuation τ sig (Elt Ideal)) :
    StableHlo.after (hostOps2_1 (F := Ideal)) Win (Proc.devRef .tc main_v31)
      = fill200 (Win (Proc.devRef .tc main_v30)) (Win (Proc.devRef .tc main_v1)) := by
  after_results_simp
  simp only [TRef.ofBuf, TRef.toBuf, cast_eq]
  rfl

/-- The third stretch leaves the edge state with the two edges of every pair swapped. -/
theorem revOf2 (Win : Valuation τ sig (Elt Ideal)) :
    StableHlo.after (hostOps2_2 (F := Ideal)) Win (Proc.devRef .tc main_v34) = rev (Win (Proc.devRef .tc main_v27)) := by
  after_results
  rfl

/-- Layer 2: the parameter buffers pass through untouched, and region 2 leaves the layer's map of the entering edge state. -/
theorem step2 (c : Dev nD) (e : FVec Ideal S200000x200 .f32) (hP : Params m c (W8 m ρ c))
    (he : W8 m ρ c (Proc.devRef .tc main_v27) = e) :
    Params m c (W12 m ρ c) ∧ W12 m ρ c (Proc.devRef .tc main_v35) = layerOf m c e := by
  -- a buffer that none of the three stretches writes enters the region holding what it held at the start
  have keep : ∀ r : Ref sig .tc, r ∉ wrA2 → r ∉ wrB2 → r ∉ wrC2 →
      V11 m ρ c r = W8 m ρ c (Proc.devRef .tc r) := fun r hA hB hC =>
    (keepC2 (W10 m ρ c) r hC).trans ((keepB2 (W9 m ρ c) r hB).trans (keepA2 (W8 m ρ c) r hA))
  -- the region leaves an array it only reads, and a buffer that is none of its arrays, as it found it
  have win : ∀ w : Fin cfg2.W, (cfg2.win w).isOut = false →
      W12 m ρ c (Proc.devRef .tc (Pipeline.arrRef spec2 w)) = V11 m ρ c (Pipeline.arrRef spec2 w) := fun w hw =>
    (W12_arr m ρ c w).trans (((dat2 (V11 m ρ) c).arrAt_in w hw _).trans (A_eq2 (V11 m ρ) c w))
  refine ⟨⟨(W12_of_ne m ρ c main_v1 (by decide)).trans ((keep main_v1 (by decide) (by decide) (by decide)).trans hP.row),
    (W12_of_ne m ρ c main_v3 (by decide)).trans ((keep main_v3 (by decide) (by decide) (by decide)).trans hP.col),
    (win 2 rfl).trans ((keep main_v16 (by decide) (by decide) (by decide)).trans hP.w),
    (win 3 rfl).trans ((keep main_v17 (by decide) (by decide) (by decide)).trans hP.b),
    (win 4 rfl).trans ((keep main_v18 (by decide) (by decide) (by decide)).trans hP.s),
    (win 5 rfl).trans ((keep main_v19 (by decide) (by decide) (by decide)).trans hP.t)⟩, ?_⟩
  -- the node sums, fetched at the sources
  have hrow : W9 m ρ c (Proc.devRef .tc main_v1) = rowOf (m ((c.tc : Thread nD τ).loc main_arg2)) :=
    (keepA2 (W8 m ρ c) main_v1 (by decide)).trans hP.row
  have hagg : W9 m ρ c (Proc.devRef .tc main_v30) = agg (colOf (m ((c.tc : Thread nD τ).loc main_arg2))) e := by
    refine (aggOf2 (W8 m ρ c)).trans ?_
    rw [hP.col, he]
  have hfill : V11 m ρ c main_v31
      = fill200 (agg (colOf (m ((c.tc : Thread nD τ).loc main_arg2))) e) (rowOf (m ((c.tc : Thread nD τ).loc main_arg2))) := by
    refine (keepC2 (W10 m ρ c) main_v31 (by decide)).trans ((fillOf2 (W9 m ρ c)).trans ?_)
    rw [hagg, hrow]
  -- the reversed edge state
  have hin : W10 m ρ c (Proc.devRef .tc main_v27) = e :=
    (keepB2 (W9 m ρ c) main_v27 (by decide)).trans ((keepA2 (W8 m ρ c) main_v27 (by decide)).trans he)
  have hrev : V11 m ρ c main_v34 = rev e := by
    refine (revOf2 (W10 m ρ c)).trans ?_
    rw [hin]
  -- the region's output is the layer's entry formula at these six arrays
  refine (W12_arr m ρ c 6).trans ((final2 (V11 m ρ) c).trans ?_)
  unfold layerOf kLayer
  rw [hfill, hrev, (keep main_v16 (by decide) (by decide) (by decide)).trans hP.w,
    (keep main_v17 (by decide) (by decide) (by decide)).trans hP.b,
    (keep main_v18 (by decide) (by decide) (by decide)).trans hP.s,
    (keep main_v19 (by decide) (by decide) (by decide)).trans hP.t]

/-! ### Layer 3: the three host stretches before region 3, from any contents -/

/-- The buffers the scatter-add stretch of layer 3 writes. -/
abbrev wrA3 : List (Ref sig .tc) := [main_cst_2, main_v36, main_v37, main_v38]
/-- The buffers the row-fetch stretch of layer 3 writes. -/
abbrev wrB3 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v39]
/-- The buffers the pair-reversal stretch of layer 3 writes. -/
abbrev wrC3 : List (Ref sig .tc) := [main_v40, main_v41, main_v42]

theorem keepA3 (Win : Valuation τ sig (Elt Ideal)) (r : Ref sig .tc) (hr : r ∉ wrA3) :
    StableHlo.after (hostOps3 (F := Ideal)) Win (Proc.devRef .tc r) = Win (Proc.devRef .tc r) :=
  StableHlo.after_of_writes_sub _ Win (by writes_listed) hr
theorem keepB3 (Win : Valuation τ sig (Elt Ideal)) (r : Ref sig .tc) (hr : r ∉ wrB3) :
    StableHlo.after (hostOps3_1 (F := Ideal)) Win (Proc.devRef .tc r) = Win (Proc.devRef .tc r) :=
  StableHlo.after_of_writes_sub _ Win (by writes_listed) hr
theorem keepC3 (Win : Valuation τ sig (Elt Ideal)) (r : Ref sig .tc) (hr : r ∉ wrC3) :
    StableHlo.after (hostOps3_2 (F := Ideal)) Win (Proc.devRef .tc r) = Win (Proc.devRef .tc r) :=
  StableHlo.after_of_writes_sub _ Win (by writes_listed) hr

/-- The first stretch leaves the node sums of the edge state: the scatter-add along the targets. -/
theorem aggOf3 (Win : Valuation τ sig (Elt Ideal)) :
    StableHlo.after (hostOps3 (F := Ideal)) Win (Proc.devRef .tc main_v38)
      = agg (Win (Proc.devRef .tc main_v3)) (Win (Proc.devRef .tc main_v35)) := by
  unfold agg
  after_results

/-- The second stretch leaves the node sums fetched at the sources, a row outside the array filled with the junk value. -/
theorem fillOf3 (Win : Valuation τ sig (Elt Ideal)) :
    StableHlo.after (hostOps3_1 (F := Ideal)) Win (Proc.devRef .tc main_v39)
      = fill200 (Win (Proc.devRef .tc main_v38)) (Win (Proc.devRef .tc main_v1)) := by
  after_results_simp
  simp only [TRef.ofBuf, TRef.toBuf, cast_eq]
  rfl

/-- The third stretch leaves the edge state with the two edges of every pair swapped. -/
theorem revOf3 (Win : Valuation τ sig (Elt Ideal)) :
    StableHlo.after (hostOps3_2 (F := Ideal)) Win (Proc.devRef .tc main_v42) = rev (Win (Proc.devRef .tc main_v35)) := by
  after_results
  rfl

/-- Layer 3: the parameter buffers pass through untouched, and region 3 leaves the layer's map of the entering edge state. -/
theorem step3 (c : Dev nD) (e : FVec Ideal S200000x200 .f32) (hP : Params m c (W12 m ρ c))
    (he : W12 m ρ c (Proc.devRef .tc main_v35) = e) :
    Params m c (W16 m ρ c) ∧ W16 m ρ c (Proc.devRef .tc main_v43) = layerOf m c e := by
  -- a buffer that none of the three stretches writes enters the region holding what it held at the start
  have keep : ∀ r : Ref sig .tc, r ∉ wrA3 → r ∉ wrB3 → r ∉ wrC3 →
      V15 m ρ c r = W12 m ρ c (Proc.devRef .tc r) := fun r hA hB hC =>
    (keepC3 (W14 m ρ c) r hC).trans ((keepB3 (W13 m ρ c) r hB).trans (keepA3 (W12 m ρ c) r hA))
  -- the region leaves an array it only reads, and a buffer that is none of its arrays, as it found it
  have win : ∀ w : Fin cfg3.W, (cfg3.win w).isOut = false →
      W16 m ρ c (Proc.devRef .tc (Pipeline.arrRef spec3 w)) = V15 m ρ c (Pipeline.arrRef spec3 w) := fun w hw =>
    (W16_arr m ρ c w).trans (((dat3 (V15 m ρ) c).arrAt_in w hw _).trans (A_eq3 (V15 m ρ) c w))
  refine ⟨⟨(W16_of_ne m ρ c main_v1 (by decide)).trans ((keep main_v1 (by decide) (by decide) (by decide)).trans hP.row),
    (W16_of_ne m ρ c main_v3 (by decide)).trans ((keep main_v3 (by decide) (by decide) (by decide)).trans hP.col),
    (win 2 rfl).trans ((keep main_v16 (by decide) (by decide) (by decide)).trans hP.w),
    (win 3 rfl).trans ((keep main_v17 (by decide) (by decide) (by decide)).trans hP.b),
    (win 4 rfl).trans ((keep main_v18 (by decide) (by decide) (by decide)).trans hP.s),
    (win 5 rfl).trans ((keep main_v19 (by decide) (by decide) (by decide)).trans hP.t)⟩, ?_⟩
  -- the node sums, fetched at the sources
  have hrow : W13 m ρ c (Proc.devRef .tc main_v1) = rowOf (m ((c.tc : Thread nD τ).loc main_arg2)) :=
    (keepA3 (W12 m ρ c) main_v1 (by decide)).trans hP.row
  have hagg : W13 m ρ c (Proc.devRef .tc main_v38) = agg (colOf (m ((c.tc : Thread nD τ).loc main_arg2))) e := by
    refine (aggOf3 (W12 m ρ c)).trans ?_
    rw [hP.col, he]
  have hfill : V15 m ρ c main_v39
      = fill200 (agg (colOf (m ((c.tc : Thread nD τ).loc main_arg2))) e) (rowOf (m ((c.tc : Thread nD τ).loc main_arg2))) := by
    refine (keepC3 (W14 m ρ c) main_v39 (by decide)).trans ((fillOf3 (W13 m ρ c)).trans ?_)
    rw [hagg, hrow]
  -- the reversed edge state
  have hin : W14 m ρ c (Proc.devRef .tc main_v35) = e :=
    (keepB3 (W13 m ρ c) main_v35 (by decide)).trans ((keepA3 (W12 m ρ c) main_v35 (by decide)).trans he)
  have hrev : V15 m ρ c main_v42 = rev e := by
    refine (revOf3 (W14 m ρ c)).trans ?_
    rw [hin]
  -- the region's output is the layer's entry formula at these six arrays
  refine (W16_arr m ρ c 6).trans ((final3 (V15 m ρ) c).trans ?_)
  unfold layerOf kLayer
  rw [hfill, hrev, (keep main_v16 (by decide) (by decide) (by decide)).trans hP.w,
    (keep main_v17 (by decide) (by decide) (by decide)).trans hP.b,
    (keep main_v18 (by decide) (by decide) (by decide)).trans hP.s,
    (keep main_v19 (by decide) (by decide) (by decide)).trans hP.t]

/-! ### Layer 4: the three host stretches before region 4, from any contents -/

/-- The buffers the scatter-add stretch of layer 4 writes. -/
abbrev wrA4 : List (Ref sig .tc) := [main_cst_3, main_v44, main_v45, main_v46]
/-- The buffers the row-fetch stretch of layer 4 writes. -/
abbrev wrB4 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v47]
/-- The buffers the pair-reversal stretch of layer 4 writes. -/
abbrev wrC4 : List (Ref sig .tc) := [main_v48, main_v49, main_v50]

theorem keepA4 (Win : Valuation τ sig (Elt Ideal)) (r : Ref sig .tc) (hr : r ∉ wrA4) :
    StableHlo.after (hostOps4 (F := Ideal)) Win (Proc.devRef .tc r) = Win (Proc.devRef .tc r) :=
  StableHlo.after_of_writes_sub _ Win (by writes_listed) hr
theorem keepB4 (Win : Valuation τ sig (Elt Ideal)) (r : Ref sig .tc) (hr : r ∉ wrB4) :
    StableHlo.after (hostOps4_1 (F := Ideal)) Win (Proc.devRef .tc r) = Win (Proc.devRef .tc r) :=
  StableHlo.after_of_writes_sub _ Win (by writes_listed) hr
theorem keepC4 (Win : Valuation τ sig (Elt Ideal)) (r : Ref sig .tc) (hr : r ∉ wrC4) :
    StableHlo.after (hostOps4_2 (F := Ideal)) Win (Proc.devRef .tc r) = Win (Proc.devRef .tc r) :=
  StableHlo.after_of_writes_sub _ Win (by writes_listed) hr

/-- The first stretch leaves the node sums of the edge state: the scatter-add along the targets. -/
theorem aggOf4 (Win : Valuation τ sig (Elt Ideal)) :
    StableHlo.after (hostOps4 (F := Ideal)) Win (Proc.devRef .tc main_v46)
      = agg (Win (Proc.devRef .tc main_v3)) (Win (Proc.devRef .tc main_v43)) := by
  unfold agg
  after_results

/-- The second stretch leaves the node sums fetched at the sources, a row outside the array filled with the junk value. -/
theorem fillOf4 (Win : Valuation τ sig (Elt Ideal)) :
    StableHlo.after (hostOps4_1 (F := Ideal)) Win (Proc.devRef .tc main_v47)
      = fill200 (Win (Proc.devRef .tc main_v46)) (Win (Proc.devRef .tc main_v1)) := by
  after_results_simp
  simp only [TRef.ofBuf, TRef.toBuf, cast_eq]
  rfl

/-- The third stretch leaves the edge state with the two edges of every pair swapped. -/
theorem revOf4 (Win : Valuation τ sig (Elt Ideal)) :
    StableHlo.after (hostOps4_2 (F := Ideal)) Win (Proc.devRef .tc main_v50) = rev (Win (Proc.devRef .tc main_v43)) := by
  after_results
  rfl

/-- Layer 4: the parameter buffers pass through untouched, and region 4 leaves the layer's map of the entering edge state. -/
theorem step4 (c : Dev nD) (e : FVec Ideal S200000x200 .f32) (hP : Params m c (W16 m ρ c))
    (he : W16 m ρ c (Proc.devRef .tc main_v43) = e) :
    Params m c (W20 m ρ c) ∧ W20 m ρ c (Proc.devRef .tc main_v51) = layerOf m c e := by
  -- a buffer that none of the three stretches writes enters the region holding what it held at the start
  have keep : ∀ r : Ref sig .tc, r ∉ wrA4 → r ∉ wrB4 → r ∉ wrC4 →
      V19 m ρ c r = W16 m ρ c (Proc.devRef .tc r) := fun r hA hB hC =>
    (keepC4 (W18 m ρ c) r hC).trans ((keepB4 (W17 m ρ c) r hB).trans (keepA4 (W16 m ρ c) r hA))
  -- the region leaves an array it only reads, and a buffer that is none of its arrays, as it found it
  have win : ∀ w : Fin cfg4.W, (cfg4.win w).isOut = false →
      W20 m ρ c (Proc.devRef .tc (Pipeline.arrRef spec4 w)) = V19 m ρ c (Pipeline.arrRef spec4 w) := fun w hw =>
    (W20_arr m ρ c w).trans (((dat4 (V19 m ρ) c).arrAt_in w hw _).trans (A_eq4 (V19 m ρ) c w))
  refine ⟨⟨(W20_of_ne m ρ c main_v1 (by decide)).trans ((keep main_v1 (by decide) (by decide) (by decide)).trans hP.row),
    (W20_of_ne m ρ c main_v3 (by decide)).trans ((keep main_v3 (by decide) (by decide) (by decide)).trans hP.col),
    (win 2 rfl).trans ((keep main_v16 (by decide) (by decide) (by decide)).trans hP.w),
    (win 3 rfl).trans ((keep main_v17 (by decide) (by decide) (by decide)).trans hP.b),
    (win 4 rfl).trans ((keep main_v18 (by decide) (by decide) (by decide)).trans hP.s),
    (win 5 rfl).trans ((keep main_v19 (by decide) (by decide) (by decide)).trans hP.t)⟩, ?_⟩
  -- the node sums, fetched at the sources
  have hrow : W17 m ρ c (Proc.devRef .tc main_v1) = rowOf (m ((c.tc : Thread nD τ).loc main_arg2)) :=
    (keepA4 (W16 m ρ c) main_v1 (by decide)).trans hP.row
  have hagg : W17 m ρ c (Proc.devRef .tc main_v46) = agg (colOf (m ((c.tc : Thread nD τ).loc main_arg2))) e := by
    refine (aggOf4 (W16 m ρ c)).trans ?_
    rw [hP.col, he]
  have hfill : V19 m ρ c main_v47
      = fill200 (agg (colOf (m ((c.tc : Thread nD τ).loc main_arg2))) e) (rowOf (m ((c.tc : Thread nD τ).loc main_arg2))) := by
    refine (keepC4 (W18 m ρ c) main_v47 (by decide)).trans ((fillOf4 (W17 m ρ c)).trans ?_)
    rw [hagg, hrow]
  -- the reversed edge state
  have hin : W18 m ρ c (Proc.devRef .tc main_v43) = e :=
    (keepB4 (W17 m ρ c) main_v43 (by decide)).trans ((keepA4 (W16 m ρ c) main_v43 (by decide)).trans he)
  have hrev : V19 m ρ c main_v50 = rev e := by
    refine (revOf4 (W18 m ρ c)).trans ?_
    rw [hin]
  -- the region's output is the layer's entry formula at these six arrays
  refine (W20_arr m ρ c 6).trans ((final4 (V19 m ρ) c).trans ?_)
  unfold layerOf kLayer
  rw [hfill, hrev, (keep main_v16 (by decide) (by decide) (by decide)).trans hP.w,
    (keep main_v17 (by decide) (by decide) (by decide)).trans hP.b,
    (keep main_v18 (by decide) (by decide) (by decide)).trans hP.s,
    (keep main_v19 (by decide) (by decide) (by decide)).trans hP.t]

end Cert.KVal
end
-- ==== Proof.KFfn.lean ====
import proofs.«420250_j79482664779988_1_alg».proof.Proof.Gen.KernelIdeal.Frame
import proofs.«420250_j79482664779988_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The block product at an entry -/

/-- The product's left operand index at output (r, c) and contraction k is (r, k): its row is the output's row. -/
theorem ffn_lhs_0 (i : S5000x200.Idx) (q : dot_S5000x200_S200x200_S5000x200_1_0_0_1_n_n.contr.Idx) :
    (dot_S5000x200_S200x200_S5000x200_1_0_0_1_n_n.lhsIdx i q 0).val = (i 0).val := by
  unfold DotDims.lhsIdx
  rw [dif_neg (show ¬(0 : Fin S5000x200.rank) ∈ dot_S5000x200_S200x200_S5000x200_1_0_0_1_n_n.lhsBatch by decide), dif_pos (show (0 : Fin S5000x200.rank) ∈ dot_S5000x200_S200x200_S5000x200_1_0_0_1_n_n.lhsNonContracting by decide)]
  rfl
/-- Its column is the contraction index. -/
theorem ffn_lhs_1 (i : S5000x200.Idx) (q : dot_S5000x200_S200x200_S5000x200_1_0_0_1_n_n.contr.Idx) :
    (dot_S5000x200_S200x200_S5000x200_1_0_0_1_n_n.lhsIdx i q 1).val = (q ⟨0, by decide⟩).val :=
  dot_S5000x200_S200x200_S5000x200_1_0_0_1_n_n.lhsIdx_val_of_single rfl i q
/-- The right operand index is (k, c): its row is the contraction index. -/
theorem ffn_rhs_0 (i : S5000x200.Idx) (q : dot_S5000x200_S200x200_S5000x200_1_0_0_1_n_n.contr.Idx) :
    (dot_S5000x200_S200x200_S5000x200_1_0_0_1_n_n.rhsIdx i q 0).val = (q ⟨0, by decide⟩).val :=
  dot_S5000x200_S200x200_S5000x200_1_0_0_1_n_n.rhsIdx_val_of_single rfl i q
/-- Its column is the output's column. -/
theorem ffn_rhs_1 (i : S5000x200.Idx) (q : dot_S5000x200_S200x200_S5000x200_1_0_0_1_n_n.contr.Idx) :
    (dot_S5000x200_S200x200_S5000x200_1_0_0_1_n_n.rhsIdx i q 1).val = (i 1).val := by
  unfold DotDims.rhsIdx
  rw [dif_neg (show ¬(1 : Fin S200x200.rank) ∈ dot_S5000x200_S200x200_S5000x200_1_0_0_1_n_n.rhsBatch by decide), dif_pos (show (1 : Fin S200x200.rank) ∈ dot_S5000x200_S200x200_S5000x200_1_0_0_1_n_n.rhsNonContracting by decide)]
  rfl

/-- Entry (p, q) of a block product accumulated into the zero block: Σ_f x0(p, f) · x1(f, q). -/
theorem ffn_pay_apply (x0 : FVec Ideal S5000x200 .f32) (x1 : FVec Ideal S200x200 .f32) (p : Fin 5000) (q : Fin 200) :
    k5_pay1 (F := Ideal) x0 x1 (ix2 p q) = ∑ f : Fin 200, x0 (ix2 p f) * x1 (ix2 f q) := by
  unfold k5_pay1
  rw [shapeCast_self, shapeCast_self]
  simp only [matmul]
  rw [Ideal.matmul_constant_zero_apply, ← Equiv.sum_comp (ValueIdx.contrEquiv1 dot_S5000x200_S200x200_S5000x200_1_0_0_1_n_n 200 rfl rfl).symm]
  refine Finset.sum_congr rfl fun k _ => ?_
  have hk := ValueIdx.contrEquiv1_symm_val dot_S5000x200_S200x200_S5000x200_1_0_0_1_n_n 200 rfl rfl k
  have el : dot_S5000x200_S200x200_S5000x200_1_0_0_1_n_n.lhsIdx (ix2 p q) ((ValueIdx.contrEquiv1 dot_S5000x200_S200x200_S5000x200_1_0_0_1_n_n 200 rfl rfl).symm k) = ix2 p k := funext fun a => Fin.ext (by
    match a with
    | ⟨0, _⟩ => exact ffn_lhs_0 _ _
    | ⟨1, _⟩ => exact (ffn_lhs_1 _ _).trans hk)
  have er : dot_S5000x200_S200x200_S5000x200_1_0_0_1_n_n.rhsIdx (ix2 p q) ((ValueIdx.contrEquiv1 dot_S5000x200_S200x200_S5000x200_1_0_0_1_n_n 200 rfl rfl).symm k) = ix2 k q := funext fun a => Fin.ext (by
    match a with
    | ⟨0, _⟩ => exact (ffn_rhs_0 _ _).trans hk
    | ⟨1, _⟩ => exact ffn_rhs_1 _ _)
  rw [el, er]

/-- A block product whose left block holds rows of h starting at row n - p and whose right block is w: its entry (p, q)
    is entry (n, r) of the nodes' linear map, r the column q stands for. -/
theorem ffn_point (h : FVec Ideal S50000x200 .f32) (w : FVec Ideal S200x200 .f32) (x0 : FVec Ideal S5000x200 .f32)
    (x1 : FVec Ideal S200x200 .f32) (n : Fin 50000) (r : Fin 200) (p : Fin 5000) (q : Fin 200)
    (h0 : ∀ f : Fin 200, x0 (ix2 p f) = h (ix2 n f)) (h1 : ∀ f : Fin 200, x1 (ix2 f q) = w (ix2 f r)) :
    k5_pay1 (F := Ideal) x0 x1 (ix2 p q) = Cert.Spec.ffnAt h w n r := by
  rw [ffn_pay_apply]
  unfold Cert.Spec.ffnAt
  exact Finset.sum_congr rfl fun f _ => by rw [h0 f, h1 f]

/-! ## From the blocks to the array -/

variable [Cert.ReferenceIdeal.Facts]
variable (V : (c : Dev nD) → (b : Ref sig .tc) → Buf (Elt Ideal) ((c : Thread nD τ).loc b))

theorem ffn_hz : (![0, 0] : Fin 2 → Nat) = fun _ => 0 := funext fun a => by fin_cases a <;> rfl

/-- The index maps over the grid: the node block and the output block sit at block row t, the weight at block (0, 0). -/
theorem ffn_idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point t writes back is block t of the nodes' linear map of the arrays the region finds. -/
theorem ffn_flushed (c : Dev nD) (t : Fin cfg5.N) :
    (dat5 (F := Ideal) V c).flushed 2 t
      = ((cfg5.win 2).blk t).view.read (Elt Ideal) (Cert.Spec.ffnE (V c main_v54) (V c main_v55)) := by
  show (cfg5.win 2).cut (grid5.coords t) ((dat5 (F := Ideal) V c).after 2 t) = _
  rw [after5_2]
  unfold out5_2
  rw [View.canon_unit_zero ffn_hz]
  simp only [View.ld_unit_zero (S := S5000x200) ffn_hz, View.ld_unit_zero (S := S200x200) ffn_hz]
  obtain ⟨e0, e1, e2, e3, e4, e5⟩ := ffn_idx_facts t
  funext j
  obtain ⟨p, q, rfl⟩ : ∃ (p : Fin 5000) (q : Fin 200), j = ix2 p q := ⟨j 0, j 1, eq_ix2 j⟩
  show k5_pay1 (F := Ideal) (iblk5 V c 0 t) (iblk5 V c 1 t) (ix2 p q)
    = Cert.Spec.ffnAt (V c main_v54) (V c main_v55) ((((cfg5.win 2).blk t).view.emb (ix2 p q)) 0) ((((cfg5.win 2).blk t).view.emb (ix2 p q)) 1)
  refine ffn_point (V c main_v54) (V c main_v55) (iblk5 V c 0 t) (iblk5 V c 1 t) _ _ p q (fun f => ?_) (fun f => ?_)
  · show V c main_v54 (((cfg5.win 0).blk t).view.emb (ix2 p f)) = V c main_v54 (ix2 ((((cfg5.win 2).blk t).view.emb (ix2 p q)) 0) f)
    refine congrArg (V c main_v54) (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 200 + 1 * f.val = f.val; omega
  · show V c main_v55 (((cfg5.win 1).blk t).view.emb (ix2 f q)) = V c main_v55 (ix2 f ((((cfg5.win 2).blk t).view.emb (ix2 p q)) 1))
    refine congrArg (V c main_v55) (funext fun a => Fin.ext ?_)
    match a with
    | ⟨0, _⟩ => show win5_1.index t (0 : Fin 2) * 200 + 1 * f.val = f.val; omega
    | ⟨1, _⟩ => show win5_1.index t (1 : Fin 2) * 200 + 1 * q.val = win5_2.index t (1 : Fin 2) * 200 + 1 * q.val; omega

/-- An index of the array is in point t's block iff each coordinate is in the block's range on its axis. -/
theorem ffn_mem_blk (t : Fin cfg5.N) (i : S50000x200.Idx) :
    i ∈ ((cfg5.win 2).blk t).view.set ↔ ∀ a : Fin 2, win5_2.index t a * S5000x200.size a ≤ (i a).val ∧ (i a).val < win5_2.index t a * S5000x200.size a + S5000x200.size a := by
  show i ∈ ((View.whole main_v56).slice (win5_2.rect t)).set ↔ _
  rw [View.set_slice_whole, Rect.mem_set_unit]
  exact Iff.rfl

/-- Row r of the array lies in the block of point r / 5000. -/
theorem ffn_cover (i : S50000x200.Idx) :
    ∃ t : Fin cfg5.N, (cfg5.win 2).flush t = true ∧ i ∈ ((cfg5.win 2).blk t).view.set := by
  have hN : cfg5.N = 10 := N_5
  have hi0 : (i 0).val < 50000 := (i 0).isLt
  have hi1 : (i 1).val < 200 := (i 1).isLt
  refine ⟨⟨(i 0).val / 5000, by rw [hN]; omega⟩, flush5_2 _, ?_⟩
  obtain ⟨-, -, -, -, e4, e5⟩ := ffn_idx_facts ⟨(i 0).val / 5000, by rw [hN]; omega⟩
  rw [ffn_mem_blk]
  intro a
  match a with
  | ⟨0, _⟩ => show win5_2.index _ (0 : Fin 2) * 5000 ≤ (i 0).val ∧ (i 0).val < win5_2.index _ (0 : Fin 2) * 5000 + 5000; rw [e4]; show (i 0).val / 5000 * 5000 ≤ (i 0).val ∧ (i 0).val < (i 0).val / 5000 * 5000 + 5000; omega
  | ⟨1, _⟩ => show win5_2.index _ (1 : Fin 2) * 200 ≤ (i 1).val ∧ (i 1).val < win5_2.index _ (1 : Fin 2) * 200 + 200; rw [e5]; omega

/-- The array the last region leaves: the nodes' linear map as one function of the arrays the region finds. -/
theorem final5 (c : Dev nD) :
    (dat5 (F := Ideal) V c).arrAt 2 cfg5.N = Cert.Spec.ffnE (V c main_v54) (V c main_v55) :=
  (dat5 (F := Ideal) V c).arrAt_eq_of_cover 2 (Cert.Spec.ffnE (V c main_v54) (V c main_v55))
    (fun t _ => ffn_flushed V c t) ffn_cover

end Cert.KVal
end
-- ==== Proof.KChainC.lean ====
import proofs.«420250_j79482664779988_1_alg».proof.Proof.Gen.KernelIdeal.Frame
import proofs.«420250_j79482664779988_1_alg».proof.Proof.Spec
import proofs.«420250_j79482664779988_1_alg».proof.Proof.KState
import proofs.«420250_j79482664779988_1_alg».proof.Proof.KFfn
import Idealize.ShloMosaic.Lib.StableHlo.Run
set_option maxRecDepth 16384

noncomputable section

namespace Cert.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Idealize.ShloMosaic.StableHlo
open Cert.KernelIdeal.Facts₀

variable [Cert.ReferenceIdeal.Facts]
open Cert.Spec

/-! ## The two host stretches around the last region, at any entering contents -/

/-- Before the last region the node sums are the edge state summed into its target nodes. -/
theorem tail_sums (Win : Valuation τ sig (Elt Ideal)) :
    StableHlo.after (hostOps5 (F := Ideal)) Win (Proc.devRef .tc main_v54)
      = agg (Win (Proc.devRef .tc main_v3)) (Win (Proc.devRef .tc main_v51)) := by
  unfold Cert.Spec.agg
  after_results

/-- Before the last region the weight's buffer is the last weight transposed. -/
theorem tail_weight (Win : Valuation τ sig (Elt Ideal)) :
    StableHlo.after (hostOps5 (F := Ideal)) Win (Proc.devRef .tc main_v55)
      = tr200 (Win (Proc.devRef .tc main_arg11)) := by
  unfold Cert.Spec.tr200
  after_results

/-- That stretch leaves the last weight's argument as it was. -/
theorem tail_keep5_arg11 (Win : Valuation τ sig (Elt Ideal)) :
    StableHlo.after (hostOps5 (F := Ideal)) Win (Proc.devRef .tc main_arg11) = Win (Proc.devRef .tc main_arg11) := by
  after_results

/-- After the last region the result is the per-graph mean of the nodes' outputs. -/
theorem tail_pool (Win : Valuation τ sig (Elt Ideal)) :
    StableHlo.after (hostOps6 (F := Ideal)) Win (Proc.devRef .tc main_v68)
      = pool (Win (Proc.devRef .tc main_v56)) (Win (Proc.devRef .tc main_arg3)) := by
  unfold Cert.Spec.pool
  after_results

/-- The closing stretch leaves the graph indices' argument as it was. -/
theorem tail_keep6_arg3 (Win : Valuation τ sig (Elt Ideal)) :
    StableHlo.after (hostOps6 (F := Ideal)) Win (Proc.devRef .tc main_arg3) = Win (Proc.devRef .tc main_arg3) := by
  after_results

/-- The closing stretch leaves the last weight's argument as it was. -/
theorem tail_keep6_arg11 (Win : Valuation τ sig (Elt Ideal)) :
    StableHlo.after (hostOps6 (F := Ideal)) Win (Proc.devRef .tc main_arg11) = Win (Proc.devRef .tc main_arg11) := by
  after_results

variable (m : (ℓ : Loc nD τ sig) → Buf (Elt Ideal) ℓ) (ρ : Dev nD → PrngReg)

/-- The graph indices at the last region's exit are the argument's. -/
theorem tail_arg3 (c : Dev nD) :
    W22 m ρ c (Proc.devRef .tc main_arg3) = m ((c.tc : Thread nD τ).loc main_arg3) :=
  (tail_keep6_arg3 (W22 m ρ c)).symm.trans (W23_main_arg3 m ρ c)

/-- The last weight before the closing stretches is the argument's. -/
theorem tail_arg11 (c : Dev nD) :
    W20 m ρ c (Proc.devRef .tc main_arg11) = m ((c.tc : Thread nD τ).loc main_arg11) :=
  calc W20 m ρ c (Proc.devRef .tc main_arg11)
    _ = W21 m ρ c (Proc.devRef .tc main_arg11) := (tail_keep5_arg11 (W20 m ρ c)).symm
    _ = W22 m ρ c (Proc.devRef .tc main_arg11) := (W22_of_ne m ρ c main_arg11 (by decide)).symm
    _ = W23 m ρ c (Proc.devRef .tc main_arg11) := (tail_keep6_arg11 (W22 m ρ c)).symm
    _ = m ((c.tc : Thread nD τ).loc main_arg11) := W23_main_arg11 m ρ c

theorem tailK (c : Dev nD) (e : FVec Ideal S200000x200 .f32) (hP : Params m c (W20 m ρ c))
    (he : W20 m ρ c (Proc.devRef .tc main_v51) = e) :
    W23 m ρ c (Proc.devRef .tc main_v68)
      = pool (ffnE (agg (colOf (m ((c.tc : Thread nD τ).loc main_arg2))) e) (tr200 (m ((c.tc : Thread nD τ).loc main_arg11))))
          (m ((c.tc : Thread nD τ).loc main_arg3)) := by
  have h54 : V21 m ρ c main_v54 = agg (colOf (m ((c.tc : Thread nD τ).loc main_arg2))) e := by
    show StableHlo.after (hostOps5 (F := Ideal)) (W20 m ρ c) (Proc.devRef .tc main_v54) = _
    rw [tail_sums, hP.col, he]
  have h55 : V21 m ρ c main_v55 = tr200 (m ((c.tc : Thread nD τ).loc main_arg11)) := by
    show StableHlo.after (hostOps5 (F := Ideal)) (W20 m ρ c) (Proc.devRef .tc main_v55) = _
    rw [tail_weight, tail_arg11]
  have h56 : W22 m ρ c (Proc.devRef .tc main_v56)
      = ffnE (agg (colOf (m ((c.tc : Thread nD τ).loc main_arg2))) e) (tr200 (m ((c.tc : Thread nD τ).loc main_arg11))) := by
    refine (W22_arr m ρ c 2).trans ?_
    rw [final5 (V21 m ρ) c, h54, h55]
  show StableHlo.after (hostOps6 (F := Ideal)) (W22 m ρ c) (Proc.devRef .tc main_v68) = _
  rw [tail_pool, h56, tail_arg3]

end Cert.KVal
end
-- ==== Proof.KValue.lean ====
import proofs.«420250_j79482664779988_1_alg».proof.Proof.Gen.KernelIdeal.Frame
import proofs.«420250_j79482664779988_1_alg».proof.Proof.Spec
import proofs.«420250_j79482664779988_1_alg».proof.Proof.KChainA
import proofs.«420250_j79482664779988_1_alg».proof.Proof.KChainB
import proofs.«420250_j79482664779988_1_alg».proof.Proof.KChainC
set_option maxRecDepth 16384

noncomputable section

namespace Cert.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable [Cert.ReferenceIdeal.Facts]
open Cert.Spec

variable (m : (ℓ : Loc nD τ sig) → Buf (Elt Ideal) ℓ) (ρ : Dev nD → PrngReg)

/-- The last boundary's contents at the result buffer are the kernel's function of the arguments. -/
theorem W23_result (c : Dev nD) :
    W23 m ρ c (Proc.devRef .tc main_v68) = kRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨hP1, he1⟩ := upto1 m ρ c
  obtain ⟨hP2, he2⟩ := step2 m ρ c _ hP1 he1
  obtain ⟨hP3, he3⟩ := step3 m ρ c _ hP2 he2
  obtain ⟨hP4, he4⟩ := step4 m ρ c _ hP3 he3
  exact tailK m ρ c _ hP4 he4

end Cert.KVal
end
-- ==== Proof.KRunValue.lean ====
import proofs.«420250_j79482664779988_1_alg».proof.Proof.Gen.KernelIdeal.Frame
import proofs.«420250_j79482664779988_1_alg».proof.Proof.Spec
import proofs.«420250_j79482664779988_1_alg».proof.Proof.KRun
import proofs.«420250_j79482664779988_1_alg».proof.Proof.KValue
set_option maxRecDepth 16384

noncomputable section

namespace Cert.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable [Cert.ReferenceIdeal.Facts]
open Cert.Spec

variable (m : (ℓ : Loc nD τ sig) → Buf (Elt Ideal) ℓ) (ρ : Dev nD → PrngReg)

/-- The kernel's program runs, and its result buffer ends at the kernel's function of the arguments. -/
theorem run_value : θ_run (defs (F := Ideal)) (onTc (τ := τ) (main (F := Ideal))) ⟨m, fun _ => 0, ρ⟩ (fun r => ∀ c : Dev nD,
      r.2.mem ((c.tc : Thread nD τ).loc main_v68) = kRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run _ _ _).mono (fun r h c => ⟨(h c).1.trans (W23_result m ρ c), (h c).2⟩) (Cert.KernelIdeal.GenP.run_all m ρ)

end Cert.KVal
end
-- ==== Proof.ROps.lean ====
import proofs.«420250_j79482664779988_1_alg».proof.ReferenceIdeal
import Idealize.ShloMosaic.Lib.StableHlo.Run

noncomputable section

namespace Cert.RVal

open Cert.ReferenceIdeal Idealize.ShloMosaic Idealize.ShloMosaic.TcCoe Idealize.SL.Sem Idealize.ShloMosaic.StableHlo

open Cert.ReferenceIdeal.Facts₀

variable {F : FTy → Type} [FloatOps F] [Cert.ReferenceIdeal.Facts]

/-- Operations 1 to 23 of @main: the first edge state. -/
abbrev rops0 : List (HloOp τ sig (Elt F)) :=
  [ unary main_arg2 main_v0 ((extractStridedSlice S1x200000 ![0, 0] · slices_S2x200000_S1x200000_0_0) : (⟨S2x200000, .i32⟩ : BufTy).Contents (Elt F) → (⟨S1x200000, .i32⟩ : BufTy).Contents (Elt F)),
    reshape main_v0 main_v1 rfl shapeCasts_S1x200000_S200000,
    unary main_arg2 main_v2 ((extractStridedSlice S1x200000 ![1, 0] · slices_S2x200000_S1x200000_1_0) : (⟨S2x200000, .i32⟩ : BufTy).Contents (Elt F) → (⟨S1x200000, .i32⟩ : BufTy).Contents (Elt F)),
    reshape main_v2 main_v3 rfl shapeCasts_S1x200000_S200000,
    nullary main_c (constantI S_ 32 0#32),
    unary main_c main_v4 (broadcastInDim S200000 ![] bcast_S_S200000 : (⟨S_, .i32⟩ : BufTy).Contents (Elt F) → (⟨S200000, .i32⟩ : BufTy).Contents (Elt F)),
    binary main_v1 main_v4 main_v5 (cmpi .slt : (⟨S200000, .i32⟩ : BufTy).Contents (Elt F) → (⟨S200000, .i32⟩ : BufTy).Contents (Elt F) → (⟨S200000, .i1⟩ : BufTy).Contents (Elt F)),
    nullary main_c_0 (constantI S_ 32 50000#32),
    unary main_c_0 main_v6 (broadcastInDim S200000 ![] bcast_S_S200000 : (⟨S_, .i32⟩ : BufTy).Contents (Elt F) → (⟨S200000, .i32⟩ : BufTy).Contents (Elt F)),
    binary main_v1 main_v6 main_v7 (addi : (⟨S200000, .i32⟩ : BufTy).Contents (Elt F) → (⟨S200000, .i32⟩ : BufTy).Contents (Elt F) → (⟨S200000, .i32⟩ : BufTy).Contents (Elt F)),
    ternary main_v5 main_v7 main_v1 main_v8 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v8 main_v9 (broadcastInDim S200000x1 ![0] bcast_S200000_S200000x1_0 : (⟨S200000, .i32⟩ : BufTy).Contents (Elt F) → (⟨S200000x1, .i32⟩ : BufTy).Contents (Elt F)),
    binary main_arg0 main_v9 main_v10 ((fun x i => Host.gather gather_S50000x74_S200000x1_S200000x74_1_0_n_n_0_1_174 x i) : (⟨S50000x74, .f32⟩ : BufTy).Contents (Elt F) → (⟨S200000x1, .i32⟩ : BufTy).Contents (Elt F) → (⟨S200000x74, .f32⟩ : BufTy).Contents (Elt F)),
    binary main_v10 main_arg1 main_v11 ((fun a b => concatenate S200000x87 1 [⟨S200000x74, a⟩, ⟨S200000x13, b⟩] concatenates_S200000x74_S200000x13_S200000x87_d1) : (⟨S200000x74, .f32⟩ : BufTy).Contents (Elt F) → (⟨S200000x13, .f32⟩ : BufTy).Contents (Elt F) → (⟨S200000x87, .f32⟩ : BufTy).Contents (Elt F)),
    unary main_arg4 main_v12 ((transpose S87x200 [1, 0] · transposes_S200x87_S87x200_1_0) : (⟨S200x87, .f32⟩ : BufTy).Contents (Elt F) → (⟨S87x200, .f32⟩ : BufTy).Contents (Elt F)),
    binary main_v11 main_v12 main_v13 ((fun l r => Host.dotGeneral dot_S200000x87_S87x200_S200000x200_1_0_0_1_n_n none l r) : (⟨S200000x87, .f32⟩ : BufTy).Contents (Elt F) → (⟨S87x200, .f32⟩ : BufTy).Contents (Elt F) → (⟨S200000x200, .f32⟩ : BufTy).Contents (Elt F)),
    nullary main_cst (constant S_ .f32 0x00000000#32),
    unary main_cst main_v14 (broadcastInDim S200000x200 ![] bcast_S_S200000x200 : (⟨S_, .f32⟩ : BufTy).Contents (Elt F) → (⟨S200000x200, .f32⟩ : BufTy).Contents (Elt F)),
    binary main_v13 main_v14 main_v15 (cmpf .oge : (⟨S200000x200, .f32⟩ : BufTy).Contents (Elt F) → (⟨S200000x200, .f32⟩ : BufTy).Contents (Elt F) → (⟨S200000x200, .i1⟩ : BufTy).Contents (Elt F)),
    nullary main_cst_1 (constant S_ .f32 0x3C23D70A#32),
    unary main_cst_1 main_v16 (broadcastInDim S200000x200 ![] bcast_S_S200000x200 : (⟨S_, .f32⟩ : BufTy).Contents (Elt F) → (⟨S200000x200, .f32⟩ : BufTy).Contents (Elt F)),
    binary main_v16 main_v13 main_v17 (mulf : (⟨S200000x200, .f32⟩ : BufTy).Contents (Elt F) → (⟨S200000x200, .f32⟩ : BufTy).Contents (Elt F) → (⟨S200000x200, .f32⟩ : BufTy).Contents (Elt F)),
    TRef.ternary (TRef.of (T := ⟨S200000x200, .i1⟩) main_v15) (TRef.of (T := ⟨S200000x200, .f32⟩) main_v13) (TRef.of (T := ⟨S200000x200, .f32⟩) main_v17) (TRef.of (T := ⟨S200000x200, .f32⟩) main_v18) select ]

/-- Operations 24 to 70 of @main: layer 1. -/
abbrev rops1 : List (HloOp τ sig (Elt F)) :=
  [ nullary main_cst_2 (constant S_ .f32 0x00000000#32),
    unary main_cst_2 main_v19 (broadcastInDim S50000x200 ![] bcast_S_S50000x200 : (⟨S_, .f32⟩ : BufTy).Contents (Elt F) → (⟨S50000x200, .f32⟩ : BufTy).Contents (Elt F)),
    unary main_v3 main_v20 (broadcastInDim S200000x1 ![0] bcast_S200000_S200000x1_0 : (⟨S200000, .i32⟩ : BufTy).Contents (Elt F) → (⟨S200000x1, .i32⟩ : BufTy).Contents (Elt F)),
    ternary main_v19 main_v20 main_v18 main_v21 ((fun x i u => Host.scatterAdd scatter_S50000x200_S200000x1_S200000x200_1_0_0_1 x i u) : (⟨S50000x200, .f32⟩ : BufTy).Contents (Elt F) → (⟨S200000x1, .i32⟩ : BufTy).Contents (Elt F) → (⟨S200000x200, .f32⟩ : BufTy).Contents (Elt F) → (⟨S50000x200, .f32⟩ : BufTy).Contents (Elt F)),
    reshape main_v18 main_v22 rfl shapeCasts_S200000x200_S100000x2x200,
    unary main_v22 main_v23 (Host.reverse [1] : (⟨S100000x2x200, .f32⟩ : BufTy).Contents (Elt F) → (⟨S100000x2x200, .f32⟩ : BufTy).Contents (Elt F)),
    reshape main_v23 main_v24 rfl shapeCasts_S100000x2x200_S200000x200,
    nullary main_c_3 (constantI S_ 32 0#32),
    unary main_c_3 main_v25 (broadcastInDim S200000 ![] bcast_S_S200000 : (⟨S_, .i32⟩ : BufTy).Contents (Elt F) → (⟨S200000, .i32⟩ : BufTy).Contents (Elt F)),
    binary main_v1 main_v25 main_v26 (cmpi .slt : (⟨S200000, .i32⟩ : BufTy).Contents (Elt F) → (⟨S200000, .i32⟩ : BufTy).Contents (Elt F) → (⟨S200000, .i1⟩ : BufTy).Contents (Elt F)),
    nullary main_c_4 (constantI S_ 32 50000#32),
    unary main_c_4 main_v27 (broadcastInDim S200000 ![] bcast_S_S200000 : (⟨S_, .i32⟩ : BufTy).Contents (Elt F) → (⟨S200000, .i32⟩ : BufTy).Contents (Elt F)),
    binary main_v1 main_v27 main_v28 (addi : (⟨S200000, .i32⟩ : BufTy).Contents (Elt F) → (⟨S200000, .i32⟩ : BufTy).Contents (Elt F) → (⟨S200000, .i32⟩ : BufTy).Contents (Elt F)),
    ternary main_v26 main_v28 main_v1 main_v29 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v29 main_v30 (broadcastInDim S200000x1 ![0] bcast_S200000_S200000x1_0 : (⟨S200000, .i32⟩ : BufTy).Contents (Elt F) → (⟨S200000x1, .i32⟩ : BufTy).Contents (Elt F)),
    binary main_v21 main_v30 main_v31 ((fun x i => Host.gather gather_S50000x200_S200000x1_S200000x200_1_0_n_n_0_1_1200 x i) : (⟨S50000x200, .f32⟩ : BufTy).Contents (Elt F) → (⟨S200000x1, .i32⟩ : BufTy).Contents (Elt F) → (⟨S200000x200, .f32⟩ : BufTy).Contents (Elt F)),
    binary main_v31 main_v24 main_v32 (subf : (⟨S200000x200, .f32⟩ : BufTy).Contents (Elt F) → (⟨S200000x200, .f32⟩ : BufTy).Contents (Elt F) → (⟨S200000x200, .f32⟩ : BufTy).Contents (Elt F)),
    unary main_arg5 main_v33 ((transpose S200x200 [1, 0] · transposes_S200x200_S200x200_1_0) : (⟨S200x200, .f32⟩ : BufTy).Contents (Elt F) → (⟨S200x200, .f32⟩ : BufTy).Contents (Elt F)),
    binary main_v32 main_v33 main_v34 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    unary main_arg6 main_v35 (broadcastInDim S1x200 ![1] bcast_S200_S1x200_1 : (⟨S200, .f32⟩ : BufTy).Contents (Elt F) → (⟨S1x200, .f32⟩ : BufTy).Contents (Elt F)),
    unary main_v35 main_v36 (broadcastInDim S200000x200 ![0, 1] bcast_S1x200_S200000x200_0_1 : (⟨S1x200, .f32⟩ : BufTy).Contents (Elt F) → (⟨S200000x200, .f32⟩ : BufTy).Contents (Elt F)),
    binary main_v34 main_v36 main_v37 (addf : (⟨S200000x200, .f32⟩ : BufTy).Contents (Elt F) → (⟨S200000x200, .f32⟩ : BufTy).Contents (Elt F) → (⟨S200000x200, .f32⟩ : BufTy).Contents (Elt F)),
    unary main_arg9 main_v38 (broadcastInDim S1x200 ![1] bcast_S200_S1x200_1 : (⟨S200, .f32⟩ : BufTy).Contents (Elt F) → (⟨S1x200, .f32⟩ : BufTy).Contents (Elt F)),
    unary main_v38 main_v39 (broadcastInDim S200000x200 ![0, 1] bcast_S1x200_S200000x200_0_1 : (⟨S1x200, .f32⟩ : BufTy).Contents (Elt F) → (⟨S200000x200, .f32⟩ : BufTy).Contents (Elt F)),
    binary main_v37 main_v39 main_v40 (subf : (⟨S200000x200, .f32⟩ : BufTy).Contents (Elt F) → (⟨S200000x200, .f32⟩ : BufTy).Contents (Elt F) → (⟨S200000x200, .f32⟩ : BufTy).Contents (Elt F)),
    nullary main_cst_5 (constant S_ .f32 0x3727C5AC#32),
    unary main_cst_5 main_v41 (broadcastInDim S200 ![] bcast_S_S200 : (⟨S_, .f32⟩ : BufTy).Contents (Elt F) → (⟨S200, .f32⟩ : BufTy).Contents (Elt F)),
    binary main_arg10 main_v41 main_v42 (addf : (⟨S200, .f32⟩ : BufTy).Contents (Elt F) → (⟨S200, .f32⟩ : BufTy).Contents (Elt F) → (⟨S200, .f32⟩ : BufTy).Contents (Elt F)),
    unary main_v42 main_v43 (Host.sqrt : (⟨S200, .f32⟩ : BufTy).Contents (Elt F) → (⟨S200, .f32⟩ : BufTy).Contents (Elt F)),
    binary main_arg7 main_v43 main_v44 (Host.divf : (⟨S200, .f32⟩ : BufTy).Contents (Elt F) → (⟨S200, .f32⟩ : BufTy).Contents (Elt F) → (⟨S200, .f32⟩ : BufTy).Contents (Elt F)),
    unary main_v44 main_v45 (broadcastInDim S1x200 ![1] bcast_S200_S1x200_1 : (⟨S200, .f32⟩ : BufTy).Contents (Elt F) → (⟨S1x200, .f32⟩ : BufTy).Contents (Elt F)),
    unary main_v45 main_v46 (broadcastInDim S200000x200 ![0, 1] bcast_S1x200_S200000x200_0_1 : (⟨S1x200, .f32⟩ : BufTy).Contents (Elt F) → (⟨S200000x200, .f32⟩ : BufTy).Contents (Elt F)),
    binary main_v40 main_v46 main_v47 (mulf : (⟨S200000x200, .f32⟩ : BufTy).Contents (Elt F) → (⟨S200000x200, .f32⟩ : BufTy).Contents (Elt F) → (⟨S200000x200, .f32⟩ : BufTy).Contents (Elt F)),
    unary main_arg8 main_v48 (broadcastInDim S1x200 ![1] bcast_S200_S1x200_1 : (⟨S200, .f32⟩ : BufTy).Contents (Elt F) → (⟨S1x200, .f32⟩ : BufTy).Contents (Elt F)),
    unary main_v48 main_v49 (broadcastInDim S200000x200 ![0, 1] bcast_S1x200_S200000x200_0_1 : (⟨S1x200, .f32⟩ : BufTy).Contents (Elt F) → (⟨S200000x200, .f32⟩ : BufTy).Contents (Elt F)),
    binary main_v47 main_v49 main_v50 (addf : (⟨S200000x200, .f32⟩ : BufTy).Contents (Elt F) → (⟨S200000x200, .f32⟩ : BufTy).Contents (Elt F) → (⟨S200000x200, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x200, .f32⟩) main_call1_v0) (broadcastInDim S200000x200 ![] bcast_S_S200000x200),
    TRef.binary (TRef.of (T := ⟨S200000x200, .f32⟩) main_v50) (TRef.of (T := ⟨S200000x200, .f32⟩) main_call1_v0) (TRef.of (T := ⟨S200000x200, .f32⟩) main_v51) maximumf,
    nullary main_cst_6 (constant S_ .f32 0x00000000#32),
    unary main_cst_6 main_v52 (broadcastInDim S200000x200 ![] bcast_S_S200000x200 : (⟨S_, .f32⟩ : BufTy).Contents (Elt F) → (⟨S200000x200, .f32⟩ : BufTy).Contents (Elt F)),
    binary main_v51 main_v52 main_v53 (cmpf .oge : (⟨S200000x200, .f32⟩ : BufTy).Contents (Elt F) → (⟨S200000x200, .f32⟩ : BufTy).Contents (Elt F) → (⟨S200000x200, .i1⟩ : BufTy).Contents (Elt F)),
    nullary main_cst_7 (constant S_ .f32 0x3C23D70A#32),
    unary main_cst_7 main_v54 (broadcastInDim S200000x200 ![] bcast_S_S200000x200 : (⟨S_, .f32⟩ : BufTy).Contents (Elt F) → (⟨S200000x200, .f32⟩ : BufTy).Contents (Elt F)),
    binary main_v54 main_v51 main_v55 (mulf : (⟨S200000x200, .f32⟩ : BufTy).Contents (Elt F) → (⟨S200000x200, .f32⟩ : BufTy).Contents (Elt F) → (⟨S200000x200, .f32⟩ : BufTy).Contents (Elt F)),
    TRef.ternary (TRef.of (T := ⟨S200000x200, .i1⟩) main_v53) (TRef.of (T := ⟨S200000x200, .f32⟩) main_v51) (TRef.of (T := ⟨S200000x200, .f32⟩) main_v55) (TRef.of (T := ⟨S200000x200, .f32⟩) main_v56) select,
    binary main_v56 main_v51 main_v57 (addf : (⟨S200000x200, .f32⟩ : BufTy).Contents (Elt F) → (⟨S200000x200, .f32⟩ : BufTy).Contents (Elt F) → (⟨S200000x200, .f32⟩ : BufTy).Contents (Elt F)) ]

/-- Operations 71 to 117 of @main: layer 2. -/
abbrev rops2 : List (HloOp τ sig (Elt F)) :=
  [ nullary main_cst_8 (constant S_ .f32 0x00000000#32),
    unary main_cst_8 main_v58 (broadcastInDim S50000x200 ![] bcast_S_S50000x200 : (⟨S_, .f32⟩ : BufTy).Contents (Elt F) → (⟨S50000x200, .f32⟩ : BufTy).Contents (Elt F)),
    unary main_v3 main_v59 (broadcastInDim S200000x1 ![0] bcast_S200000_S200000x1_0 : (⟨S200000, .i32⟩ : BufTy).Contents (Elt F) → (⟨S200000x1, .i32⟩ : BufTy).Contents (Elt F)),
    ternary main_v58 main_v59 main_v57 main_v60 ((fun x i u => Host.scatterAdd scatter_S50000x200_S200000x1_S200000x200_1_0_0_1 x i u) : (⟨S50000x200, .f32⟩ : BufTy).Contents (Elt F) → (⟨S200000x1, .i32⟩ : BufTy).Contents (Elt F) → (⟨S200000x200, .f32⟩ : BufTy).Contents (Elt F) → (⟨S50000x200, .f32⟩ : BufTy).Contents (Elt F)),
    reshape main_v57 main_v61 rfl shapeCasts_S200000x200_S100000x2x200,
    unary main_v61 main_v62 (Host.reverse [1] : (⟨S100000x2x200, .f32⟩ : BufTy).Contents (Elt F) → (⟨S100000x2x200, .f32⟩ : BufTy).Contents (Elt F)),
    reshape main_v62 main_v63 rfl shapeCasts_S100000x2x200_S200000x200,
    nullary main_c_9 (constantI S_ 32 0#32),
    unary main_c_9 main_v64 (broadcastInDim S200000 ![] bcast_S_S200000 : (⟨S_, .i32⟩ : BufTy).Contents (Elt F) → (⟨S200000, .i32⟩ : BufTy).Contents (Elt F)),
    binary main_v1 main_v64 main_v65 (cmpi .slt : (⟨S200000, .i32⟩ : BufTy).Contents (Elt F) → (⟨S200000, .i32⟩ : BufTy).Contents (Elt F) → (⟨S200000, .i1⟩ : BufTy).Contents (Elt F)),
    nullary main_c_10 (constantI S_ 32 50000#32),
    unary main_c_10 main_v66 (broadcastInDim S200000 ![] bcast_S_S200000 : (⟨S_, .i32⟩ : BufTy).Contents (Elt F) → (⟨S200000, .i32⟩ : BufTy).Contents (Elt F)),
    binary main_v1 main_v66 main_v67 (addi : (⟨S200000, .i32⟩ : BufTy).Contents (Elt F) → (⟨S200000, .i32⟩ : BufTy).Contents (Elt F) → (⟨S200000, .i32⟩ : BufTy).Contents (Elt F)),
    ternary main_v65 main_v67 main_v1 main_v68 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v68 main_v69 (broadcastInDim S200000x1 ![0] bcast_S200000_S200000x1_0 : (⟨S200000, .i32⟩ : BufTy).Contents (Elt F) → (⟨S200000x1, .i32⟩ : BufTy).Contents (Elt F)),
    binary main_v60 main_v69 main_v70 ((fun x i => Host.gather gather_S50000x200_S200000x1_S200000x200_1_0_n_n_0_1_1200 x i) : (⟨S50000x200, .f32⟩ : BufTy).Contents (Elt F) → (⟨S200000x1, .i32⟩ : BufTy).Contents (Elt F) → (⟨S200000x200, .f32⟩ : BufTy).Contents (Elt F)),
    binary main_v70 main_v63 main_v71 (subf : (⟨S200000x200, .f32⟩ : BufTy).Contents (Elt F) → (⟨S200000x200, .f32⟩ : BufTy).Contents (Elt F) → (⟨S200000x200, .f32⟩ : BufTy).Contents (Elt F)),
    unary main_arg5 main_v72 ((transpose S200x200 [1, 0] · transposes_S200x200_S200x200_1_0) : (⟨S200x200, .f32⟩ : BufTy).Contents (Elt F) → (⟨S200x200, .f32⟩ : BufTy).Contents (Elt F)),
    binary main_v71 main_v72 main_v73 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    unary main_arg6 main_v74 (broadcastInDim S1x200 ![1] bcast_S200_S1x200_1 : (⟨S200, .f32⟩ : BufTy).Contents (Elt F) → (⟨S1x200, .f32⟩ : BufTy).Contents (Elt F)),
    unary main_v74 main_v75 (broadcastInDim S200000x200 ![0, 1] bcast_S1x200_S200000x200_0_1 : (⟨S1x200, .f32⟩ : BufTy).Contents (Elt F) → (⟨S200000x200, .f32⟩ : BufTy).Contents (Elt F)),
    binary main_v73 main_v75 main_v76 (addf : (⟨S200000x200, .f32⟩ : BufTy).Contents (Elt F) → (⟨S200000x200, .f32⟩ : BufTy).Contents (Elt F) → (⟨S200000x200, .f32⟩ : BufTy).Contents (Elt F)),
    unary main_arg9 main_v77 (broadcastInDim S1x200 ![1] bcast_S200_S1x200_1 : (⟨S200, .f32⟩ : BufTy).Contents (Elt F) → (⟨S1x200, .f32⟩ : BufTy).Contents (Elt F)),
    unary main_v77 main_v78 (broadcastInDim S200000x200 ![0, 1] bcast_S1x200_S200000x200_0_1 : (⟨S1x200, .f32⟩ : BufTy).Contents (Elt F) → (⟨S200000x200, .f32⟩ : BufTy).Contents (Elt F)),
    binary main_v76 main_v78 main_v79 (subf : (⟨S200000x200, .f32⟩ : BufTy).Contents (Elt F) → (⟨S200000x200, .f32⟩ : BufTy).Contents (Elt F) → (⟨S200000x200, .f32⟩ : BufTy).Contents (Elt F)),
    nullary main_cst_11 (constant S_ .f32 0x3727C5AC#32),
    unary main_cst_11 main_v80 (broadcastInDim S200 ![] bcast_S_S200 : (⟨S_, .f32⟩ : BufTy).Contents (Elt F) → (⟨S200, .f32⟩ : BufTy).Contents (Elt F)),
    binary main_arg10 main_v80 main_v81 (addf : (⟨S200, .f32⟩ : BufTy).Contents (Elt F) → (⟨S200, .f32⟩ : BufTy).Contents (Elt F) → (⟨S200, .f32⟩ : BufTy).Contents (Elt F)),
    unary main_v81 main_v82 (Host.sqrt : (⟨S200, .f32⟩ : BufTy).Contents (Elt F) → (⟨S200, .f32⟩ : BufTy).Contents (Elt F)),
    binary main_arg7 main_v82 main_v83 (Host.divf : (⟨S200, .f32⟩ : BufTy).Contents (Elt F) → (⟨S200, .f32⟩ : BufTy).Contents (Elt F) → (⟨S200, .f32⟩ : BufTy).Contents (Elt F)),
    unary main_v83 main_v84 (broadcastInDim S1x200 ![1] bcast_S200_S1x200_1 : (⟨S200, .f32⟩ : BufTy).Contents (Elt F) → (⟨S1x200, .f32⟩ : BufTy).Contents (Elt F)),
    unary main_v84 main_v85 (broadcastInDim S200000x200 ![0, 1] bcast_S1x200_S200000x200_0_1 : (⟨S1x200, .f32⟩ : BufTy).Contents (Elt F) → (⟨S200000x200, .f32⟩ : BufTy).Contents (Elt F)),
    binary main_v79 main_v85 main_v86 (mulf : (⟨S200000x200, .f32⟩ : BufTy).Contents (Elt F) → (⟨S200000x200, .f32⟩ : BufTy).Contents (Elt F) → (⟨S200000x200, .f32⟩ : BufTy).Contents (Elt F)),
    unary main_arg8 main_v87 (broadcastInDim S1x200 ![1] bcast_S200_S1x200_1 : (⟨S200, .f32⟩ : BufTy).Contents (Elt F) → (⟨S1x200, .f32⟩ : BufTy).Contents (Elt F)),
    unary main_v87 main_v88 (broadcastInDim S200000x200 ![0, 1] bcast_S1x200_S200000x200_0_1 : (⟨S1x200, .f32⟩ : BufTy).Contents (Elt F) → (⟨S200000x200, .f32⟩ : BufTy).Contents (Elt F)),
    binary main_v86 main_v88 main_v89 (addf : (⟨S200000x200, .f32⟩ : BufTy).Contents (Elt F) → (⟨S200000x200, .f32⟩ : BufTy).Contents (Elt F) → (⟨S200000x200, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S200000x200, .f32⟩) main_call3_v0) (broadcastInDim S200000x200 ![] bcast_S_S200000x200),
    TRef.binary (TRef.of (T := ⟨S200000x200, .f32⟩) main_v89) (TRef.of (T := ⟨S200000x200, .f32⟩) main_call3_v0) (TRef.of (T := ⟨S200000x200, .f32⟩) main_v90) maximumf,
    nullary main_cst_12 (constant S_ .f32 0x00000000#32),
    unary main_cst_12 main_v91 (broadcastInDim S200000x200 ![] bcast_S_S200000x200 : (⟨S_, .f32⟩ : BufTy).Contents (Elt F) → (⟨S200000x200, .f32⟩ : BufTy).Contents (Elt F)),
    binary main_v90 main_v91 main_v92 (cmpf .oge : (⟨S200000x200, .f32⟩ : BufTy).Contents (Elt F) → (⟨S200000x200, .f32⟩ : BufTy).Contents (Elt F) → (⟨S200000x200, .i1⟩ : BufTy).Contents (Elt F)),
    nullary main_cst_13 (constant S_ .f32 0x3C23D70A#32),
    unary main_cst_13 main_v93 (broadcastInDim S200000x200 ![] bcast_S_S200000x200 : (⟨S_, .f32⟩ : BufTy).Contents (Elt F) → (⟨S200000x200, .f32⟩ : BufTy).Contents (Elt F)),
    binary main_v93 main_v90 main_v94 (mulf : (⟨S200000x200, .f32⟩ : BufTy).Contents (Elt F) → (⟨S200000x200, .f32⟩ : BufTy).Contents (Elt F) → (⟨S200000x200, .f32⟩ : BufTy).Contents (Elt F)),
    TRef.ternary (TRef.of (T := ⟨S200000x200, .i1⟩) main_v92) (TRef.of (T := ⟨S200000x200, .f32⟩) main_v90) (TRef.of (T := ⟨S200000x200, .f32⟩) main_v94) (TRef.of (T := ⟨S200000x200, .f32⟩) main_v95) select,
    binary main_v95 main_v90 main_v96 (addf : (⟨S200000x200, .f32⟩ : BufTy).Contents (Elt F) → (⟨S200000x200, .f32⟩ : BufTy).Contents (Elt F) → (⟨S200000x200, .f32⟩ : BufTy).Contents (Elt F)) ]

/-- Operations 118 to 164 of @main: layer 3. -/
abbrev rops3 : List (HloOp τ sig (Elt F)) :=
  [ nullary main_cst_14 (constant S_ .f32 0x00000000#32),
    unary main_cst_14 main_v97 (broadcastInDim S50000x200 ![] bcast_S_S50000x200 : (⟨S_, .f32⟩ : BufTy).Contents (Elt F) → (⟨S50000x200, .f32⟩ : BufTy).Contents (Elt F)),
    unary main_v3 main_v98 (broadcastInDim S200000x1 ![0] bcast_S200000_S200000x1_0 : (⟨S200000, .i32⟩ : BufTy).Contents (Elt F) → (⟨S200000x1, .i32⟩ : BufTy).Contents (Elt F)),
    ternary main_v97 main_v98 main_v96 main_v99 ((fun x i u => Host.scatterAdd scatter_S50000x200_S200000x1_S200000x200_1_0_0_1 x i u) : (⟨S50000x200, .f32⟩ : BufTy).Contents (Elt F) → (⟨S200000x1, .i32⟩ : BufTy).Contents (Elt F) → (⟨S200000x200, .f32⟩ : BufTy).Contents (Elt F) → (⟨S50000x200, .f32⟩ : BufTy).Contents (Elt F)),
    reshape main_v96 main_v100 rfl shapeCasts_S200000x200_S100000x2x200,
    unary main_v100 main_v101 (Host.reverse [1] : (⟨S100000x2x200, .f32⟩ : BufTy).Contents (Elt F) → (⟨S100000x2x200, .f32⟩ : BufTy).Contents (Elt F)),
    reshape main_v101 main_v102 rfl shapeCasts_S100000x2x200_S200000x200,
    nullary main_c_15 (constantI S_ 32 0#32),
    unary main_c_15 main_v103 (broadcastInDim S200000 ![] bcast_S_S200000 : (⟨S_, .i32⟩ : BufTy).Contents (Elt F) → (⟨S200000, .i32⟩ : BufTy).Contents (Elt F)),
    binary main_v1 main_v103 main_v104 (cmpi .slt : (⟨S200000, .i32⟩ : BufTy).Contents (Elt F) → (⟨S200000, .i32⟩ : BufTy).Contents (Elt F) → (⟨S200000, .i1⟩ : BufTy).Contents (Elt F)),
    nullary main_c_16 (constantI S_ 32 50000#32),
    unary main_c_16 main_v105 (broadcastInDim S200000 ![] bcast_S_S200000 : (⟨S_, .i32⟩ : BufTy).Contents (Elt F) → (⟨S200000, .i32⟩ : BufTy).Contents (Elt F)),
    binary main_v1 main_v105 main_v106 (addi : (⟨S200000, .i32⟩ : BufTy).Contents (Elt F) → (⟨S200000, .i32⟩ : BufTy).Contents (Elt F) → (⟨S200000, .i32⟩ : BufTy).Contents (Elt F)),
    ternary main_v104 main_v106 main_v1 main_v107 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v107 main_v108 (broadcastInDim S200000x1 ![0] bcast_S200000_S200000x1_0 : (⟨S200000, .i32⟩ : BufTy).Contents (Elt F) → (⟨S200000x1, .i32⟩ : BufTy).Contents (Elt F)),
    binary main_v99 main_v108 main_v109 ((fun x i => Host.gather gather_S50000x200_S200000x1_S200000x200_1_0_n_n_0_1_1200 x i) : (⟨S50000x200, .f32⟩ : BufTy).Contents (Elt F) → (⟨S200000x1, .i32⟩ : BufTy).Contents (Elt F) → (⟨S200000x200, .f32⟩ : BufTy).Contents (Elt F)),
    binary main_v109 main_v102 main_v110 (subf : (⟨S200000x200, .f32⟩ : BufTy).Contents (Elt F) → (⟨S200000x200, .f32⟩ : BufTy).Contents (Elt F) → (⟨S200000x200, .f32⟩ : BufTy).Contents (Elt F)),
    unary main_arg5 main_v111 ((transpose S200x200 [1, 0] · transposes_S200x200_S200x200_1_0) : (⟨S200x200, .f32⟩ : BufTy).Contents (Elt F) → (⟨S200x200, .f32⟩ : BufTy).Contents (Elt F)),
    binary main_v110 main_v111 main_v112 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    unary main_arg6 main_v113 (broadcastInDim S1x200 ![1] bcast_S200_S1x200_1 : (⟨S200, .f32⟩ : BufTy).Contents (Elt F) → (⟨S1x200, .f32⟩ : BufTy).Contents (Elt F)),
    unary main_v113 main_v114 (broadcastInDim S200000x200 ![0, 1] bcast_S1x200_S200000x200_0_1 : (⟨S1x200, .f32⟩ : BufTy).Contents (Elt F) → (⟨S200000x200, .f32⟩ : BufTy).Contents (Elt F)),
    binary main_v112 main_v114 main_v115 (addf : (⟨S200000x200, .f32⟩ : BufTy).Contents (Elt F) → (⟨S200000x200, .f32⟩ : BufTy).Contents (Elt F) → (⟨S200000x200, .f32⟩ : BufTy).Contents (Elt F)),
    unary main_arg9 main_v116 (broadcastInDim S1x200 ![1] bcast_S200_S1x200_1 : (⟨S200, .f32⟩ : BufTy).Contents (Elt F) → (⟨S1x200, .f32⟩ : BufTy).Contents (Elt F)),
    unary main_v116 main_v117 (broadcastInDim S200000x200 ![0, 1] bcast_S1x200_S200000x200_0_1 : (⟨S1x200, .f32⟩ : BufTy).Contents (Elt F) → (⟨S200000x200, .f32⟩ : BufTy).Contents (Elt F)),
    binary main_v115 main_v117 main_v118 (subf : (⟨S200000x200, .f32⟩ : BufTy).Contents (Elt F) → (⟨S200000x200, .f32⟩ : BufTy).Contents (Elt F) → (⟨S200000x200, .f32⟩ : BufTy).Contents (Elt F)),
    nullary main_cst_17 (constant S_ .f32 0x3727C5AC#32),
    unary main_cst_17 main_v119 (broadcastInDim S200 ![] bcast_S_S200 : (⟨S_, .f32⟩ : BufTy).Contents (Elt F) → (⟨S200, .f32⟩ : BufTy).Contents (Elt F)),
    binary main_arg10 main_v119 main_v120 (addf : (⟨S200, .f32⟩ : BufTy).Contents (Elt F) → (⟨S200, .f32⟩ : BufTy).Contents (Elt F) → (⟨S200, .f32⟩ : BufTy).Contents (Elt F)),
    unary main_v120 main_v121 (Host.sqrt : (⟨S200, .f32⟩ : BufTy).Contents (Elt F) → (⟨S200, .f32⟩ : BufTy).Contents (Elt F)),
    binary main_arg7 main_v121 main_v122 (Host.divf : (⟨S200, .f32⟩ : BufTy).Contents (Elt F) → (⟨S200, .f32⟩ : BufTy).Contents (Elt F) → (⟨S200, .f32⟩ : BufTy).Contents (Elt F)),
    unary main_v122 main_v123 (broadcastInDim S1x200 ![1] bcast_S200_S1x200_1 : (⟨S200, .f32⟩ : BufTy).Contents (Elt F) → (⟨S1x200, .f32⟩ : BufTy).Contents (Elt F)),
    unary main_v123 main_v124 (broadcastInDim S200000x200 ![0, 1] bcast_S1x200_S200000x200_0_1 : (⟨S1x200, .f32⟩ : BufTy).Contents (Elt F) → (⟨S200000x200, .f32⟩ : BufTy).Contents (Elt F)),
    binary main_v118 main_v124 main_v125 (mulf : (⟨S200000x200, .f32⟩ : BufTy).Contents (Elt F) → (⟨S200000x200, .f32⟩ : BufTy).Contents (Elt F) → (⟨S200000x200, .f32⟩ : BufTy).Contents (Elt F)),
    unary main_arg8 main_v126 (broadcastInDim S1x200 ![1] bcast_S200_S1x200_1 : (⟨S200, .f32⟩ : BufTy).Contents (Elt F) → (⟨S1x200, .f32⟩ : BufTy).Contents (Elt F)),
    unary main_v126 main_v127 (broadcastInDim S200000x200 ![0, 1] bcast_S1x200_S200000x200_0_1 : (⟨S1x200, .f32⟩ : BufTy).Contents (Elt F) → (⟨S200000x200, .f32⟩ : BufTy).Contents (Elt F)),
    binary main_v125 main_v127 main_v128 (addf : (⟨S200000x200, .f32⟩ : BufTy).Contents (Elt F) → (⟨S200000x200, .f32⟩ : BufTy).Contents (Elt F) → (⟨S200000x200, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S200000x200, .f32⟩) main_call5_v0) (broadcastInDim S200000x200 ![] bcast_S_S200000x200),
    TRef.binary (TRef.of (T := ⟨S200000x200, .f32⟩) main_v128) (TRef.of (T := ⟨S200000x200, .f32⟩) main_call5_v0) (TRef.of (T := ⟨S200000x200, .f32⟩) main_v129) maximumf,
    nullary main_cst_18 (constant S_ .f32 0x00000000#32),
    unary main_cst_18 main_v130 (broadcastInDim S200000x200 ![] bcast_S_S200000x200 : (⟨S_, .f32⟩ : BufTy).Contents (Elt F) → (⟨S200000x200, .f32⟩ : BufTy).Contents (Elt F)),
    binary main_v129 main_v130 main_v131 (cmpf .oge : (⟨S200000x200, .f32⟩ : BufTy).Contents (Elt F) → (⟨S200000x200, .f32⟩ : BufTy).Contents (Elt F) → (⟨S200000x200, .i1⟩ : BufTy).Contents (Elt F)),
    nullary main_cst_19 (constant S_ .f32 0x3C23D70A#32),
    unary main_cst_19 main_v132 (broadcastInDim S200000x200 ![] bcast_S_S200000x200 : (⟨S_, .f32⟩ : BufTy).Contents (Elt F) → (⟨S200000x200, .f32⟩ : BufTy).Contents (Elt F)),
    binary main_v132 main_v129 main_v133 (mulf : (⟨S200000x200, .f32⟩ : BufTy).Contents (Elt F) → (⟨S200000x200, .f32⟩ : BufTy).Contents (Elt F) → (⟨S200000x200, .f32⟩ : BufTy).Contents (Elt F)),
    TRef.ternary (TRef.of (T := ⟨S200000x200, .i1⟩) main_v131) (TRef.of (T := ⟨S200000x200, .f32⟩) main_v129) (TRef.of (T := ⟨S200000x200, .f32⟩) main_v133) (TRef.of (T := ⟨S200000x200, .f32⟩) main_v134) select,
    binary main_v134 main_v129 main_v135 (addf : (⟨S200000x200, .f32⟩ : BufTy).Contents (Elt F) → (⟨S200000x200, .f32⟩ : BufTy).Contents (Elt F) → (⟨S200000x200, .f32⟩ : BufTy).Contents (Elt F)) ]

/-- Operations 165 to 204 of @main: the last layer. -/
abbrev rops4 : List (HloOp τ sig (Elt F)) :=
  [ nullary main_cst_20 (constant S_ .f32 0x00000000#32),
    unary main_cst_20 main_v136 (broadcastInDim S50000x200 ![] bcast_S_S50000x200 : (⟨S_, .f32⟩ : BufTy).Contents (Elt F) → (⟨S50000x200, .f32⟩ : BufTy).Contents (Elt F)),
    unary main_v3 main_v137 (broadcastInDim S200000x1 ![0] bcast_S200000_S200000x1_0 : (⟨S200000, .i32⟩ : BufTy).Contents (Elt F) → (⟨S200000x1, .i32⟩ : BufTy).Contents (Elt F)),
    ternary main_v136 main_v137 main_v135 main_v138 ((fun x i u => Host.scatterAdd scatter_S50000x200_S200000x1_S200000x200_1_0_0_1 x i u) : (⟨S50000x200, .f32⟩ : BufTy).Contents (Elt F) → (⟨S200000x1, .i32⟩ : BufTy).Contents (Elt F) → (⟨S200000x200, .f32⟩ : BufTy).Contents (Elt F) → (⟨S50000x200, .f32⟩ : BufTy).Contents (Elt F)),
    reshape main_v135 main_v139 rfl shapeCasts_S200000x200_S100000x2x200,
    unary main_v139 main_v140 (Host.reverse [1] : (⟨S100000x2x200, .f32⟩ : BufTy).Contents (Elt F) → (⟨S100000x2x200, .f32⟩ : BufTy).Contents (Elt F)),
    reshape main_v140 main_v141 rfl shapeCasts_S100000x2x200_S200000x200,
    nullary main_c_21 (constantI S_ 32 0#32),
    unary main_c_21 main_v142 (broadcastInDim S200000 ![] bcast_S_S200000 : (⟨S_, .i32⟩ : BufTy).Contents (Elt F) → (⟨S200000, .i32⟩ : BufTy).Contents (Elt F)),
    binary main_v1 main_v142 main_v143 (cmpi .slt : (⟨S200000, .i32⟩ : BufTy).Contents (Elt F) → (⟨S200000, .i32⟩ : BufTy).Contents (Elt F) → (⟨S200000, .i1⟩ : BufTy).Contents (Elt F)),
    nullary main_c_22 (constantI S_ 32 50000#32),
    unary main_c_22 main_v144 (broadcastInDim S200000 ![] bcast_S_S200000 : (⟨S_, .i32⟩ : BufTy).Contents (Elt F) → (⟨S200000, .i32⟩ : BufTy).Contents (Elt F)),
    binary main_v1 main_v144 main_v145 (addi : (⟨S200000, .i32⟩ : BufTy).Contents (Elt F) → (⟨S200000, .i32⟩ : BufTy).Contents (Elt F) → (⟨S200000, .i32⟩ : BufTy).Contents (Elt F)),
    ternary main_v143 main_v145 main_v1 main_v146 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v146 main_v147 (broadcastInDim S200000x1 ![0] bcast_S200000_S200000x1_0 : (⟨S200000, .i32⟩ : BufTy).Contents (Elt F) → (⟨S200000x1, .i32⟩ : BufTy).Contents (Elt F)),
    binary main_v138 main_v147 main_v148 ((fun x i => Host.gather gather_S50000x200_S200000x1_S200000x200_1_0_n_n_0_1_1200 x i) : (⟨S50000x200, .f32⟩ : BufTy).Contents (Elt F) → (⟨S200000x1, .i32⟩ : BufTy).Contents (Elt F) → (⟨S200000x200, .f32⟩ : BufTy).Contents (Elt F)),
    binary main_v148 main_v141 main_v149 (subf : (⟨S200000x200, .f32⟩ : BufTy).Contents (Elt F) → (⟨S200000x200, .f32⟩ : BufTy).Contents (Elt F) → (⟨S200000x200, .f32⟩ : BufTy).Contents (Elt F)),
    unary main_arg5 main_v150 ((transpose S200x200 [1, 0] · transposes_S200x200_S200x200_1_0) : (⟨S200x200, .f32⟩ : BufTy).Contents (Elt F) → (⟨S200x200, .f32⟩ : BufTy).Contents (Elt F)),
    binary main_v149 main_v150 main_v151 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    unary main_arg6 main_v152 (broadcastInDim S1x200 ![1] bcast_S200_S1x200_1 : (⟨S200, .f32⟩ : BufTy).Contents (Elt F) → (⟨S1x200, .f32⟩ : BufTy).Contents (Elt F)),
    unary main_v152 main_v153 (broadcastInDim S200000x200 ![0, 1] bcast_S1x200_S200000x200_0_1 : (⟨S1x200, .f32⟩ : BufTy).Contents (Elt F) → (⟨S200000x200, .f32⟩ : BufTy).Contents (Elt F)),
    binary main_v151 main_v153 main_v154 (addf : (⟨S200000x200, .f32⟩ : BufTy).Contents (Elt F) → (⟨S200000x200, .f32⟩ : BufTy).Contents (Elt F) → (⟨S200000x200, .f32⟩ : BufTy).Contents (Elt F)),
    unary main_arg9 main_v155 (broadcastInDim S1x200 ![1] bcast_S200_S1x200_1 : (⟨S200, .f32⟩ : BufTy).Contents (Elt F) → (⟨S1x200, .f32⟩ : BufTy).Contents (Elt F)),
    unary main_v155 main_v156 (broadcastInDim S200000x200 ![0, 1] bcast_S1x200_S200000x200_0_1 : (⟨S1x200, .f32⟩ : BufTy).Contents (Elt F) → (⟨S200000x200, .f32⟩ : BufTy).Contents (Elt F)),
    binary main_v154 main_v156 main_v157 (subf : (⟨S200000x200, .f32⟩ : BufTy).Contents (Elt F) → (⟨S200000x200, .f32⟩ : BufTy).Contents (Elt F) → (⟨S200000x200, .f32⟩ : BufTy).Contents (Elt F)),
    nullary main_cst_23 (constant S_ .f32 0x3727C5AC#32),
    unary main_cst_23 main_v158 (broadcastInDim S200 ![] bcast_S_S200 : (⟨S_, .f32⟩ : BufTy).Contents (Elt F) → (⟨S200, .f32⟩ : BufTy).Contents (Elt F)),
    binary main_arg10 main_v158 main_v159 (addf : (⟨S200, .f32⟩ : BufTy).Contents (Elt F) → (⟨S200, .f32⟩ : BufTy).Contents (Elt F) → (⟨S200, .f32⟩ : BufTy).Contents (Elt F)),
    unary main_v159 main_v160 (Host.sqrt : (⟨S200, .f32⟩ : BufTy).Contents (Elt F) → (⟨S200, .f32⟩ : BufTy).Contents (Elt F)),
    binary main_arg7 main_v160 main_v161 (Host.divf : (⟨S200, .f32⟩ : BufTy).Contents (Elt F) → (⟨S200, .f32⟩ : BufTy).Contents (Elt F) → (⟨S200, .f32⟩ : BufTy).Contents (Elt F)),
    unary main_v161 main_v162 (broadcastInDim S1x200 ![1] bcast_S200_S1x200_1 : (⟨S200, .f32⟩ : BufTy).Contents (Elt F) → (⟨S1x200, .f32⟩ : BufTy).Contents (Elt F)),
    unary main_v162 main_v163 (broadcastInDim S200000x200 ![0, 1] bcast_S1x200_S200000x200_0_1 : (⟨S1x200, .f32⟩ : BufTy).Contents (Elt F) → (⟨S200000x200, .f32⟩ : BufTy).Contents (Elt F)),
    binary main_v157 main_v163 main_v164 (mulf : (⟨S200000x200, .f32⟩ : BufTy).Contents (Elt F) → (⟨S200000x200, .f32⟩ : BufTy).Contents (Elt F) → (⟨S200000x200, .f32⟩ : BufTy).Contents (Elt F)),
    unary main_arg8 main_v165 (broadcastInDim S1x200 ![1] bcast_S200_S1x200_1 : (⟨S200, .f32⟩ : BufTy).Contents (Elt F) → (⟨S1x200, .f32⟩ : BufTy).Contents (Elt F)),
    unary main_v165 main_v166 (broadcastInDim S200000x200 ![0, 1] bcast_S1x200_S200000x200_0_1 : (⟨S1x200, .f32⟩ : BufTy).Contents (Elt F) → (⟨S200000x200, .f32⟩ : BufTy).Contents (Elt F)),
    binary main_v164 main_v166 main_v167 (addf : (⟨S200000x200, .f32⟩ : BufTy).Contents (Elt F) → (⟨S200000x200, .f32⟩ : BufTy).Contents (Elt F) → (⟨S200000x200, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S200000x200, .f32⟩) main_call7_v0) (broadcastInDim S200000x200 ![] bcast_S_S200000x200),
    TRef.binary (TRef.of (T := ⟨S200000x200, .f32⟩) main_v167) (TRef.of (T := ⟨S200000x200, .f32⟩) main_call7_v0) (TRef.of (T := ⟨S200000x200, .f32⟩) main_v168) maximumf,
    binary main_v168 main_v168 main_v169 (addf : (⟨S200000x200, .f32⟩ : BufTy).Contents (Elt F) → (⟨S200000x200, .f32⟩ : BufTy).Contents (Elt F) → (⟨S200000x200, .f32⟩ : BufTy).Contents (Elt F)) ]

/-- Operations 205 to 226 of @main: the sums over nodes, the linear map and the mean per graph. -/
abbrev rops5 : List (HloOp τ sig (Elt F)) :=
  [ nullary main_cst_24 (constant S_ .f32 0x00000000#32),
    unary main_cst_24 main_v170 (broadcastInDim S50000x200 ![] bcast_S_S50000x200 : (⟨S_, .f32⟩ : BufTy).Contents (Elt F) → (⟨S50000x200, .f32⟩ : BufTy).Contents (Elt F)),
    unary main_v3 main_v171 (broadcastInDim S200000x1 ![0] bcast_S200000_S200000x1_0 : (⟨S200000, .i32⟩ : BufTy).Contents (Elt F) → (⟨S200000x1, .i32⟩ : BufTy).Contents (Elt F)),
    ternary main_v170 main_v171 main_v169 main_v172 ((fun x i u => Host.scatterAdd scatter_S50000x200_S200000x1_S200000x200_1_0_0_1 x i u) : (⟨S50000x200, .f32⟩ : BufTy).Contents (Elt F) → (⟨S200000x1, .i32⟩ : BufTy).Contents (Elt F) → (⟨S200000x200, .f32⟩ : BufTy).Contents (Elt F) → (⟨S50000x200, .f32⟩ : BufTy).Contents (Elt F)),
    unary main_arg11 main_v173 ((transpose S200x200 [1, 0] · transposes_S200x200_S200x200_1_0) : (⟨S200x200, .f32⟩ : BufTy).Contents (Elt F) → (⟨S200x200, .f32⟩ : BufTy).Contents (Elt F)),
    binary main_v172 main_v173 main_v174 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    nullary main_cst_25 (constant S_ .f32 0x00000000#32),
    unary main_cst_25 main_v175 (broadcastInDim S2048x200 ![] bcast_S_S2048x200 : (⟨S_, .f32⟩ : BufTy).Contents (Elt F) → (⟨S2048x200, .f32⟩ : BufTy).Contents (Elt F)),
    unary main_arg3 main_v176 (broadcastInDim S50000x1 ![0] bcast_S50000_S50000x1_0 : (⟨S50000, .i32⟩ : BufTy).Contents (Elt F) → (⟨S50000x1, .i32⟩ : BufTy).Contents (Elt F)),
    ternary main_v175 main_v176 main_v174 main_v177 ((fun x i u => Host.scatterAdd scatter_S2048x200_S50000x1_S50000x200_1_0_0_1 x i u) : (⟨S2048x200, .f32⟩ : BufTy).Contents (Elt F) → (⟨S50000x1, .i32⟩ : BufTy).Contents (Elt F) → (⟨S50000x200, .f32⟩ : BufTy).Contents (Elt F) → (⟨S2048x200, .f32⟩ : BufTy).Contents (Elt F)),
    nullary main_cst_26 (constant S_ .f32 0x3F800000#32),
    unary main_cst_26 main_v178 (broadcastInDim S50000 ![] bcast_S_S50000 : (⟨S_, .f32⟩ : BufTy).Contents (Elt F) → (⟨S50000, .f32⟩ : BufTy).Contents (Elt F)),
    nullary main_cst_27 (constant S_ .f32 0x00000000#32),
    unary main_cst_27 main_v179 (broadcastInDim S2048 ![] bcast_S_S2048 : (⟨S_, .f32⟩ : BufTy).Contents (Elt F) → (⟨S2048, .f32⟩ : BufTy).Contents (Elt F)),
    unary main_arg3 main_v180 (broadcastInDim S50000x1 ![0] bcast_S50000_S50000x1_0 : (⟨S50000, .i32⟩ : BufTy).Contents (Elt F) → (⟨S50000x1, .i32⟩ : BufTy).Contents (Elt F)),
    ternary main_v179 main_v180 main_v178 main_v181 ((fun x i u => Host.scatterAdd scatter_S2048_S50000x1_S50000_n_0_0_1 x i u) : (⟨S2048, .f32⟩ : BufTy).Contents (Elt F) → (⟨S50000x1, .i32⟩ : BufTy).Contents (Elt F) → (⟨S50000, .f32⟩ : BufTy).Contents (Elt F) → (⟨S2048, .f32⟩ : BufTy).Contents (Elt F)),
    nullary main_cst_28 (constant S_ .f32 0x3F800000#32),
    unary main_cst_28 main_v182 (broadcastInDim S2048 ![] bcast_S_S2048 : (⟨S_, .f32⟩ : BufTy).Contents (Elt F) → (⟨S2048, .f32⟩ : BufTy).Contents (Elt F)),
    binary main_v181 main_v182 main_v183 (maximumf : (⟨S2048, .f32⟩ : BufTy).Contents (Elt F) → (⟨S2048, .f32⟩ : BufTy).Contents (Elt F) → (⟨S2048, .f32⟩ : BufTy).Contents (Elt F)),
    unary main_v183 main_v184 (broadcastInDim S2048x1 ![0] bcast_S2048_S2048x1_0 : (⟨S2048, .f32⟩ : BufTy).Contents (Elt F) → (⟨S2048x1, .f32⟩ : BufTy).Contents (Elt F)),
    unary main_v184 main_v185 (broadcastInDim S2048x200 ![0, 1] bcast_S2048x1_S2048x200_0_1 : (⟨S2048x1, .f32⟩ : BufTy).Contents (Elt F) → (⟨S2048x200, .f32⟩ : BufTy).Contents (Elt F)),
    binary main_v177 main_v185 main_v186 (Host.divf : (⟨S2048x200, .f32⟩ : BufTy).Contents (Elt F) → (⟨S2048x200, .f32⟩ : BufTy).Contents (Elt F) → (⟨S2048x200, .f32⟩ : BufTy).Contents (Elt F)) ]

/-- @main's operations, in order. -/
abbrev rops : List (HloOp τ sig (Elt F)) := rops0 ++ rops1 ++ rops2 ++ rops3 ++ rops4 ++ rops5

end Cert.RVal

end
-- ==== Proof.RRun.lean ====
import proofs.«420250_j79482664779988_1_alg».proof.Proof.ROps

noncomputable section

namespace Cert.RVal

open Idealize.ShloMosaic Idealize.ShloMosaic.TcCoe Idealize.SL.Sem Idealize.ShloMosaic.StableHlo
open Cert.ReferenceIdeal

variable {F : FTy → Type} [FloatOps F] [Cert.ReferenceIdeal.Facts]

/-! ## The program is the line of its operations -/

set_option maxRecDepth 8192 in
set_option maxHeartbeats 4000000 in
/-- The reference's @main, on every device, is the straight line of its 226 operations in order. -/
theorem main_eq (d : Dev nD) : main (F := F) d = seq (rops (F := F)) := rfl

/-- No TensorCore buffer of the signature is scoped to a region. -/
theorem scopedRefs_eq : (Finset.univ.filter fun b : Ref sig .tc => b.isScoped) = ∅ := by decide
/-- No semaphore of the signature is scoped to a region. -/
theorem scopedSems_eq : (Finset.univ.filter fun sm : SemLoc sig => sm.isScoped .tc) = ∅ := by decide

/-! ## Every operation touches TensorCore references only, chunk by chunk -/

set_option maxRecDepth 8192 in
theorem rops0_sub : (rops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
theorem rops1_sub : (rops1 : List (HloOp τ sig (Elt F))).Forall fun op => op.bufs ⊆ tcRefs τ sig :=
  ⟨nullary_bufs_sub .., unary_bufs_sub .., unary_bufs_sub .., ternary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

set_option maxRecDepth 8192 in
theorem rops2_sub : (rops2 : List (HloOp τ sig (Elt F))).Forall fun op => op.bufs ⊆ tcRefs τ sig :=
  ⟨nullary_bufs_sub .., unary_bufs_sub .., unary_bufs_sub .., ternary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

set_option maxRecDepth 8192 in
theorem rops3_sub : (rops3 : List (HloOp τ sig (Elt F))).Forall fun op => op.bufs ⊆ tcRefs τ sig :=
  ⟨nullary_bufs_sub .., unary_bufs_sub .., unary_bufs_sub .., ternary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

set_option maxRecDepth 8192 in
theorem rops4_sub : (rops4 : List (HloOp τ sig (Elt F))).Forall fun op => op.bufs ⊆ tcRefs τ sig :=
  ⟨nullary_bufs_sub .., unary_bufs_sub .., unary_bufs_sub .., ternary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

set_option maxRecDepth 8192 in
theorem rops5_sub : (rops5 : List (HloOp τ sig (Elt F))).Forall fun op => op.bufs ⊆ tcRefs τ sig :=
  ⟨nullary_bufs_sub .., unary_bufs_sub .., unary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- A property of every operation of each chunk is one of every operation of the whole line. -/
theorem forall_rops {P : HloOp τ sig (Elt F) → Prop}
    (h0 : ∀ op ∈ (rops0 : List (HloOp τ sig (Elt F))), P op) (h1 : ∀ op ∈ (rops1 : List (HloOp τ sig (Elt F))), P op)
    (h2 : ∀ op ∈ (rops2 : List (HloOp τ sig (Elt F))), P op) (h3 : ∀ op ∈ (rops3 : List (HloOp τ sig (Elt F))), P op)
    (h4 : ∀ op ∈ (rops4 : List (HloOp τ sig (Elt F))), P op) (h5 : ∀ op ∈ (rops5 : List (HloOp τ sig (Elt F))), P op) :
    ∀ op ∈ (rops : List (HloOp τ sig (Elt F))), P op := by
  intro op h
  have h : op ∈ rops0 ++ rops1 ++ rops2 ++ rops3 ++ rops4 ++ rops5 := h
  rw [List.mem_append, List.mem_append, List.mem_append, List.mem_append, List.mem_append] at h
  rcases h with ((((h | h) | h) | h) | h) | h
  exacts [h0 op h, h1 op h, h2 op h, h3 op h, h4 op h, h5 op h]

theorem rops_sub : (rops : List (HloOp τ sig (Elt F))).Forall fun op => op.bufs ⊆ tcRefs τ sig :=
  List.forall_iff_forall_mem.mpr (forall_rops (List.forall_iff_forall_mem.mp rops0_sub) (List.forall_iff_forall_mem.mp rops1_sub)
    (List.forall_iff_forall_mem.mp rops2_sub) (List.forall_iff_forall_mem.mp rops3_sub) (List.forall_iff_forall_mem.mp rops4_sub)
    (List.forall_iff_forall_mem.mp rops5_sub))

/-! ## Every operation determines its results (none allocates), chunk by chunk -/

set_option maxRecDepth 8192 in
theorem rops0_fresh : (rops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem rops1_fresh : (rops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rops2_fresh : (rops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rops3_fresh : (rops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rops4_fresh : (rops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rops5_fresh : (rops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem rops_fresh : ∀ op ∈ (rops : List (HloOp τ sig (Elt F))), op.fresh = ∅ :=
  forall_rops (List.forall_iff_forall_mem.mp rops0_fresh) (List.forall_iff_forall_mem.mp rops1_fresh)
    (List.forall_iff_forall_mem.mp rops2_fresh) (List.forall_iff_forall_mem.mp rops3_fresh) (List.forall_iff_forall_mem.mp rops4_fresh)
    (List.forall_iff_forall_mem.mp rops5_fresh)

/-- The reference program runs: every weakly fair execution terminates, and every buffer ends at the fold of the
    operations' results over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after (rops (F := F)) (launchContents m d) (Proc.devRef .tc b) :=
  run_seq scopedRefs_eq scopedSems_eq defs main (fun _ => rops) main_eq (fun _ => rops_sub) m ρ (fun _ => rops_fresh)

end Cert.RVal

end
-- ==== Proof.RChain.lean ====
import proofs.«420250_j79482664779988_1_alg».proof.Proof.ROps
import proofs.«420250_j79482664779988_1_alg».proof.Proof.Spec

noncomputable section

namespace Cert.RVal

open Idealize.ShloMosaic Idealize.ShloMosaic.TcCoe Idealize.SL.Sem Idealize.ShloMosaic.StableHlo
open Cert.ReferenceIdeal
open Cert.Spec

variable [Cert.KernelIdeal.Facts] [Cert.ReferenceIdeal.Facts]

/-! ## The fold, stretch by stretch

The reference's operations are cut into six stretches. Each stretch's fold is read at the buffers the later stretches
use: at its result it is the stretch's function (a piece of the reference's mathematics) of what the stretch found, and at
every buffer it does not write it is what was there. Chaining the six readings gives the result as the reference's
function of the arguments. -/

/-- The fold over two stretches in a row is the fold over the second, from the fold over the first. -/
theorem after_app : ∀ (l₁ l₂ : List (HloOp τ sig (Elt Ideal))) (V : Valuation τ sig (Elt Ideal)),
    StableHlo.after (l₁ ++ l₂) V = StableHlo.after l₂ (StableHlo.after l₁ V)
  | [], _, _ => rfl
  | op :: l₁, l₂, V => by rw [List.cons_append, after_cons, after_cons, after_app l₁ l₂]

/-- The whole fold as the six stretches' folds, one inside the next. -/
theorem fold_eq (V : Valuation τ sig (Elt Ideal)) :
    StableHlo.after (rops (F := Ideal)) V
      = StableHlo.after (rops5 (F := Ideal)) (StableHlo.after (rops4 (F := Ideal)) (StableHlo.after (rops3 (F := Ideal))
          (StableHlo.after (rops2 (F := Ideal)) (StableHlo.after (rops1 (F := Ideal)) (StableHlo.after (rops0 (F := Ideal)) V))))) := by
  show StableHlo.after (rops0 ++ rops1 ++ rops2 ++ rops3 ++ rops4 ++ rops5) V = _
  rw [after_app, after_app, after_app, after_app, after_app]

/-! ### What each stretch leaves alone -/

/-- The buffers that stretch 0 writes, in order. -/
abbrev W0 : List (Ref sig .tc) := [main_v0, main_v1, main_v2, main_v3, main_c, main_v4, main_v5, main_c_0, main_v6, main_v7, main_v8, main_v9, main_v10, main_v11, main_v12, main_v13, main_cst, main_v14, main_v15, main_cst_1, main_v16, main_v17, main_v18]

theorem rops0_writes : (rops0 (F := Ideal)).Forall fun op => op.writes ⊆ (W0.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that stretch 0 does not write keeps its contents through it. -/
theorem keep0 (V : Valuation τ sig (Elt Ideal)) (r : Ref sig .tc) (h : r ∉ W0) :
    StableHlo.after (rops0 (F := Ideal)) V (Proc.devRef .tc r) = V (Proc.devRef .tc r) :=
  after_of_writes_sub (rops0 (F := Ideal)) V rops0_writes h

/-- The buffers that stretch 1 writes, in order. -/
abbrev W1 : List (Ref sig .tc) := [main_cst_2, main_v19, main_v20, main_v21, main_v22, main_v23, main_v24, main_c_3, main_v25, main_v26, main_c_4, main_v27, main_v28, main_v29, main_v30, main_v31, main_v32, main_v33, main_v34, main_v35, main_v36, main_v37, main_v38, main_v39, main_v40, main_cst_5, main_v41, main_v42, main_v43, main_v44, main_v45, main_v46, main_v47, main_v48, main_v49, main_v50, main_call1_cst, main_call1_v0, main_v51, main_cst_6, main_v52, main_v53, main_cst_7, main_v54, main_v55, main_v56, main_v57]

theorem rops1_writes : (rops1 (F := Ideal)).Forall fun op => op.writes ⊆ (W1.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that stretch 1 does not write keeps its contents through it. -/
theorem keep1 (V : Valuation τ sig (Elt Ideal)) (r : Ref sig .tc) (h : r ∉ W1) :
    StableHlo.after (rops1 (F := Ideal)) V (Proc.devRef .tc r) = V (Proc.devRef .tc r) :=
  after_of_writes_sub (rops1 (F := Ideal)) V rops1_writes h

/-- The buffers that stretch 2 writes, in order. -/
abbrev W2 : List (Ref sig .tc) := [main_cst_8, main_v58, main_v59, main_v60, main_v61, main_v62, main_v63, main_c_9, main_v64, main_v65, main_c_10, main_v66, main_v67, main_v68, main_v69, main_v70, main_v71, main_v72, main_v73, main_v74, main_v75, main_v76, main_v77, main_v78, main_v79, main_cst_11, main_v80, main_v81, main_v82, main_v83, main_v84, main_v85, main_v86, main_v87, main_v88, main_v89, main_call3_cst, main_call3_v0, main_v90, main_cst_12, main_v91, main_v92, main_cst_13, main_v93, main_v94, main_v95, main_v96]

theorem rops2_writes : (rops2 (F := Ideal)).Forall fun op => op.writes ⊆ (W2.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that stretch 2 does not write keeps its contents through it. -/
theorem keep2 (V : Valuation τ sig (Elt Ideal)) (r : Ref sig .tc) (h : r ∉ W2) :
    StableHlo.after (rops2 (F := Ideal)) V (Proc.devRef .tc r) = V (Proc.devRef .tc r) :=
  after_of_writes_sub (rops2 (F := Ideal)) V rops2_writes h

/-- The buffers that stretch 3 writes, in order. -/
abbrev W3 : List (Ref sig .tc) := [main_cst_14, main_v97, main_v98, main_v99, main_v100, main_v101, main_v102, main_c_15, main_v103, main_v104, main_c_16, main_v105, main_v106, main_v107, main_v108, main_v109, main_v110, main_v111, main_v112, main_v113, main_v114, main_v115, main_v116, main_v117, main_v118, main_cst_17, main_v119, main_v120, main_v121, main_v122, main_v123, main_v124, main_v125, main_v126, main_v127, main_v128, main_call5_cst, main_call5_v0, main_v129, main_cst_18, main_v130, main_v131, main_cst_19, main_v132, main_v133, main_v134, main_v135]

theorem rops3_writes : (rops3 (F := Ideal)).Forall fun op => op.writes ⊆ (W3.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that stretch 3 does not write keeps its contents through it. -/
theorem keep3 (V : Valuation τ sig (Elt Ideal)) (r : Ref sig .tc) (h : r ∉ W3) :
    StableHlo.after (rops3 (F := Ideal)) V (Proc.devRef .tc r) = V (Proc.devRef .tc r) :=
  after_of_writes_sub (rops3 (F := Ideal)) V rops3_writes h

/-- The buffers that stretch 4 writes, in order. -/
abbrev W4 : List (Ref sig .tc) := [main_cst_20, main_v136, main_v137, main_v138, main_v139, main_v140, main_v141, main_c_21, main_v142, main_v143, main_c_22, main_v144, main_v145, main_v146, main_v147, main_v148, main_v149, main_v150, main_v151, main_v152, main_v153, main_v154, main_v155, main_v156, main_v157, main_cst_23, main_v158, main_v159, main_v160, main_v161, main_v162, main_v163, main_v164, main_v165, main_v166, main_v167, main_call7_cst, main_call7_v0, main_v168, main_v169]

theorem rops4_writes : (rops4 (F := Ideal)).Forall fun op => op.writes ⊆ (W4.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that stretch 4 does not write keeps its contents through it. -/
theorem keep4 (V : Valuation τ sig (Elt Ideal)) (r : Ref sig .tc) (h : r ∉ W4) :
    StableHlo.after (rops4 (F := Ideal)) V (Proc.devRef .tc r) = V (Proc.devRef .tc r) :=
  after_of_writes_sub (rops4 (F := Ideal)) V rops4_writes h

/-- The buffers that stretch 5 writes, in order. -/
abbrev W5 : List (Ref sig .tc) := [main_cst_24, main_v170, main_v171, main_v172, main_v173, main_v174, main_cst_25, main_v175, main_v176, main_v177, main_cst_26, main_v178, main_cst_27, main_v179, main_v180, main_v181, main_cst_28, main_v182, main_v183, main_v184, main_v185, main_v186]

theorem rops5_writes : (rops5 (F := Ideal)).Forall fun op => op.writes ⊆ (W5.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that stretch 5 does not write keeps its contents through it. -/
theorem keep5 (V : Valuation τ sig (Elt Ideal)) (r : Ref sig .tc) (h : r ∉ W5) :
    StableHlo.after (rops5 (F := Ideal)) V (Proc.devRef .tc r) = V (Proc.devRef .tc r) :=
  after_of_writes_sub (rops5 (F := Ideal)) V rops5_writes h

/-! ### What each stretch computes -/

/-- Stretch 0 leaves the sources of the edges at their buffer: row 0 of the edge list. -/
theorem c0_row (V : Valuation τ sig (Elt Ideal)) :
    StableHlo.after (rops0 (F := Ideal)) V (Proc.devRef .tc main_v1) = rowOf (V (Proc.devRef .tc main_arg2)) := by
  after_results
  rfl

/-- Stretch 0 leaves the targets of the edges at their buffer: row 1 of the edge list. -/
theorem c0_col (V : Valuation τ sig (Elt Ideal)) :
    StableHlo.after (rops0 (F := Ideal)) V (Proc.devRef .tc main_v3) = colOf (V (Proc.devRef .tc main_arg2)) := by
  after_results
  rfl

set_option maxHeartbeats 4000000 in
/-- Stretch 0 leaves the reference's first edge state at its result. -/
theorem c0_out (V : Valuation τ sig (Elt Ideal)) :
    StableHlo.after (rops0 (F := Ideal)) V (Proc.devRef .tc main_v18)
      = rInit (V (Proc.devRef .tc main_arg0)) (V (Proc.devRef .tc main_arg1)) (rowOf (V (Proc.devRef .tc main_arg2))) (V (Proc.devRef .tc main_arg4)) := by
  after_results_simp
  try simp only [TRef.ofBuf, TRef.toBuf, cast_eq]
  rfl

set_option maxHeartbeats 4000000 in
/-- Stretch 1 leaves at its result one layer of the edge state it found, over the sources and targets kept beside it. -/
theorem c1_out (V : Valuation τ sig (Elt Ideal)) :
    StableHlo.after (rops1 (F := Ideal)) V (Proc.devRef .tc main_v57)
      = rLayer (V (Proc.devRef .tc main_v1)) (V (Proc.devRef .tc main_v3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_v18)) := by
  after_results_simp
  try simp only [TRef.ofBuf, TRef.toBuf, cast_eq]
  rfl

set_option maxHeartbeats 4000000 in
/-- Stretch 2 leaves at its result one layer of the edge state it found, over the sources and targets kept beside it. -/
theorem c2_out (V : Valuation τ sig (Elt Ideal)) :
    StableHlo.after (rops2 (F := Ideal)) V (Proc.devRef .tc main_v96)
      = rLayer (V (Proc.devRef .tc main_v1)) (V (Proc.devRef .tc main_v3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_v57)) := by
  after_results_simp
  try simp only [TRef.ofBuf, TRef.toBuf, cast_eq]
  rfl

set_option maxHeartbeats 4000000 in
/-- Stretch 3 leaves at its result one layer of the edge state it found, over the sources and targets kept beside it. -/
theorem c3_out (V : Valuation τ sig (Elt Ideal)) :
    StableHlo.after (rops3 (F := Ideal)) V (Proc.devRef .tc main_v135)
      = rLayer (V (Proc.devRef .tc main_v1)) (V (Proc.devRef .tc main_v3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_v96)) := by
  after_results_simp
  try simp only [TRef.ofBuf, TRef.toBuf, cast_eq]
  rfl

set_option maxHeartbeats 4000000 in
/-- Stretch 4 leaves at its result the last layer of the edge state it found, over the sources and targets kept beside it. -/
theorem c4_out (V : Valuation τ sig (Elt Ideal)) :
    StableHlo.after (rops4 (F := Ideal)) V (Proc.devRef .tc main_v169)
      = rLast (V (Proc.devRef .tc main_v1)) (V (Proc.devRef .tc main_v3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_v135)) := by
  after_results_simp
  try simp only [TRef.ofBuf, TRef.toBuf, cast_eq]
  rfl

set_option maxHeartbeats 4000000 in
/-- Stretch 5 leaves at the result buffer the mean per graph of the linear map of the nodes' sums of the last edge state. -/
theorem c5_out (V : Valuation τ sig (Elt Ideal)) :
    StableHlo.after (rops5 (F := Ideal)) V (Proc.devRef .tc main_v186)
      = pool (Host.dotGeneral Cert.ReferenceIdeal.dot_S50000x200_S200x200_S50000x200_1_0_0_1_n_n none
          (agg (V (Proc.devRef .tc main_v3)) (V (Proc.devRef .tc main_v169))) (tr200 (V (Proc.devRef .tc main_arg11)))) (V (Proc.devRef .tc main_arg3)) := by
  after_results_simp
  try simp only [TRef.ofBuf, TRef.toBuf, cast_eq]
  rfl

/-! ### The chain -/

/-- The fold at the result buffer, from any contents: the reference's function of the contents of the twelve argument buffers. -/
theorem result_gen (V : Valuation τ sig (Elt Ideal)) :
    StableHlo.after (rops (F := Ideal)) V (Proc.devRef .tc main_v186)
      = rRes (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold rRes
  rw [fold_eq, c5_out]
  rw [c4_out, keep4 _ main_v3 (by decide), keep4 _ main_arg11 (by decide), keep4 _ main_arg3 (by decide)]
  rw [c3_out, keep3 _ main_v1 (by decide), keep3 _ main_v3 (by decide), keep3 _ main_arg3 (by decide), keep3 _ main_arg5 (by decide), keep3 _ main_arg6 (by decide), keep3 _ main_arg7 (by decide), keep3 _ main_arg8 (by decide), keep3 _ main_arg9 (by decide), keep3 _ main_arg10 (by decide), keep3 _ main_arg11 (by decide)]
  rw [c2_out, keep2 _ main_v1 (by decide), keep2 _ main_v3 (by decide), keep2 _ main_arg3 (by decide), keep2 _ main_arg5 (by decide), keep2 _ main_arg6 (by decide), keep2 _ main_arg7 (by decide), keep2 _ main_arg8 (by decide), keep2 _ main_arg9 (by decide), keep2 _ main_arg10 (by decide), keep2 _ main_arg11 (by decide)]
  rw [c1_out, keep1 _ main_v1 (by decide), keep1 _ main_v3 (by decide), keep1 _ main_arg3 (by decide), keep1 _ main_arg5 (by decide), keep1 _ main_arg6 (by decide), keep1 _ main_arg7 (by decide), keep1 _ main_arg8 (by decide), keep1 _ main_arg9 (by decide), keep1 _ main_arg10 (by decide), keep1 _ main_arg11 (by decide)]
  rw [c0_out, c0_row, c0_col, keep0 _ main_arg3 (by decide), keep0 _ main_arg5 (by decide), keep0 _ main_arg6 (by decide), keep0 _ main_arg7 (by decide), keep0 _ main_arg8 (by decide), keep0 _ main_arg9 (by decide), keep0 _ main_arg10 (by decide), keep0 _ main_arg11 (by decide)]

/-- A buffer that no stretch writes keeps its contents through the whole fold. -/
theorem kept_gen (V : Valuation τ sig (Elt Ideal)) (r : Ref sig .tc) (h0 : r ∉ W0) (h1 : r ∉ W1) (h2 : r ∉ W2) (h3 : r ∉ W3)
    (h4 : r ∉ W4) (h5 : r ∉ W5) :
    StableHlo.after (rops (F := Ideal)) V (Proc.devRef .tc r) = V (Proc.devRef .tc r) := by
  rw [fold_eq, keep5 _ r h5, keep4 _ r h4, keep3 _ r h3, keep2 _ r h2, keep1 _ r h1, keep0 _ r h0]

variable (m : (ℓ : Loc nD τ sig) → Buf (Elt Ideal) ℓ)

/-- The fold of the reference's operations over the launch contents, at the result buffer: the reference's function of the arguments. -/
theorem result (c : Dev nD) :
    StableHlo.after (rops (F := Ideal)) (launchContents m c) (Proc.devRef .tc main_v186)
      = rRes (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) :=
  result_gen (launchContents m c)

/-! No operation writes an argument. -/

theorem kept0 (c : Dev nD) :
    StableHlo.after (rops (F := Ideal)) (launchContents m c) (Proc.devRef .tc main_arg0) = m ((c.tc : Thread nD τ).loc main_arg0) :=
  kept_gen (launchContents m c) main_arg0 (by decide) (by decide) (by decide) (by decide) (by decide) (by decide)

theorem kept1 (c : Dev nD) :
    StableHlo.after (rops (F := Ideal)) (launchContents m c) (Proc.devRef .tc main_arg1) = m ((c.tc : Thread nD τ).loc main_arg1) :=
  kept_gen (launchContents m c) main_arg1 (by decide) (by decide) (by decide) (by decide) (by decide) (by decide)

theorem kept2 (c : Dev nD) :
    StableHlo.after (rops (F := Ideal)) (launchContents m c) (Proc.devRef .tc main_arg2) = m ((c.tc : Thread nD τ).loc main_arg2) :=
  kept_gen (launchContents m c) main_arg2 (by decide) (by decide) (by decide) (by decide) (by decide) (by decide)

theorem kept3 (c : Dev nD) :
    StableHlo.after (rops (F := Ideal)) (launchContents m c) (Proc.devRef .tc main_arg3) = m ((c.tc : Thread nD τ).loc main_arg3) :=
  kept_gen (launchContents m c) main_arg3 (by decide) (by decide) (by decide) (by decide) (by decide) (by decide)

theorem kept4 (c : Dev nD) :
    StableHlo.after (rops (F := Ideal)) (launchContents m c) (Proc.devRef .tc main_arg4) = m ((c.tc : Thread nD τ).loc main_arg4) :=
  kept_gen (launchContents m c) main_arg4 (by decide) (by decide) (by decide) (by decide) (by decide) (by decide)

theorem kept5 (c : Dev nD) :
    StableHlo.after (rops (F := Ideal)) (launchContents m c) (Proc.devRef .tc main_arg5) = m ((c.tc : Thread nD τ).loc main_arg5) :=
  kept_gen (launchContents m c) main_arg5 (by decide) (by decide) (by decide) (by decide) (by decide) (by decide)

theorem kept6 (c : Dev nD) :
    StableHlo.after (rops (F := Ideal)) (launchContents m c) (Proc.devRef .tc main_arg6) = m ((c.tc : Thread nD τ).loc main_arg6) :=
  kept_gen (launchContents m c) main_arg6 (by decide) (by decide) (by decide) (by decide) (by decide) (by decide)

theorem kept7 (c : Dev nD) :
    StableHlo.after (rops (F := Ideal)) (launchContents m c) (Proc.devRef .tc main_arg7) = m ((c.tc : Thread nD τ).loc main_arg7) :=
  kept_gen (launchContents m c) main_arg7 (by decide) (by decide) (by decide) (by decide) (by decide) (by decide)

theorem kept8 (c : Dev nD) :
    StableHlo.after (rops (F := Ideal)) (launchContents m c) (Proc.devRef .tc main_arg8) = m ((c.tc : Thread nD τ).loc main_arg8) :=
  kept_gen (launchContents m c) main_arg8 (by decide) (by decide) (by decide) (by decide) (by decide) (by decide)

theorem kept9 (c : Dev nD) :
    StableHlo.after (rops (F := Ideal)) (launchContents m c) (Proc.devRef .tc main_arg9) = m ((c.tc : Thread nD τ).loc main_arg9) :=
  kept_gen (launchContents m c) main_arg9 (by decide) (by decide) (by decide) (by decide) (by decide) (by decide)

theorem kept10 (c : Dev nD) :
    StableHlo.after (rops (F := Ideal)) (launchContents m c) (Proc.devRef .tc main_arg10) = m ((c.tc : Thread nD τ).loc main_arg10) :=
  kept_gen (launchContents m c) main_arg10 (by decide) (by decide) (by decide) (by decide) (by decide) (by decide)

theorem kept11 (c : Dev nD) :
    StableHlo.after (rops (F := Ideal)) (launchContents m c) (Proc.devRef .tc main_arg11) = m ((c.tc : Thread nD τ).loc main_arg11) :=
  kept_gen (launchContents m c) main_arg11 (by decide) (by decide) (by decide) (by decide) (by decide) (by decide)

end Cert.RVal

end
-- ==== Proof.RRunValue.lean ====
import proofs.«420250_j79482664779988_1_alg».proof.Proof.RRun
import proofs.«420250_j79482664779988_1_alg».proof.Proof.RChain

noncomputable section

namespace Cert.RVal

open Idealize.ShloMosaic Idealize.ShloMosaic.TcCoe Idealize.SL.Sem Idealize.ShloMosaic.StableHlo
open Cert.ReferenceIdeal Cert.Spec

variable [Cert.KernelIdeal.Facts] [Cert.ReferenceIdeal.Facts]
variable (m : (ℓ : Loc nD τ sig) → Buf (Elt Ideal) ℓ) (ρ : Dev nD → PrngReg)

/-- The reference program runs, and its result buffer ends at the reference's function of the arguments. -/
theorem run_value : θ_run (defs (F := Ideal)) (onTc (τ := τ) (main (F := Ideal))) ⟨m, fun _ => 0, ρ⟩ (fun r => ∀ c : Dev nD,
      r.2.mem ((c.tc : Thread nD τ).loc main_v186) = rRes (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run _ _ _).mono (fun r h c => ⟨(h c main_v186).trans (result m c),
      (h c main_arg0).trans (kept0 m c), (h c main_arg1).trans (kept1 m c), (h c main_arg2).trans (kept2 m c),
      (h c main_arg3).trans (kept3 m c), (h c main_arg4).trans (kept4 m c), (h c main_arg5).trans (kept5 m c),
      (h c main_arg6).trans (kept6 m c), (h c main_arg7).trans (kept7 m c), (h c main_arg8).trans (kept8 m c),
      (h c main_arg9).trans (kept9 m c), (h c main_arg10).trans (kept10 m c), (h c main_arg11).trans (kept11 m c)⟩)
    (run_after m ρ)

end Cert.RVal

end
-- ==== Proof.Fill.lean ====
import proofs.«420250_j79482664779988_1_alg».proof.Proof.Spec
import Idealize.ShloMosaic.PureOps.Reduce

noncomputable section

namespace Cert.Eq

open Idealize.ShloMosaic Idealize.ShloMosaic.ValueIdx Cert.KernelIdeal Cert.Spec

/-! ## Reading a broadcast, a word compare and an all-ones conjunction at an index -/

/-- A vector laid along the first axis of an [n × m] rectangle reads, at (p, q), the vector at p. -/
theorem bcast_vec_rows {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- A word that is not negative is not below zero. -/
theorem slt_zero_of_nonneg (w : BitVec 32) (hw : 0 ≤ w.toInt) : IntOp.cmpi .slt w 0#32 = 0#1 := by
  have h0 : (0#32 : BitVec 32).toInt = 0 := by decide
  simp only [IntOp.cmpi, BitVec.slt, h0]
  rw [decide_eq_false (by omega)]
  rfl

/-- A word that is not negative is at least zero. -/
theorem sge_zero_of_nonneg (w : BitVec 32) (hw : 0 ≤ w.toInt) : IntOp.cmpi .sge w 0#32 = 1#1 := by
  have h0 : (0#32 : BitVec 32).toInt = 0 := by decide
  simp only [IntOp.cmpi, BitVec.sle, h0]
  rw [decide_eq_true hw]
  rfl

/-- A word below 50000 is at most 49999. -/
theorem sle_last_of_lt (w : BitVec 32) (hw : w.toInt < 50000) : IntOp.cmpi .sle w 49999#32 = 1#1 := by
  have h0 : (49999#32 : BitVec 32).toInt = 49999 := by decide
  simp only [IntOp.cmpi, BitVec.sle, h0]
  rw [decide_eq_true (by omega)]
  rfl

/-- A conjunction of bits that are all 1, from 1, is 1. -/
theorem foldl_andi_one {β : Type} (g : β → BitVec 1) (hg : ∀ n, g n = 1#1) (l : List β) :
    l.foldl (fun r n => IntOp.andi r (g n)) 1#1 = 1#1 := by
  induction l with
  | nil => rfl
  | cons a l ih =>
    rw [List.foldl_cons, hg a, show IntOp.andi 1#1 1#1 = 1#1 from by decide]
    exact ih

/-- The conjunction over any axes of an array of bits that are all 1, from 1, is 1 everywhere. -/
theorem reduce_andi_all_one {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_one (fun i => x i) hx _

variable [Cert.KernelIdeal.Facts] [Cert.ReferenceIdeal.Facts]

/-! ## The index wrap and the range test where every index names a row -/

/-- An index that names a row is not negative, so the wrap leaves it. -/
theorem wrap_apply (row : IVec S200000 32) (h : InRange row) (k : Fin 200000) : wrap row (ix1 k) = row (ix1 k) := by
  show Scalar.select (IntOp.cmpi .slt (row (ix1 k)) 0#32) (IntOp.addi (row (ix1 k)) 50000#32) (row (ix1 k)) = row (ix1 k)
  rw [slt_zero_of_nonneg _ (h k).1, select_zero]

/-- The wrapped indices as a column: entry (k, 0) is index k. -/
theorem wrapIdx_apply (row : IVec S200000 32) (h : InRange row) (k : Fin 200000) (c : Fin 1) :
    wrapIdx row (ix2 k c) = row (ix1 k) := by
  unfold wrapIdx
  rw [bcast_vec_rows, wrap_apply row h k]

/-- Every index passes the range test. -/
theorem inRange_apply (row : IVec S200000 32) (h : InRange row) (k : Fin 200000) : inRange row (ix1 k) = 1#1 := by
  unfold inRange
  refine reduce_andi_all_one _ _ _ _ ?_ (fun _ => rfl) _
  intro i
  obtain ⟨k', c, rfl⟩ : ∃ (k' : Fin 200000) (c : Fin 1), i = ix2 k' c := ⟨i 0, i 1, eq_ix2 i⟩
  show IntOp.andi (IntOp.cmpi .sge (wrapIdx row (ix2 k' c)) 0#32) (IntOp.cmpi .sle (wrapIdx row (ix2 k' c)) 49999#32) = 1#1
  rw [wrapIdx_apply row h, sge_zero_of_nonneg _ (h k').1, sle_last_of_lt _ (h k').2]
  decide

/-! ## The two fetches agree -/

/-- Where every index names a row of the array, the gather that fills rows outside it fetches the same rows as the one that clamps. -/
theorem fill74_eq (x : FVec Ideal S50000x74 .f32) (row : IVec S200000 32) (h : InRange row) : fill74 x row = fetch74 x row := by
  funext i
  obtain ⟨k, j, rfl⟩ : ∃ (k : Fin 200000) (j : Fin 74), i = ix2 k j := ⟨i 0, i 1, eq_ix2 i⟩
  unfold fill74
  rw [select_apply, bcast_vec_rows, inRange_apply row h k, select_one]

theorem fill200_eq (a : FVec Ideal S50000x200 .f32) (row : IVec S200000 32) (h : InRange row) : fill200 a row = fetch200 a row := by
  funext i
  obtain ⟨k, j, rfl⟩ : ∃ (k : Fin 200000) (j : Fin 200), i = ix2 k j := ⟨i 0, i 1, eq_ix2 i⟩
  unfold fill200
  rw [select_apply, bcast_vec_rows, inRange_apply row h k, select_one]

end Cert.Eq
end
-- ==== Proof.LayerEq.lean ====
import proofs.«420250_j79482664779988_1_alg».proof.Proof.Spec
import proofs.«420250_j79482664779988_1_alg».proof.Proof.Fill
import Mathlib.Data.EReal.Basic
import Mathlib.Data.EReal.Operations
import Mathlib.Data.EReal.Inv
import Mathlib.Analysis.SpecialFunctions.Pow.Real
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Eq

open Idealize.ShloMosaic Idealize.ShloMosaic.ValueIdx Cert.KernelIdeal Cert.Spec
open Cert.KernelIdeal.Facts₀

variable [Cert.KernelIdeal.Facts] [Cert.ReferenceIdeal.Facts]

namespace Layer

/-! ## Three facts about extended reals -/

/-- The affine map in its two arrangements: for any extended real H and real μ, s, β,
    (H - μ)·s + β = H·s + (β - μ·s). At H = ±∞ both sides are the infinity of the sign of ±s (or β at s = 0);
    the reals are needed for μ, s, β because the extended reals do not distribute in general. -/
theorem affine_eq (H : EReal) (μ s β : ℝ) :
    (H - (μ : EReal)) * (s : EReal) + (β : EReal) = H * (s : EReal) + ((β : EReal) - (μ : EReal) * (s : EReal)) := by
  induction H using EReal.rec with
  | bot =>
    rw [EReal.bot_sub]
    rcases lt_trichotomy s 0 with hs | hs | hs
    · rw [EReal.bot_mul_coe_of_neg hs]
      rw [← EReal.coe_mul, ← EReal.coe_sub, EReal.top_add_coe, EReal.top_add_coe]
    · subst hs
      simp
    · rw [EReal.bot_mul_coe_of_pos hs]
      rw [EReal.bot_add, EReal.bot_add]
  | coe h =>
    rw [← EReal.coe_sub, ← EReal.coe_mul, ← EReal.coe_add, ← EReal.coe_mul, ← EReal.coe_mul, ← EReal.coe_sub, ← EReal.coe_add]
    congr 1
    ring
  | top =>
    rw [EReal.top_sub_coe]
    rcases lt_trichotomy s 0 with hs | hs | hs
    · rw [EReal.top_mul_coe_of_neg hs]
      rw [EReal.bot_add, EReal.bot_add]
    · subst hs
      simp
    · rw [EReal.top_mul_coe_of_pos hs]
      rw [← EReal.coe_mul, ← EReal.coe_sub, EReal.top_add_coe, EReal.top_add_coe]

/-- Twice an extended real is its sum with itself, at the infinities too. -/
theorem two_mul_eq (x : EReal) : ((2 : ℝ) : EReal) * x = x + x := by
  induction x using EReal.rec with
  | bot => rw [EReal.coe_mul_bot_of_pos (by norm_num)]; rfl
  | coe r => rw [← EReal.coe_mul, ← EReal.coe_add, two_mul]
  | top => rw [EReal.coe_mul_top_of_pos (by norm_num)]; rfl

/-- The word 0x40000000 denotes the real 2. -/
theorem ofBits_two : Ideal.ofBits .f32 0x40000000#32 = ((2 : ℝ) : EReal) := by
  simp [Ideal.ofBits, Ideal.ieee, -EReal.coe_mul]; norm_num

/-- The word of ε denotes a positive real (10995116 · 2⁻⁴⁰). -/
theorem ofBits_eps : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

/-- γ / √(v + ε) is a real for real γ, real v ≥ 0 and real ε > 0: the root is of a positive real, so it is a
    positive real and the quotient is the product with its reciprocal. -/
theorem scale_real (γ v ε : ℝ) (hv : 0 ≤ v) (hε : 0 < ε) :
    ∃ s : ℝ, Ideal.div (γ : EReal) (Ideal.sqrt ((v : EReal) + (ε : EReal))) = (s : EReal) := by
  have hpos : 0 < v + ε := by linarith
  rw [← EReal.coe_add, Ideal.sqrt_coe, if_neg (not_lt.2 hpos.le)]
  have hs : Real.sqrt (v + ε) ≠ 0 := (Real.sqrt_pos.2 hpos).ne'
  rw [Ideal.div_coe hs, ← EReal.coe_mul]
  exact ⟨_, rfl⟩

/-! ## The arrays of a layer read at an entry -/

/-- The zero array reads the zero word's extended real everywhere. -/
theorem zeros_apply (i : S200000x200.Idx) :
    broadcastInDim S200000x200 ![] bcast_S_S200000x200 (constant (F := Ideal) S_ .f32 0x00000000#32) i = z0 := rfl

/-- The slope array reads the slope word's extended real everywhere. -/
theorem slopes_apply (i : S200000x200.Idx) :
    broadcastInDim S200000x200 ![] bcast_S_S200000x200 (constant (F := Ideal) S_ .f32 0x3C23D70A#32) i = Cert.Spec.slope := rfl

/-- The ε vector reads ε's extended real everywhere. -/
theorem eps_apply (i : S200.Idx) :
    broadcastInDim S200 ![] bcast_S_S200 (constant (F := Ideal) S_ .f32 0x3727C5AC#32) i = Ideal.ofBits .f32 0x3727C5AC#32 := rfl

/-- A channel vector laid over every edge reads, at (k, j), the vector at j. -/
theorem overEdges_apply (v : FVec Ideal S200 .f32) (k : Fin 200000) (j : Fin 200) : overEdges v (ix2 k j) = v (ix1 j) := by
  unfold overEdges
  refine (broadcastInDim_apply _ Cert.ReferenceIdeal.Facts₀.bcast_S1x200_S200000x200_0_1 _ (ix2 k j) (ix2 (0 : Fin 1) j) (fun a => ?_)).trans ?_
  · match a with
    | ⟨0, _⟩ => rfl
    | ⟨1, _⟩ => show j.val = if (200 : Nat) = 1 then 0 else j.val; rw [if_neg (by decide)]
  · refine broadcastInDim_apply _ Cert.ReferenceIdeal.Facts₀.bcast_S200_S1x200_1 v (ix2 (0 : Fin 1) j) (ix1 j) (fun a => ?_)
    match a with
    | ⟨0, _⟩ => show j.val = if (200 : Nat) = 1 then 0 else j.val; rw [if_neg (by decide)]

/-- A channel vector as a one-row matrix reads, at (0, j), the vector at j. -/
theorem asRow_apply (v : FVec Ideal S200 .f32) (j : Fin 200) : asRow v (ix2 (0 : Fin 1) j) = v (ix1 j) := by
  unfold asRow
  exact shapeCast_a_1a_apply v shapeCasts_S200_S1x200 0 j

/-- The transposed weight reads, at (f, j), the weight at (j, f). -/
theorem tr200_apply (w : FVec Ideal S200x200 .f32) (f j : Fin 200) : tr200 w (ix2 f j) = w (ix2 j f) := by
  unfold tr200
  exact transpose_apply [1, 0] w transposes_S200x200_S200x200_1_0 (ix2 f j) (ix2 j f) (fun b => match b with
    | ⟨0, _⟩ => rfl
    | ⟨1, _⟩ => rfl)

/-! ### The host product's operand indices: at result entry i and contraction index q, (i 0, q) on the left and (q, i 1) on the right -/

theorem dot_lhs_0 (i : Cert.ReferenceIdeal.S200000x200.Idx) (q : Cert.ReferenceIdeal.dot_S200000x200_S200x200_S200000x200_1_0_0_1_n_n.contr.Idx) :
    (Cert.ReferenceIdeal.dot_S200000x200_S200x200_S200000x200_1_0_0_1_n_n.lhsIdx i q 0).val = (i 0).val := by
  unfold DotDims.lhsIdx
  rw [dif_neg (show ¬(0 : Fin Cert.ReferenceIdeal.S200000x200.rank) ∈ Cert.ReferenceIdeal.dot_S200000x200_S200x200_S200000x200_1_0_0_1_n_n.lhsBatch from List.not_mem_nil), dif_pos (show (0 : Fin Cert.ReferenceIdeal.S200000x200.rank) ∈ Cert.ReferenceIdeal.dot_S200000x200_S200x200_S200000x200_1_0_0_1_n_n.lhsNonContracting from List.mem_singleton.2 rfl)]
  rfl
theorem dot_lhs_1 (i : Cert.ReferenceIdeal.S200000x200.Idx) (q : Cert.ReferenceIdeal.dot_S200000x200_S200x200_S200000x200_1_0_0_1_n_n.contr.Idx) :
    (Cert.ReferenceIdeal.dot_S200000x200_S200x200_S200000x200_1_0_0_1_n_n.lhsIdx i q 1).val = (q ⟨0, Nat.one_pos⟩).val :=
  Cert.ReferenceIdeal.dot_S200000x200_S200x200_S200000x200_1_0_0_1_n_n.lhsIdx_val_of_single rfl i q
theorem dot_rhs_0 (i : Cert.ReferenceIdeal.S200000x200.Idx) (q : Cert.ReferenceIdeal.dot_S200000x200_S200x200_S200000x200_1_0_0_1_n_n.contr.Idx) :
    (Cert.ReferenceIdeal.dot_S200000x200_S200x200_S200000x200_1_0_0_1_n_n.rhsIdx i q 0).val = (q ⟨0, Nat.one_pos⟩).val :=
  Cert.ReferenceIdeal.dot_S200000x200_S200x200_S200000x200_1_0_0_1_n_n.rhsIdx_val_of_single rfl i q
theorem dot_rhs_1 (i : Cert.ReferenceIdeal.S200000x200.Idx) (q : Cert.ReferenceIdeal.dot_S200000x200_S200x200_S200000x200_1_0_0_1_n_n.contr.Idx) :
    (Cert.ReferenceIdeal.dot_S200000x200_S200x200_S200000x200_1_0_0_1_n_n.rhsIdx i q 1).val = (i 1).val := by
  unfold DotDims.rhsIdx
  rw [dif_neg (show ¬(1 : Fin Cert.ReferenceIdeal.S200x200.rank) ∈ Cert.ReferenceIdeal.dot_S200000x200_S200x200_S200000x200_1_0_0_1_n_n.rhsBatch from List.not_mem_nil), dif_pos (show (1 : Fin Cert.ReferenceIdeal.S200x200.rank) ∈ Cert.ReferenceIdeal.dot_S200000x200_S200x200_S200000x200_1_0_0_1_n_n.rhsNonContracting from List.mem_singleton.2 rfl)]
  rfl

/-- The host product of an [edges, 200] array with a [200, 200] array reads, at (k, j), Σ_f lhs(k, f) · rhs(f, j). -/
theorem dot_apply (lhs : FVec Ideal S200000x200 .f32) (rhs : FVec Ideal S200x200 .f32) (k : Fin 200000) (j : Fin 200) :
    Host.dotGeneral Cert.ReferenceIdeal.dot_S200000x200_S200x200_S200000x200_1_0_0_1_n_n none lhs rhs (ix2 k j)
      = ∑ f : Fin 200, lhs (ix2 k f) * rhs (ix2 f j) := by
  simp only [Host.dotGeneral]
  rw [Ideal.dotGeneral_apply, ← Equiv.sum_comp (ValueIdx.contrEquiv1 Cert.ReferenceIdeal.dot_S200000x200_S200x200_S200000x200_1_0_0_1_n_n 200 rfl rfl).symm]
  refine Finset.sum_congr rfl fun f _ => ?_
  have hk := ValueIdx.contrEquiv1_symm_val Cert.ReferenceIdeal.dot_S200000x200_S200x200_S200000x200_1_0_0_1_n_n 200 rfl rfl f
  have el : Cert.ReferenceIdeal.dot_S200000x200_S200x200_S200000x200_1_0_0_1_n_n.lhsIdx (ix2 k j) ((ValueIdx.contrEquiv1 Cert.ReferenceIdeal.dot_S200000x200_S200x200_S200000x200_1_0_0_1_n_n 200 rfl rfl).symm f) = ix2 k f :=
    funext fun a => Fin.ext (by
      match a with
      | ⟨0, _⟩ => exact dot_lhs_0 _ _
      | ⟨1, _⟩ => exact (dot_lhs_1 _ _).trans hk)
  have er : Cert.ReferenceIdeal.dot_S200000x200_S200x200_S200000x200_1_0_0_1_n_n.rhsIdx (ix2 k j) ((ValueIdx.contrEquiv1 Cert.ReferenceIdeal.dot_S200000x200_S200x200_S200000x200_1_0_0_1_n_n 200 rfl rfl).symm f) = ix2 f j :=
    funext fun a => Fin.ext (by
      match a with
      | ⟨0, _⟩ => exact (dot_rhs_0 _ _).trans hk
      | ⟨1, _⟩ => exact dot_rhs_1 _ _)
  rw [el, er]

/-! ## A layer read at an entry -/

/-- The scale of a channel is a real: γ real, the variance a real ≥ 0, ε a positive real. -/
theorem scaleOf_real (a7 a10 : FVec Ideal S200 .f32) (h7 : IsReal a7) (h10 : IsReal a10) (hv : NonNeg a10) (j : Fin 200) :
    ∃ s : ℝ, scaleOf a7 a10 (ix1 j) = (s : EReal) := by
  obtain ⟨γ, hγ⟩ := h7 j
  obtain ⟨v, hvj⟩ := h10 j
  obtain ⟨ε, hε, heps⟩ := ofBits_eps
  have hv0 : 0 ≤ v := by
    have h := hv j
    rw [hvj] at h
    exact_mod_cast h
  have hdef : scaleOf a7 a10 (ix1 j)
      = Ideal.div (a7 (ix1 j)) (Ideal.sqrt (a10 (ix1 j) + Ideal.ofBits .f32 0x3727C5AC#32)) := rfl
  rw [hdef, hγ, hvj, heps]
  exact scale_real γ v ε hv0 hε

/-- The reference's rectified pre-activation at (k, j):
    max(((Σ_f (g - r)(k, f) · W(j, f) + b j) - μ j) · s j + β j, 0). -/
theorem rHidden_apply (row col : IVec S200000 32) (a5 : FVec Ideal S200x200 .f32) (a6 a7 a8 a9 a10 : FVec Ideal S200 .f32)
    (e : FVec Ideal S200000x200 .f32) (k : Fin 200000) (j : Fin 200) :
    rHidden row col a5 a6 a7 a8 a9 a10 e (ix2 k j)
      = max ((((∑ f : Fin 200, (fetch200 (agg col e) row (ix2 k f) - rev e (ix2 k f)) * a5 (ix2 j f)) + a6 (ix1 j))
          - a9 (ix1 j)) * scaleOf a7 a10 (ix1 j) + a8 (ix1 j)) z0 := by
  unfold rHidden
  rw [maximumf_apply, zeros_apply, addf_apply, mulf_apply, subf_apply, addf_apply, dot_apply,
    overEdges_apply, overEdges_apply, overEdges_apply, overEdges_apply]
  have hsum : (∑ f : Fin 200, subf (fetch200 (agg col e) row) (rev e) (ix2 k f) * tr200 a5 (ix2 f j))
      = ∑ f : Fin 200, (fetch200 (agg col e) row (ix2 k f) - rev e (ix2 k f)) * a5 (ix2 j f) :=
    Finset.sum_congr rfl fun f _ => by rw [subf_apply, tr200_apply]
  rw [hsum]

/-- The kernel's layer at (k, j) is twice the reference's rectified pre-activation there: the affine map's two
    arrangements agree because the mean, the scale and the shift of a channel are reals. -/
theorem kLayer_apply (row col : IVec S200000 32) (a5 : FVec Ideal S200x200 .f32) (a6 a7 a8 a9 a10 : FVec Ideal S200 .f32)
    (e : FVec Ideal S200000x200 .f32) (hrow : InRange row) (h7 : IsReal a7) (h8 : IsReal a8) (h9 : IsReal a9) (h10 : IsReal a10)
    (hv : NonNeg a10) (k : Fin 200000) (j : Fin 200) :
    kLayer row col a5 a6 a7 a8 a9 a10 e (ix2 k j)
      = ((2 : ℝ) : EReal) * rHidden row col a5 a6 a7 a8 a9 a10 e (ix2 k j) := by
  rw [rHidden_apply]
  unfold kLayer
  rw [fill200_eq _ _ hrow]
  show convAt _ _ _ _ _ _ k j = _
  unfold convAt
  rw [asRow_apply, asRow_apply, asRow_apply, subf_apply, mulf_apply, show two = ((2 : ℝ) : EReal) from ofBits_two]
  have hsum : (∑ f : Fin 200, (fetch200 (agg col e) row (ix2 k f) - rev e (ix2 k f)) * tr200 a5 (ix2 f j))
      = ∑ f : Fin 200, (fetch200 (agg col e) row (ix2 k f) - rev e (ix2 k f)) * a5 (ix2 j f) :=
    Finset.sum_congr rfl fun f _ => by rw [tr200_apply]
  rw [hsum]
  obtain ⟨s, hs⟩ := scaleOf_real a7 a10 h7 h10 hv j
  obtain ⟨μ, hμ⟩ := h9 j
  obtain ⟨β, hβ⟩ := h8 j
  rw [hs, hμ, hβ, affine_eq]

/-- The rectified pre-activation is at least the zero it is the maximum with. -/
theorem z0_le_rHidden (row col : IVec S200000 32) (a5 : FVec Ideal S200x200 .f32) (a6 a7 a8 a9 a10 : FVec Ideal S200 .f32)
    (e : FVec Ideal S200000x200 .f32) (k : Fin 200000) (j : Fin 200) :
    z0 ≤ rHidden row col a5 a6 a7 a8 a9 a10 e (ix2 k j) := by
  rw [rHidden_apply]
  exact le_max_right _ _

end Layer

open Layer

/-- A layer that is not the last: the kernel's arrangement and the reference's are one function of the edge state. -/
theorem kLayer_eq_rLayer (row col : IVec S200000 32) (a5 : FVec Ideal S200x200 .f32) (a6 a7 a8 a9 a10 : FVec Ideal S200 .f32)
    (e : FVec Ideal S200000x200 .f32) (hrow : InRange row) (h7 : IsReal a7) (h8 : IsReal a8) (h9 : IsReal a9) (h10 : IsReal a10)
    (hv : NonNeg a10) :
    kLayer row col a5 a6 a7 a8 a9 a10 e = rLayer row col a5 a6 a7 a8 a9 a10 e := by
  funext i
  obtain ⟨k, j, rfl⟩ : ∃ (k : Fin 200000) (j : Fin 200), i = ix2 k j := ⟨i 0, i 1, eq_ix2 i⟩
  rw [kLayer_apply row col a5 a6 a7 a8 a9 a10 e hrow h7 h8 h9 h10 hv k j]
  unfold rLayer
  rw [addf_apply, select_apply, cmpf_apply, zeros_apply]
  have hx := z0_le_rHidden row col a5 a6 a7 a8 a9 a10 e k j
  generalize rHidden row col a5 a6 a7 a8 a9 a10 e (ix2 k j) = x at hx ⊢
  -- x ≥ 0, so the leaky map takes x itself
  have hc : FloatOps.cmpf (F := Ideal) .oge x z0 = 1#1 := by
    show BitVec.ofBool (decide (z0 ≤ x)) = 1#1
    rw [decide_eq_true hx]
    rfl
  rw [hc, select_one]
  exact two_mul_eq x

/-- The last layer likewise. -/
theorem kLayer_eq_rLast (row col : IVec S200000 32) (a5 : FVec Ideal S200x200 .f32) (a6 a7 a8 a9 a10 : FVec Ideal S200 .f32)
    (e : FVec Ideal S200000x200 .f32) (hrow : InRange row) (h7 : IsReal a7) (h8 : IsReal a8) (h9 : IsReal a9) (h10 : IsReal a10)
    (hv : NonNeg a10) :
    kLayer row col a5 a6 a7 a8 a9 a10 e = rLast row col a5 a6 a7 a8 a9 a10 e := by
  funext i
  obtain ⟨k, j, rfl⟩ : ∃ (k : Fin 200000) (j : Fin 200), i = ix2 k j := ⟨i 0, i 1, eq_ix2 i⟩
  rw [kLayer_apply row col a5 a6 a7 a8 a9 a10 e hrow h7 h8 h9 h10 hv k j]
  unfold rLast
  rw [addf_apply]
  exact two_mul_eq _

end Cert.Eq
end
-- ==== Proof.InitEq.lean ====
import proofs.«420250_j79482664779988_1_alg».proof.Proof.Spec
import proofs.«420250_j79482664779988_1_alg».proof.Proof.Fill
import Idealize.ShloMosaic.Lib.Pipeline.Value
import Idealize.ShloMosaic.PureOps.Ideal.Laws

noncomputable section

namespace Cert.Eq

open Idealize.ShloMosaic Idealize.ShloMosaic.ValueIdx Cert.KernelIdeal Cert.Spec

variable [Cert.KernelIdeal.Facts] [Cert.ReferenceIdeal.Facts]

/-! ## A product of matrices read at an entry: the sum over the joined axis -/

section Dot87

theorem lhs87_0 (i : S200000x200.Idx) (q : Cert.ReferenceIdeal.dot_S200000x87_S87x200_S200000x200_1_0_0_1_n_n.contr.Idx) :
    (Cert.ReferenceIdeal.dot_S200000x87_S87x200_S200000x200_1_0_0_1_n_n.lhsIdx i q 0).val = (i 0).val := by
  unfold DotDims.lhsIdx
  rw [dif_neg (show ¬(0 : Fin Cert.ReferenceIdeal.S200000x87.rank) ∈ Cert.ReferenceIdeal.dot_S200000x87_S87x200_S200000x200_1_0_0_1_n_n.lhsBatch from List.not_mem_nil), dif_pos (show (0 : Fin Cert.ReferenceIdeal.S200000x87.rank) ∈ Cert.ReferenceIdeal.dot_S200000x87_S87x200_S200000x200_1_0_0_1_n_n.lhsNonContracting from List.mem_singleton.mpr rfl)]
  rfl
theorem lhs87_1 (i : S200000x200.Idx) (q : Cert.ReferenceIdeal.dot_S200000x87_S87x200_S200000x200_1_0_0_1_n_n.contr.Idx) :
    (Cert.ReferenceIdeal.dot_S200000x87_S87x200_S200000x200_1_0_0_1_n_n.lhsIdx i q 1).val = (q ⟨0, Nat.one_pos⟩).val :=
  Cert.ReferenceIdeal.dot_S200000x87_S87x200_S200000x200_1_0_0_1_n_n.lhsIdx_val_of_single rfl i q
theorem rhs87_0 (i : S200000x200.Idx) (q : Cert.ReferenceIdeal.dot_S200000x87_S87x200_S200000x200_1_0_0_1_n_n.contr.Idx) :
    (Cert.ReferenceIdeal.dot_S200000x87_S87x200_S200000x200_1_0_0_1_n_n.rhsIdx i q 0).val = (q ⟨0, Nat.one_pos⟩).val :=
  Cert.ReferenceIdeal.dot_S200000x87_S87x200_S200000x200_1_0_0_1_n_n.rhsIdx_val_of_single rfl i q
theorem rhs87_1 (i : S200000x200.Idx) (q : Cert.ReferenceIdeal.dot_S200000x87_S87x200_S200000x200_1_0_0_1_n_n.contr.Idx) :
    (Cert.ReferenceIdeal.dot_S200000x87_S87x200_S200000x200_1_0_0_1_n_n.rhsIdx i q 1).val = (i 1).val := by
  unfold DotDims.rhsIdx
  rw [dif_neg (show ¬(1 : Fin Cert.ReferenceIdeal.S87x200.rank) ∈ Cert.ReferenceIdeal.dot_S200000x87_S87x200_S200000x200_1_0_0_1_n_n.rhsBatch from List.not_mem_nil), dif_pos (show (1 : Fin Cert.ReferenceIdeal.S87x200.rank) ∈ Cert.ReferenceIdeal.dot_S200000x87_S87x200_S200000x200_1_0_0_1_n_n.rhsNonContracting from List.mem_singleton.mpr rfl)]
  rfl

/-- Entry (k, j) of the product of a [200000 × 87] and an [87 × 200] matrix is Σ_f x(k, f) · y(f, j). -/
theorem dot87_apply (x : FVec Ideal Cert.ReferenceIdeal.S200000x87 .f32) (y : FVec Ideal Cert.ReferenceIdeal.S87x200 .f32)
    (k : Fin 200000) (j : Fin 200) :
    Host.dotGeneral Cert.ReferenceIdeal.dot_S200000x87_S87x200_S200000x200_1_0_0_1_n_n none x y (ix2 k j)
      = ∑ f : Fin 87, x (ix2 k f) * y (ix2 f j) := by
  simp only [Host.dotGeneral]
  rw [Ideal.dotGeneral_apply, ← Equiv.sum_comp (contrEquiv1 Cert.ReferenceIdeal.dot_S200000x87_S87x200_S200000x200_1_0_0_1_n_n 87 rfl rfl).symm]
  refine Finset.sum_congr rfl fun f _ => ?_
  have hk := contrEquiv1_symm_val Cert.ReferenceIdeal.dot_S200000x87_S87x200_S200000x200_1_0_0_1_n_n 87 rfl rfl f
  have el : Cert.ReferenceIdeal.dot_S200000x87_S87x200_S200000x200_1_0_0_1_n_n.lhsIdx (ix2 k j) ((contrEquiv1 Cert.ReferenceIdeal.dot_S200000x87_S87x200_S200000x200_1_0_0_1_n_n 87 rfl rfl).symm f) = ix2 k f := funext fun a => Fin.ext (by
    match a with
    | ⟨0, _⟩ => exact lhs87_0 _ _
    | ⟨1, _⟩ => exact (lhs87_1 _ _).trans hk)
  have er : Cert.ReferenceIdeal.dot_S200000x87_S87x200_S200000x200_1_0_0_1_n_n.rhsIdx (ix2 k j) ((contrEquiv1 Cert.ReferenceIdeal.dot_S200000x87_S87x200_S200000x200_1_0_0_1_n_n 87 rfl rfl).symm f) = ix2 f j := funext fun a => Fin.ext (by
    match a with
    | ⟨0, _⟩ => exact (rhs87_0 _ _).trans hk
    | ⟨1, _⟩ => exact rhs87_1 _ _)
  rw [el, er]

end Dot87

section Dot200

theorem lhs200_0 (i : S50000x200.Idx) (q : Cert.ReferenceIdeal.dot_S50000x200_S200x200_S50000x200_1_0_0_1_n_n.contr.Idx) :
    (Cert.ReferenceIdeal.dot_S50000x200_S200x200_S50000x200_1_0_0_1_n_n.lhsIdx i q 0).val = (i 0).val := by
  unfold DotDims.lhsIdx
  rw [dif_neg (show ¬(0 : Fin S50000x200.rank) ∈ Cert.ReferenceIdeal.dot_S50000x200_S200x200_S50000x200_1_0_0_1_n_n.lhsBatch from List.not_mem_nil), dif_pos (show (0 : Fin S50000x200.rank) ∈ Cert.ReferenceIdeal.dot_S50000x200_S200x200_S50000x200_1_0_0_1_n_n.lhsNonContracting from List.mem_singleton.mpr rfl)]
  rfl
theorem lhs200_1 (i : S50000x200.Idx) (q : Cert.ReferenceIdeal.dot_S50000x200_S200x200_S50000x200_1_0_0_1_n_n.contr.Idx) :
    (Cert.ReferenceIdeal.dot_S50000x200_S200x200_S50000x200_1_0_0_1_n_n.lhsIdx i q 1).val = (q ⟨0, Nat.one_pos⟩).val :=
  Cert.ReferenceIdeal.dot_S50000x200_S200x200_S50000x200_1_0_0_1_n_n.lhsIdx_val_of_single rfl i q
theorem rhs200_0 (i : S50000x200.Idx) (q : Cert.ReferenceIdeal.dot_S50000x200_S200x200_S50000x200_1_0_0_1_n_n.contr.Idx) :
    (Cert.ReferenceIdeal.dot_S50000x200_S200x200_S50000x200_1_0_0_1_n_n.rhsIdx i q 0).val = (q ⟨0, Nat.one_pos⟩).val :=
  Cert.ReferenceIdeal.dot_S50000x200_S200x200_S50000x200_1_0_0_1_n_n.rhsIdx_val_of_single rfl i q
theorem rhs200_1 (i : S50000x200.Idx) (q : Cert.ReferenceIdeal.dot_S50000x200_S200x200_S50000x200_1_0_0_1_n_n.contr.Idx) :
    (Cert.ReferenceIdeal.dot_S50000x200_S200x200_S50000x200_1_0_0_1_n_n.rhsIdx i q 1).val = (i 1).val := by
  unfold DotDims.rhsIdx
  rw [dif_neg (show ¬(1 : Fin S200x200.rank) ∈ Cert.ReferenceIdeal.dot_S50000x200_S200x200_S50000x200_1_0_0_1_n_n.rhsBatch from List.not_mem_nil), dif_pos (show (1 : Fin S200x200.rank) ∈ Cert.ReferenceIdeal.dot_S50000x200_S200x200_S50000x200_1_0_0_1_n_n.rhsNonContracting from List.mem_singleton.mpr rfl)]
  rfl

/-- Entry (n, j) of the product of a [50000 × 200] and a [200 × 200] matrix is Σ_f x(n, f) · y(f, j). -/
theorem dot200_apply (x : FVec Ideal S50000x200 .f32) (y : FVec Ideal S200x200 .f32) (n : Fin 50000) (j : Fin 200) :
    Host.dotGeneral Cert.ReferenceIdeal.dot_S50000x200_S200x200_S50000x200_1_0_0_1_n_n none x y (ix2 n j)
      = ∑ f : Fin 200, x (ix2 n f) * y (ix2 f j) := by
  simp only [Host.dotGeneral]
  rw [Ideal.dotGeneral_apply, ← Equiv.sum_comp (contrEquiv1 Cert.ReferenceIdeal.dot_S50000x200_S200x200_S50000x200_1_0_0_1_n_n 200 rfl rfl).symm]
  refine Finset.sum_congr rfl fun f _ => ?_
  have hk := contrEquiv1_symm_val Cert.ReferenceIdeal.dot_S50000x200_S200x200_S50000x200_1_0_0_1_n_n 200 rfl rfl f
  have el : Cert.ReferenceIdeal.dot_S50000x200_S200x200_S50000x200_1_0_0_1_n_n.lhsIdx (ix2 n j) ((contrEquiv1 Cert.ReferenceIdeal.dot_S50000x200_S200x200_S50000x200_1_0_0_1_n_n 200 rfl rfl).symm f) = ix2 n f := funext fun a => Fin.ext (by
    match a with
    | ⟨0, _⟩ => exact lhs200_0 _ _
    | ⟨1, _⟩ => exact (lhs200_1 _ _).trans hk)
  have er : Cert.ReferenceIdeal.dot_S50000x200_S200x200_S50000x200_1_0_0_1_n_n.rhsIdx (ix2 n j) ((contrEquiv1 Cert.ReferenceIdeal.dot_S50000x200_S200x200_S50000x200_1_0_0_1_n_n 200 rfl rfl).symm f) = ix2 f j := funext fun a => Fin.ext (by
    match a with
    | ⟨0, _⟩ => exact (rhs200_0 _ _).trans hk
    | ⟨1, _⟩ => exact rhs200_1 _ _)
  rw [el, er]

end Dot200

/-! ## The joined columns, the transposed weight and its two halves at an entry -/

/-- The first 74 of the 87 joined columns are the fetched rows. -/
theorem cat_left (xg : FVec Ideal S200000x74 .f32) (a1 : FVec Ideal S200000x13 .f32) (k : Fin 200000) (f : Fin 74) :
    concatenate Cert.ReferenceIdeal.S200000x87 1 [⟨S200000x74, xg⟩, ⟨S200000x13, a1⟩]
      Cert.ReferenceIdeal.Facts₀.concatenates_S200000x74_S200000x13_S200000x87_d1 (ix2 k (Fin.castAdd 13 f)) = xg (ix2 k f) :=
  concatenate_pair_apply_left (t := Cert.ReferenceIdeal.S200000x87) 1 xg a1
    Cert.ReferenceIdeal.Facts₀.concatenates_S200000x74_S200000x13_S200000x87_d1 (ix2 k (Fin.castAdd 13 f)) rfl (ix2 k f) (fun b => match b with
    | ⟨0, _⟩ => rfl
    | ⟨1, _⟩ => rfl)

/-- The last 13 of the 87 joined columns are the edge features. -/
theorem cat_right (xg : FVec Ideal S200000x74 .f32) (a1 : FVec Ideal S200000x13 .f32) (k : Fin 200000) (f : Fin 13) :
    concatenate Cert.ReferenceIdeal.S200000x87 1 [⟨S200000x74, xg⟩, ⟨S200000x13, a1⟩]
      Cert.ReferenceIdeal.Facts₀.concatenates_S200000x74_S200000x13_S200000x87_d1 (ix2 k (Fin.natAdd 74 f)) = a1 (ix2 k f) :=
  concatenate_pair_apply_right (t := Cert.ReferenceIdeal.S200000x87) 1 xg a1
    Cert.ReferenceIdeal.Facts₀.concatenates_S200000x74_S200000x13_S200000x87_d1 (ix2 k (Fin.natAdd 74 f)) rfl rfl (ix2 k f) (fun b => match b with
    | ⟨0, _⟩ => fun _ => rfl
    | ⟨1, _⟩ => fun hne => absurd rfl hne)
    (by show f.val + 74 = 74 + f.val; omega)

/-- The transposed weight at (f, j) is the weight at (j, f). -/
theorem tr87_apply (a4 : FVec Ideal S200x87 .f32) (f : Fin 87) (j : Fin 200) :
    transpose Cert.ReferenceIdeal.S87x200 [1, 0] a4 Cert.ReferenceIdeal.Facts₀.transposes_S200x87_S87x200_1_0 (ix2 f j) = a4 (ix2 j f) :=
  transpose_apply [1, 0] a4 _ (ix2 f j) (ix2 j f) (fun b => match b with
    | ⟨0, _⟩ => rfl
    | ⟨1, _⟩ => rfl)

/-- The first half of the weight, transposed: entry (f, j) is the weight at (j, f). -/
theorem w1Of_apply (a4 : FVec Ideal S200x87 .f32) (f : Fin 74) (j : Fin 200) :
    w1Of a4 (ix2 f j) = a4 (ix2 j (Fin.castAdd 13 f)) := by
  unfold w1Of
  refine (transpose_apply [1, 0] _ _ (ix2 f j) (ix2 j f) (fun b => match b with
    | ⟨0, _⟩ => rfl
    | ⟨1, _⟩ => rfl)).trans ?_
  exact extractStridedSlice_apply ![0, 0] a4 _ (ix2 j f) (ix2 j (Fin.castAdd 13 f)) (fun a => match a with
    | ⟨0, _⟩ => by show j.val = 0 + j.val; omega
    | ⟨1, _⟩ => by show f.val = 0 + f.val; omega)

/-- The second half of the weight, transposed: entry (f, j) is the weight at (j, 74 + f). -/
theorem w2Of_apply (a4 : FVec Ideal S200x87 .f32) (f : Fin 13) (j : Fin 200) :
    w2Of a4 (ix2 f j) = a4 (ix2 j (Fin.natAdd 74 f)) := by
  unfold w2Of
  refine (transpose_apply [1, 0] _ _ (ix2 f j) (ix2 j f) (fun b => match b with
    | ⟨0, _⟩ => rfl
    | ⟨1, _⟩ => rfl)).trans ?_
  exact extractStridedSlice_apply ![0, 74] a4 _ (ix2 j f) (ix2 j (Fin.natAdd 74 f)) (fun a => match a with
    | ⟨0, _⟩ => by show j.val = 0 + j.val; omega
    | ⟨1, _⟩ => by show 74 + f.val = 74 + f.val; rfl)

/-- The product over the 87 joined columns is the product over the first 74 plus the product over the last 13. -/
theorem dot87_split (xg : FVec Ideal S200000x74 .f32) (a1 : FVec Ideal S200000x13 .f32) (a4 : FVec Ideal S200x87 .f32)
    (k : Fin 200000) (j : Fin 200) :
    Host.dotGeneral Cert.ReferenceIdeal.dot_S200000x87_S87x200_S200000x200_1_0_0_1_n_n none
        (concatenate Cert.ReferenceIdeal.S200000x87 1 [⟨S200000x74, xg⟩, ⟨S200000x13, a1⟩] Cert.ReferenceIdeal.Facts₀.concatenates_S200000x74_S200000x13_S200000x87_d1)
        (transpose Cert.ReferenceIdeal.S87x200 [1, 0] a4 Cert.ReferenceIdeal.Facts₀.transposes_S200x87_S87x200_1_0) (ix2 k j)
      = (∑ f : Fin 74, xg (ix2 k f) * w1Of a4 (ix2 f j)) + (∑ f : Fin 13, a1 (ix2 k f) * w2Of a4 (ix2 f j)) := by
  rw [dot87_apply]
  refine (Fin.sum_univ_add (a := 74) (b := 13) _).trans ?_
  congr 1
  · refine Finset.sum_congr rfl fun f _ => ?_
    rw [cat_left, tr87_apply, w1Of_apply]
  · refine Finset.sum_congr rfl fun f _ => ?_
    rw [cat_right, tr87_apply, w2Of_apply]

/-! ## The first edge state and the nodes' linear map -/

/-- The first edge state: two products over 74 and 13 columns are the one product over the 87 joined columns. -/
theorem kInit_eq_rInit (a0 : FVec Ideal S50000x74 .f32) (a1 : FVec Ideal S200000x13 .f32) (row : IVec S200000 32)
    (a4 : FVec Ideal S200x87 .f32) (hrow : InRange row) : kInit a0 a1 row a4 = rInit a0 a1 row a4 := by
  unfold kInit rInit
  rw [fill74_eq a0 row hrow]
  generalize fetch74 a0 row = xg
  funext i
  obtain ⟨k, j, rfl⟩ : ∃ (k : Fin 200000) (j : Fin 200), i = ix2 k j := ⟨i 0, i 1, eq_ix2 i⟩
  rw [select_apply, cmpf_apply, mulf_apply, dot87_split]
  rfl

/-- The nodes' linear map: the kernel's row-by-row sums are the host's product. -/
theorem ffnE_eq_dot (h : FVec Ideal S50000x200 .f32) (w : FVec Ideal S200x200 .f32) :
    ffnE h w = Host.dotGeneral Cert.ReferenceIdeal.dot_S50000x200_S200x200_S50000x200_1_0_0_1_n_n none h w := by
  funext i
  obtain ⟨n, j, rfl⟩ : ∃ (n : Fin 50000) (j : Fin 200), i = ix2 n j := ⟨i 0, i 1, eq_ix2 i⟩
  rw [dot200_apply]
  rfl

end Cert.Eq
end
-- ==== Proof.Equal.lean ====
import proofs.«420250_j79482664779988_1_alg».proof.Proof.Spec
import proofs.«420250_j79482664779988_1_alg».proof.Proof.LayerEq
import proofs.«420250_j79482664779988_1_alg».proof.Proof.InitEq

noncomputable section

namespace Cert.Eq

open Idealize.ShloMosaic Idealize.ShloMosaic.ValueIdx Cert.KernelIdeal Cert.Spec

variable [Cert.KernelIdeal.Facts] [Cert.ReferenceIdeal.Facts]

/-- The two programs' results are one function of the arguments, where the source indices name nodes, the four
    normalisation vectors are real and the variance is non-negative. -/
theorem kRes_eq_rRes (a0 : FVec Ideal S50000x74 .f32) (a1 : FVec Ideal S200000x13 .f32) (a2 : IVec S2x200000 32) (a3 : IVec S50000 32)
    (a4 : FVec Ideal S200x87 .f32) (a5 : FVec Ideal S200x200 .f32) (a6 a7 a8 a9 a10 : FVec Ideal S200 .f32)
    (a11 : FVec Ideal S200x200 .f32) (hrow : RowsInRange a2) (h7 : IsReal a7) (h8 : IsReal a8) (h9 : IsReal a9)
    (h10 : IsReal a10) (hv : NonNeg a10) :
    kRes a0 a1 a2 a3 a4 a5 a6 a7 a8 a9 a10 a11 = rRes a0 a1 a2 a3 a4 a5 a6 a7 a8 a9 a10 a11 := by
  unfold kRes rRes
  -- the outermost layer is the last one; the three inside it are not
  rw [kInit_eq_rInit a0 a1 (rowOf a2) a4 hrow,
    kLayer_eq_rLast (rowOf a2) (colOf a2) a5 a6 a7 a8 a9 a10 _ hrow h7 h8 h9 h10 hv,
    kLayer_eq_rLayer (rowOf a2) (colOf a2) a5 a6 a7 a8 a9 a10 _ hrow h7 h8 h9 h10 hv,
    kLayer_eq_rLayer (rowOf a2) (colOf a2) a5 a6 a7 a8 a9 a10 _ hrow h7 h8 h9 h10 hv,
    kLayer_eq_rLayer (rowOf a2) (colOf a2) a5 a6 a7 a8 a9 a10 _ hrow h7 h8 h9 h10 hv,
    ffnE_eq_dot]

end Cert.Eq
end
-- ==== Proof.PreFacts.lean ====
import proofs.«420250_j79482664779988_1_alg».proof.Defs
import proofs.«420250_j79482664779988_1_alg».proof.Proof.Spec
import Idealize.ShloMosaic.Lib.ReduceAll

noncomputable section

namespace Cert.PreF

open Idealize.ShloMosaic Idealize.ShloMosaic.ValueIdx Idealize.SL.Sem Cert.KernelIdeal Cert.Spec

variable [Cert.KernelIdeal.Facts] [Cert.ReferenceIdeal.Facts] [Cert.Pre_finite_inputs.Facts]

/-- The scalar shape has one index. -/
instance : Subsingleton (⟨0, ![]⟩ : Shape).Idx := ⟨fun a b => funext fun d => d.elim0⟩

/-- An extended real whose absolute value max(x, -x) lies strictly below +∞ is neither infinity: it is a real number
    (at either infinity the maximum is +∞, which is not below itself). -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- An extended real that compares ≥ against the zero word is non-negative: the zero word denotes 0 and the
    comparison is the order's. -/
theorem nonneg_of_oge (x : EReal) (h : Ideal.cmp .oge x (Ideal.ofBits .f32 0x00000000#32) = 1#1) : 0 ≤ x := by
  have hz : Ideal.ofBits .f32 0x00000000#32 = 0 := by simp [Ideal.ofBits, Ideal.ieee]
  rw [hz] at h
  by_contra hx
  simp [Ideal.cmp, hx] at h

/-- A word that tests ≥ 0 and < 50000, both signed, reads signed as an integer of [0, 50000). -/
theorem range_of_words (w : BitVec 32)
    (h : IntOp.andi (IntOp.cmpi .sge w 0#32) (IntOp.cmpi .slt w 50000#32) = 1#1) : 0 ≤ w.toInt ∧ w.toInt < 50000 := by
  obtain ⟨h0, h1⟩ := IntOp.andi_eq_one.1 h
  rw [IntOp.cmpi_sge] at h0
  rw [IntOp.cmpi_slt] at h1
  have e0 : (0#32 : BitVec 32).toInt = 0 := by decide
  have e1 : (50000#32 : BitVec 32).toInt = 50000 := by decide
  omega

/-- What the precondition says of the arguments the proof reads it for: the source indices name nodes, the four
    normalisation vectors hold real numbers, and the variance is non-negative.

    The precondition is a conjunction of twelve tests, each "every element of an array passes": for a float array
    |x| < +∞, for row 0 of the edge list 0 ≤ w < 50000 signed, for the variance x ≥ 0.  A conjunction that is 1 has
    every conjunct 1; a test of every element that is 1 holds at each element; and each element test says of its
    element what the three lemmas above state. -/
theorem of_pre (m : (ℓ : Loc nD τ sig) → Buf (Elt Ideal) ℓ) (h : Cert.Pre_KernelIdeal m) (c : Dev nD) :
    RowsInRange (m ((c.tc : Thread nD τ).loc main_arg2))
    ∧ IsReal (m ((c.tc : Thread nD τ).loc main_arg7)) ∧ IsReal (m ((c.tc : Thread nD τ).loc main_arg8))
    ∧ IsReal (m ((c.tc : Thread nD τ).loc main_arg9)) ∧ IsReal (m ((c.tc : Thread nD τ).loc main_arg10))
    ∧ NonNeg (m ((c.tc : Thread nD τ).loc main_arg10)) := by
  have e := congrFun (h c) ValueIdx.ix0
  dsimp only [Cert.Pre_finite_inputs.fn, Cert.Pre_finite_inputs.fn_part1, Cert.Pre_finite_inputs.fn_part2,
    Cert.Pre_finite_inputs.fn_part3] at e
  change IntOp.andi _ _ = 1#1 at e
  simp only [andi, IntOp.andi_eq_one] at e
  -- the twelve conjuncts, in the order of the arguments 0, 1, 4, 5, 6, 7, 8, 9, 10, 11, then the index range, then the sign
  obtain ⟨⟨⟨⟨⟨⟨⟨⟨⟨⟨⟨-, -⟩, -⟩, -⟩, -⟩, h7⟩, h8⟩, h9⟩, h10⟩, -⟩, hidx⟩, hnn⟩ := e
  refine ⟨fun k => ?_, fun j => ?_, fun j => ?_, fun j => ?_, fun j => ?_, fun j => ?_⟩
  · exact range_of_words _ (Host.reduce_andi_all _ _ _ _ _ hidx (ix1 k))
  · exact real_of_abs_lt _ (Host.reduce_andi_all _ _ _ _ _ h7 (ix1 j))
  · exact real_of_abs_lt _ (Host.reduce_andi_all _ _ _ _ _ h8 (ix1 j))
  · exact real_of_abs_lt _ (Host.reduce_andi_all _ _ _ _ _ h9 (ix1 j))
  · exact real_of_abs_lt _ (Host.reduce_andi_all _ _ _ _ _ h10 (ix1 j))
  · exact nonneg_of_oge _ (Host.reduce_andi_all _ _ _ _ _ hnn (ix1 j))

end Cert.PreF

end
-- ==== Proof.lean ====
/-
  A message-passing network on the edges of a graph: a Pallas program of six kernel regions among host operations, against
  its plain reference, over the extended reals.

  Both programs compute the same chain: the first edge state (a leaky linear map of each edge's gathered source-node
  features beside its own features), four layers e ↦ act(BN((A(e)[row] - rev e) Wᵀ + b)) where A sums the edge states into
  their target nodes, rev swaps each edge with its reverse partner, BN is a per-channel affine map with scale
  γ / √(var + ε) and act doubles the positive part, then the sum into the nodes, a linear map, and the mean over each graph.

  They differ in four places, each harmless under the precondition:
  * a row fetched by an index outside the array is a junk value in the kernel and a clamped row in the reference: the
    source indices are required to name nodes, so no such row is fetched;
  * the first linear map is two products over 74 and 13 columns against one over the 87 joined columns: a sum split in two;
  * the affine map is h·s + (β - μ·s) against (h - μ)·s + β: equal for every extended real h once μ, s, β are real, and the
    scale s is real because γ and var are real and var ≥ 0 keeps √(var + ε) a positive real;
  * the doubling is 2·x against leaky(x) + x (x + x in the last layer) of an x = max(_, 0) ≥ 0: the leaky map fixes x, and
    2·x = x + x on the extended reals.
  The segment sums, the pair reversal and the pooling tail are the same operations on both sides and are never opened.

  The kernel's frames are the generated ones; its result is read off the same launch with the result buffer named, region by
  region (each region's output array as one function of the arrays it finds) and stretch by stretch of host operations.
  The reference's run is the fold of its operations over the launch memory, read chunk by chunk.
-/
import proofs.«420250_j79482664779988_1_alg».proof.Defs
import proofs.«420250_j79482664779988_1_alg».proof.Proof.Gen.Kernel
import proofs.«420250_j79482664779988_1_alg».proof.Proof.Gen.Kernel.Frame
import proofs.«420250_j79482664779988_1_alg».proof.Proof.Gen.KernelIdeal
import proofs.«420250_j79482664779988_1_alg».proof.Proof.Gen.KernelIdeal.Frame
import proofs.«420250_j79482664779988_1_alg».proof.Proof.Gen.ReferenceIdeal
import proofs.«420250_j79482664779988_1_alg».proof.Proof.Gen.Pre_finite_inputs
import proofs.«420250_j79482664779988_1_alg».proof.Proof.KRunValue
import proofs.«420250_j79482664779988_1_alg».proof.Proof.RRunValue
import proofs.«420250_j79482664779988_1_alg».proof.Proof.Equal
import proofs.«420250_j79482664779988_1_alg».proof.Proof.PreFacts
import Idealize.ShloMosaic.Adequacy
import Idealize.ShloMosaic.Init

noncomputable section

namespace Cert.Proof

open Idealize.ShloMosaic Idealize.SL.Sem

/-- The kernel's program, at words, runs and leaves its arguments as launched. -/
theorem frame_k : Cert.frame_Kernel := fun m ρ _ => Cert.Kernel.Gen.frame m ρ

/-- The same of the kernel's program over the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.RVal.run_value m ρ)

/-- From memories that agree on the arguments both programs end at one array: the kernel's function of the arguments,
    which under the precondition is the reference's. -/
theorem algebraic : Cert.algebraic_KernelIdeal_ReferenceIdeal := by
  intro m ρ m' ρ' hpre hagree
  refine ⟨_, Cert.KVal.run_value m ρ, ?_⟩
  refine (θ_run Cert.ReferenceIdeal.defs _ _).mono (fun r h c => ⟨(h c).1.trans ?_, (h c).2⟩)
    (Cert.RVal.run_value m' ρ')
  obtain ⟨e0, e1, e2, e3, e4, e5, e6, e7, e8, e9, e10, e11⟩ := hagree c
  obtain ⟨hrow, h7, h8, h9, h10, hv⟩ := Cert.PreF.of_pre m hpre c
  rw [e0, e1, e2, e3, e4, e5, e6, e7, e8, e9, e10, e11]
  exact (Cert.Eq.kRes_eq_rRes _ _ _ _ _ _ _ _ _ _ _ _ hrow h7 h8 h9 h10 hv).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
